-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024x1024 : Shape := ⟨4, ![32, 1, 1024, 1024]⟩
abbrev S_ : Shape := ⟨0, ![]⟩

class Facts : Prop where
  bcast_S_S32x1x1024x1024 : S_.BroadcastsInDim S32x1x1024x1024 (![] : Fin 0 → Fin S32x1x1024x1024.rank)
  reducesTo_S32x1x1024x1024_S_d0_1_2_3 : S32x1x1024x1024.ReducesTo [0, 1, 2, 3] S_
  h_S_ : 0 < S_.numel

variable [Facts]

def fn {F : FTy → Type} [FloatOps F] (main_arg0 : FVec F S32x1x1024x1024 .f32) (main_arg1 : IVec S32x1x1024x1024 32) : IVec S_ 1 :=
  let main_v0 : FVec F S32x1x1024x1024 .f32 := Host.absf main_arg0
  let main_cst : FVec F S_ .f32 := constant S_ .f32 0x7F800000#32
  let main_v1 : FVec F S32x1x1024x1024 .f32 := broadcastInDim S32x1x1024x1024 ![] bcast_S_S32x1x1024x1024 main_cst
  let main_v2 : IVec S32x1x1024x1024 1 := cmpf .olt main_v0 main_v1
  let main_c : IVec S_ 1 := constantI S_ 1 1#1
  let main_v3 : IVec S_ 1 := (fun x v => Host.reduce IntOp.andi x v reducesTo_S32x1x1024x1024_S_d0_1_2_3 h_S_) main_v2 main_c
  let main_c_0 : IVec S_ 32 := constantI S_ 32 0#32
  let main_v4 : IVec S32x1x1024x1024 32 := broadcastInDim S32x1x1024x1024 ![] bcast_S_S32x1x1024x1024 main_c_0
  let main_v5 : IVec S32x1x1024x1024 1 := cmpi .sge main_arg1 main_v4
  let main_c_1 : IVec S_ 1 := constantI S_ 1 1#1
  let main_v6 : IVec S_ 1 := (fun x v => Host.reduce IntOp.andi x v reducesTo_S32x1x1024x1024_S_d0_1_2_3 h_S_) main_v5 main_c_1
  let main_v7 : IVec S_ 1 := andi main_v3 main_v6
  let main_c_2 : IVec S_ 32 := constantI S_ 32 256#32
  let main_v8 : IVec S32x1x1024x1024 32 := broadcastInDim S32x1x1024x1024 ![] bcast_S_S32x1x1024x1024 main_c_2
  let main_v9 : IVec S32x1x1024x1024 1 := cmpi .slt main_arg1 main_v8
  let main_c_3 : IVec S_ 1 := constantI S_ 1 1#1
  let main_v10 : IVec S_ 1 := (fun x v => Host.reduce IntOp.andi x v reducesTo_S32x1x1024x1024_S_d0_1_2_3 h_S_) main_v9 main_c_3
  let main_v11 : IVec S_ 1 := andi main_v7 main_v10
  main_v11
-- ==== Kernel.lean ====
abbrev S32x1x1024x1024 : Shape := ⟨4, ![32, 1, 1024, 1024]⟩
abbrev S32x1024x1024 : Shape := ⟨3, ![32, 1024, 1024]⟩
abbrev S32x1x256 : Shape := ⟨3, ![32, 1, 256]⟩
abbrev S1x512x1024 : Shape := ⟨3, ![1, 512, 1024]⟩
abbrev S1x1x256 : Shape := ⟨3, ![1, 1, 256]⟩
abbrev S512x1024 : Shape := ⟨2, ![512, 1024]⟩
abbrev S1x256 : Shape := ⟨2, ![1, 256]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x1x1 : Shape := ⟨3, ![1, 1, 1]⟩

abbrev nBuf : Space → Nat
  | .hbm => 9
  | .vmem => 16
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1024x1024, .i32⟩
  | .hbm, ⟨2, _⟩ => ⟨S32x1024x1024, .f32⟩
  | .hbm, ⟨3, _⟩ => ⟨S32x1024x1024, .i32⟩
  | .hbm, ⟨4, _⟩ => ⟨S32x1x256, .f32⟩
  | .hbm, ⟨5, _⟩ => ⟨S32x1x256, .f32⟩
  | .hbm, ⟨6, _⟩ => ⟨S32x1x256, .f32⟩
  | .hbm, ⟨7, _⟩ => ⟨S32x1024x1024, .f32⟩
  | .hbm, ⟨8, _⟩ => ⟨S32x1x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .i32⟩
  | .local _ .vmem, ⟨3, _⟩ => ⟨S1x512x1024, .i32⟩
  | .local _ .vmem, ⟨4, _⟩ => ⟨S1x1x256, .f32⟩
  | .local _ .vmem, ⟨5, _⟩ => ⟨S1x1x256, .f32⟩
  | .local _ .vmem, ⟨6, _⟩ => ⟨S1x1x256, .f32⟩
  | .local _ .vmem, ⟨7, _⟩ => ⟨S1x1x256, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .i32⟩
  | .local _ .vmem, ⟨11, _⟩ => ⟨S1x512x1024, .i32⟩
  | .local _ .vmem, ⟨12, _⟩ => ⟨S1x1x256, .f32⟩
  | .local _ .vmem, ⟨13, _⟩ => ⟨S1x1x256, .f32⟩
  | .local _ .vmem, ⟨14, _⟩ => ⟨S1x512x1024, .f32⟩
  | .local _ .vmem, ⟨15, _⟩ => ⟨S1x512x1024, .f32⟩
  | _, _ => ⟨S32x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![32, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S32x1x1024x1024_S32x1024x1024 : S32x1x1024x1024.ShapeCasts S32x1024x1024
  inb_S1x1x256_S1x1x256_0_0_0 : ∀ a, (![0, 0, 0] : Fin 3 → Nat) a + S1x1x256.size a ≤ S1x1x256.size a
  h_S1x1x256 : 0 < S1x1x256.numel
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  iota_S1x256_d1_w32 : S1x256.Iotas .tc 32 [1]
  natLt_1_32 : 1 < 32
  reduces_S512x1024_S512 : S512x1024.Reduces [1] S512
  shapeCasts_S512_S512x1 : S512.ShapeCasts S512x1
  reduces_S512x1_S1 : S512x1.Reduces [0] S1
  shapeCasts_S1_S1x1 : S1.ShapeCasts S1x1
  broadcasts_S1x1_S1x256 : S1x1.Broadcasts S1x256
  shapeCasts_S1x1x256_S1x256 : S1x1x256.ShapeCasts S1x256
  shapeCasts_S1x256_S1x1x256 : S1x256.ShapeCasts S1x1x256
  inb_S1x1x256_S1x1x1_0_0_0 : ∀ a, (![0, 0, 0] : Fin 3 → Nat) a + S1x1x1.size a ≤ S1x1x256.size a
  h_S1x1x1 : 0 < S1x1x1.numel
  inpos_S1x1x1_p0_0_0 : ∀ a, (![0, 0, 0] : Fin 3 → Nat) a < S1x1x1.size a
  inb_S1x1x256_S1x1x1_0_0_1 : ∀ a, (![0, 0, 1] : Fin 3 → Nat) a + S1x1x1.size a ≤ S1x1x256.size a
  inb_S1x1x256_S1x1x1_0_0_2 : ∀ a, (![0, 0, 2] : Fin 3 → Nat) a + S1x1x1.size a ≤ S1x1x256.size a
  inb_S1x1x256_S1x1x1_0_0_3 : ∀ a, (![0, 0, 3] : Fin 3 → Nat) a + S1x1x1.size a ≤ S1x1x256.size a
  inb_S1x1x256_S1x1x1_0_0_4 : ∀ a, (![0, 0, 4] : Fin 3 → Nat) a + S1x1x1.size a ≤ S1x1x256.size a
  inb_S1x1x256_S1x1x1_0_0_5 : ∀ a, (![0, 0, 5] : Fin 3 → Nat) a + S1x1x1.size a ≤ S1x1x256.size a
  inb_S1x1x256_S1x1x1_0_0_6 : ∀ a, (![0, 0, 6] : Fin 3 → Nat) a + S1x1x1.size a ≤ S1x1x256.size a
  inb_S1x1x256_S1x1x1_0_0_7 : ∀ a, (![0, 0, 7] : Fin 3 → Nat) a + S1x1x1.size a ≤ S1x1x256.size a
  inb_S1x1x256_S1x1x1_0_0_8 : ∀ a, (![0, 0, 8] : Fin 3 → Nat) a + S1x1x1.size a ≤ S1x1x256.size a
  inb_S1x1x256_S1x1x1_0_0_9 : ∀ a, (![0, 0, 9] : Fin 3 → Nat) a + S1x1x1.size a ≤ S1x1x256.size a
  inb_S1x1x256_S1x1x1_0_0_10 : ∀ a, (![0, 0, 10] : Fin 3 → Nat) a + S1x1x1.size a ≤ S1x1x256.size a
  inb_S1x1x256_S1x1x1_0_0_11 : ∀ a, (![0, 0, 11] : Fin 3 → Nat) a + S1x1x1.size a ≤ S1x1x256.size a
  inb_S1x1x256_S1x1x1_0_0_12 : ∀ a, (![0, 0, 12] : Fin 3 → Nat) a + S1x1x1.size a ≤ S1x1x256.size a
  inb_S1x1x256_S1x1x1_0_0_13 : ∀ a, (![0, 0, 13] : Fin 3 → Nat) a + S1x1x1.size a ≤ S1x1x256.size a
  inb_S1x1x256_S1x1x1_0_0_14 : ∀ a, (![0, 0, 14] : Fin 3 → Nat) a + S1x1x1.size a ≤ S1x1x256.size a
  inb_S1x1x256_S1x1x1_0_0_15 : ∀ a, (![0, 0, 15] : Fin 3 → Nat) a + S1x1x1.size a ≤ S1x1x256.size a
  inb_S1x1x256_S1x1x1_0_0_16 : ∀ a, (![0, 0, 16] : Fin 3 → Nat) a + S1x1x1.size a ≤ S1x1x256.size a
  inb_S1x1x256_S1x1x1_0_0_17 : ∀ a, (![0, 0, 17] : Fin 3 → Nat) a + S1x1x1.size a ≤ S1x1x256.size a
  inb_S1x1x256_S1x1x1_0_0_18 : ∀ a, (![0, 0, 18] : Fin 3 → Nat) a + S1x1x1.size a ≤ S1x1x256.size a
  inb_S1x1x256_S1x1x1_0_0_19 : ∀ a, (![0, 0, 19] : Fin 3 → Nat) a + S1x1x1.size a ≤ S1x1x256.size a
  inb_S1x1x256_S1x1x1_0_0_20 : ∀ a, (![0, 0, 20] : Fin 3 → Nat) a + S1x1x1.size a ≤ S1x1x256.size a
  inb_S1x1x256_S1x1x1_0_0_21 : ∀ a, (![0, 0, 21] : Fin 3 → Nat) a + S1x1x1.size a ≤ S1x1x256.size a
  inb_S1x1x256_S1x1x1_0_0_22 : ∀ a, (![0, 0, 22] : Fin 3 → Nat) a + S1x1x1.size a ≤ S1x1x256.size a
  inb_S1x1x256_S1x1x1_0_0_23 : ∀ a, (![0, 0, 23] : Fin 3 → Nat) a + S1x1x1.size a ≤ S1x1x256.size a
  inb_S1x1x256_S1x1x1_0_0_24 : ∀ a, (![0, 0, 24] : Fin 3 → Nat) a + S1x1x1.size a ≤ S1x1x256.size a
  inb_S1x1x256_S1x1x1_0_0_25 : ∀ a, (![0, 0, 25] : Fin 3 → Nat) a + S1x1x1.size a ≤ S1x1x256.size a
  inb_S1x1x256_S1x1x1_0_0_26 : ∀ a, (![0, 0, 26] : Fin 3 → Nat) a + S1x1x1.size a ≤ S1x1x256.size a
  inb_S1x1x256_S1x1x1_0_0_27 : ∀ a, (![0, 0, 27] : Fin 3 → Nat) a + S1x1x1.size a ≤ S1x1x256.size a
  inb_S1x1x256_S1x1x1_0_0_28 : ∀ a, (![0, 0, 28] : Fin 3 → Nat) a + S1x1x1.size a ≤ S1x1x256.size a
  inb_S1x1x256_S1x1x1_0_0_29 : ∀ a, (![0, 0, 29] : Fin 3 → Nat) a + S1x1x1.size a ≤ S1x1x256.size a
  inb_S1x1x256_S1x1x1_0_0_30 : ∀ a, (![0, 0, 30] : Fin 3 → Nat) a + S1x1x1.size a ≤ S1x1x256.size a
  inb_S1x1x256_S1x1x1_0_0_31 : ∀ a, (![0, 0, 31] : Fin 3 → Nat) a + S1x1x1.size a ≤ S1x1x256.size a
  inb_S1x1x256_S1x1x1_0_0_32 : ∀ a, (![0, 0, 32] : Fin 3 → Nat) a + S1x1x1.size a ≤ S1x1x256.size a
  inb_S1x1x256_S1x1x1_0_0_33 : ∀ a, (![0, 0, 33] : Fin 3 → Nat) a + S1x1x1.size a ≤ S1x1x256.size a
  inb_S1x1x256_S1x1x1_0_0_34 : ∀ a, (![0, 0, 34] : Fin 3 → Nat) a + S1x1x1.size a ≤ S1x1x256.size a
  inb_S1x1x256_S1x1x1_0_0_35 : ∀ a, (![0, 0, 35] : Fin 3 → Nat) a + S1x1x1.size a ≤ S1x1x256.size a
  inb_S1x1x256_S1x1x1_0_0_36 : ∀ a, (![0, 0, 36] : Fin 3 → Nat) a + S1x1x1.size a ≤ S1x1x256.size a
  inb_S1x1x256_S1x1x1_0_0_37 : ∀ a, (![0, 0, 37] : Fin 3 → Nat) a + S1x1x1.size a ≤ S1x1x256.size a
  inb_S1x1x256_S1x1x1_0_0_38 : ∀ a, (![0, 0, 38] : Fin 3 → Nat) a + S1x1x1.size a ≤ S1x1x256.size a
  inb_S1x1x256_S1x1x1_0_0_39 : ∀ a, (![0, 0, 39] : Fin 3 → Nat) a + S1x1x1.size a ≤ S1x1x256.size a
  inb_S1x1x256_S1x1x1_0_0_40 : ∀ a, (![0, 0, 40] : Fin 3 → Nat) a + S1x1x1.size a ≤ S1x1x256.size a
  inb_S1x1x256_S1x1x1_0_0_41 : ∀ a, (![0, 0, 41] : Fin 3 → Nat) a + S1x1x1.size a ≤ S1x1x256.size a
  inb_S1x1x256_S1x1x1_0_0_42 : ∀ a, (![0, 0, 42] : Fin 3 → Nat) a + S1x1x1.size a ≤ S1x1x256.size a
  inb_S1x1x256_S1x1x1_0_0_43 : ∀ a, (![0, 0, 43] : Fin 3 → Nat) a + S1x1x1.size a ≤ S1x1x256.size a
  inb_S1x1x256_S1x1x1_0_0_44 : ∀ a, (![0, 0, 44] : Fin 3 → Nat) a + S1x1x1.size a ≤ S1x1x256.size a
  inb_S1x1x256_S1x1x1_0_0_45 : ∀ a, (![0, 0, 45] : Fin 3 → Nat) a + S1x1x1.size a ≤ S1x1x256.size a
  inb_S1x1x256_S1x1x1_0_0_46 : ∀ a, (![0, 0, 46] : Fin 3 → Nat) a + S1x1x1.size a ≤ S1x1x256.size a
  inb_S1x1x256_S1x1x1_0_0_47 : ∀ a, (![0, 0, 47] : Fin 3 → Nat) a + S1x1x1.size a ≤ S1x1x256.size a
  inb_S1x1x256_S1x1x1_0_0_48 : ∀ a, (![0, 0, 48] : Fin 3 → Nat) a + S1x1x1.size a ≤ S1x1x256.size a
  inb_S1x1x256_S1x1x1_0_0_49 : ∀ a, (![0, 0, 49] : Fin 3 → Nat) a + S1x1x1.size a ≤ S1x1x256.size a
  inb_S1x1x256_S1x1x1_0_0_50 : ∀ a, (![0, 0, 50] : Fin 3 → Nat) a + S1x1x1.size a ≤ S1x1x256.size a
  inb_S1x1x256_S1x1x1_0_0_51 : ∀ a, (![0, 0, 51] : Fin 3 → Nat) a + S1x1x1.size a ≤ S1x1x256.size a
  inb_S1x1x256_S1x1x1_0_0_52 : ∀ a, (![0, 0, 52] : Fin 3 → Nat) a + S1x1x1.size a ≤ S1x1x256.size a
  inb_S1x1x256_S1x1x1_0_0_53 : ∀ a, (![0, 0, 53] : Fin 3 → Nat) a + S1x1x1.size a ≤ S1x1x256.size a
  inb_S1x1x256_S1x1x1_0_0_54 : ∀ a, (![0, 0, 54] : Fin 3 → Nat) a + S1x1x1.size a ≤ S1x1x256.size a
  inb_S1x1x256_S1x1x1_0_0_55 : ∀ a, (![0, 0, 55] : Fin 3 → Nat) a + S1x1x1.size a ≤ S1x1x256.size a
  inb_S1x1x256_S1x1x1_0_0_56 : ∀ a, (![0, 0, 56] : Fin 3 → Nat) a + S1x1x1.size a ≤ S1x1x256.size a
  inb_S1x1x256_S1x1x1_0_0_57 : ∀ a, (![0, 0, 57] : Fin 3 → Nat) a + S1x1x1.size a ≤ S1x1x256.size a
  inb_S1x1x256_S1x1x1_0_0_58 : ∀ a, (![0, 0, 58] : Fin 3 → Nat) a + S1x1x1.size a ≤ S1x1x256.size a
  inb_S1x1x256_S1x1x1_0_0_59 : ∀ a, (![0, 0, 59] : Fin 3 → Nat) a + S1x1x1.size a ≤ S1x1x256.size a
  inb_S1x1x256_S1x1x1_0_0_60 : ∀ a, (![0, 0, 60] : Fin 3 → Nat) a + S1x1x1.size a ≤ S1x1x256.size a
  inb_S1x1x256_S1x1x1_0_0_61 : ∀ a, (![0, 0, 61] : Fin 3 → Nat) a + S1x1x1.size a ≤ S1x1x256.size a
  inb_S1x1x256_S1x1x1_0_0_62 : ∀ a, (![0, 0, 62] : Fin 3 → Nat) a + S1x1x1.size a ≤ S1x1x256.size a
  inb_S1x1x256_S1x1x1_0_0_63 : ∀ a, (![0, 0, 63] : Fin 3 → Nat) a + S1x1x1.size a ≤ S1x1x256.size a
  inb_S1x1x256_S1x1x1_0_0_64 : ∀ a, (![0, 0, 64] : Fin 3 → Nat) a + S1x1x1.size a ≤ S1x1x256.size a
  inb_S1x1x256_S1x1x1_0_0_65 : ∀ a, (![0, 0, 65] : Fin 3 → Nat) a + S1x1x1.size a ≤ S1x1x256.size a
  inb_S1x1x256_S1x1x1_0_0_66 : ∀ a, (![0, 0, 66] : Fin 3 → Nat) a + S1x1x1.size a ≤ S1x1x256.size a
  inb_S1x1x256_S1x1x1_0_0_67 : ∀ a, (![0, 0, 67] : Fin 3 → Nat) a + S1x1x1.size a ≤ S1x1x256.size a
  inb_S1x1x256_S1x1x1_0_0_68 : ∀ a, (![0, 0, 68] : Fin 3 → Nat) a + S1x1x1.size a ≤ S1x1x256.size a
  inb_S1x1x256_S1x1x1_0_0_69 : ∀ a, (![0, 0, 69] : Fin 3 → Nat) a + S1x1x1.size a ≤ S1x1x256.size a
  inb_S1x1x256_S1x1x1_0_0_70 : ∀ a, (![0, 0, 70] : Fin 3 → Nat) a + S1x1x1.size a ≤ S1x1x256.size a
  inb_S1x1x256_S1x1x1_0_0_71 : ∀ a, (![0, 0, 71] : Fin 3 → Nat) a + S1x1x1.size a ≤ S1x1x256.size a
  inb_S1x1x256_S1x1x1_0_0_72 : ∀ a, (![0, 0, 72] : Fin 3 → Nat) a + S1x1x1.size a ≤ S1x1x256.size a
  inb_S1x1x256_S1x1x1_0_0_73 : ∀ a, (![0, 0, 73] : Fin 3 → Nat) a + S1x1x1.size a ≤ S1x1x256.size a
  inb_S1x1x256_S1x1x1_0_0_74 : ∀ a, (![0, 0, 74] : Fin 3 → Nat) a + S1x1x1.size a ≤ S1x1x256.size a
  inb_S1x1x256_S1x1x1_0_0_75 : ∀ a, (![0, 0, 75] : Fin 3 → Nat) a + S1x1x1.size a ≤ S1x1x256.size a
  inb_S1x1x256_S1x1x1_0_0_76 : ∀ a, (![0, 0, 76] : Fin 3 → Nat) a + S1x1x1.size a ≤ S1x1x256.size a
  inb_S1x1x256_S1x1x1_0_0_77 : ∀ a, (![0, 0, 77] : Fin 3 → Nat) a + S1x1x1.size a ≤ S1x1x256.size a
  inb_S1x1x256_S1x1x1_0_0_78 : ∀ a, (![0, 0, 78] : Fin 3 → Nat) a + S1x1x1.size a ≤ S1x1x256.size a
  inb_S1x1x256_S1x1x1_0_0_79 : ∀ a, (![0, 0, 79] : Fin 3 → Nat) a + S1x1x1.size a ≤ S1x1x256.size a
  inb_S1x1x256_S1x1x1_0_0_80 : ∀ a, (![0, 0, 80] : Fin 3 → Nat) a + S1x1x1.size a ≤ S1x1x256.size a
  inb_S1x1x256_S1x1x1_0_0_81 : ∀ a, (![0, 0, 81] : Fin 3 → Nat) a + S1x1x1.size a ≤ S1x1x256.size a
  inb_S1x1x256_S1x1x1_0_0_82 : ∀ a, (![0, 0, 82] : Fin 3 → Nat) a + S1x1x1.size a ≤ S1x1x256.size a
  inb_S1x1x256_S1x1x1_0_0_83 : ∀ a, (![0, 0, 83] : Fin 3 → Nat) a + S1x1x1.size a ≤ S1x1x256.size a
  inb_S1x1x256_S1x1x1_0_0_84 : ∀ a, (![0, 0, 84] : Fin 3 → Nat) a + S1x1x1.size a ≤ S1x1x256.size a
  inb_S1x1x256_S1x1x1_0_0_85 : ∀ a, (![0, 0, 85] : Fin 3 → Nat) a + S1x1x1.size a ≤ S1x1x256.size a
  inb_S1x1x256_S1x1x1_0_0_86 : ∀ a, (![0, 0, 86] : Fin 3 → Nat) a + S1x1x1.size a ≤ S1x1x256.size a
  inb_S1x1x256_S1x1x1_0_0_87 : ∀ a, (![0, 0, 87] : Fin 3 → Nat) a + S1x1x1.size a ≤ S1x1x256.size a
  inb_S1x1x256_S1x1x1_0_0_88 : ∀ a, (![0, 0, 88] : Fin 3 → Nat) a + S1x1x1.size a ≤ S1x1x256.size a
  inb_S1x1x256_S1x1x1_0_0_89 : ∀ a, (![0, 0, 89] : Fin 3 → Nat) a + S1x1x1.size a ≤ S1x1x256.size a
  inb_S1x1x256_S1x1x1_0_0_90 : ∀ a, (![0, 0, 90] : Fin 3 → Nat) a + S1x1x1.size a ≤ S1x1x256.size a
  inb_S1x1x256_S1x1x1_0_0_91 : ∀ a, (![0, 0, 91] : Fin 3 → Nat) a + S1x1x1.size a ≤ S1x1x256.size a
  inb_S1x1x256_S1x1x1_0_0_92 : ∀ a, (![0, 0, 92] : Fin 3 → Nat) a + S1x1x1.size a ≤ S1x1x256.size a
  inb_S1x1x256_S1x1x1_0_0_93 : ∀ a, (![0, 0, 93] : Fin 3 → Nat) a + S1x1x1.size a ≤ S1x1x256.size a
  inb_S1x1x256_S1x1x1_0_0_94 : ∀ a, (![0, 0, 94] : Fin 3 → Nat) a + S1x1x1.size a ≤ S1x1x256.size a
  inb_S1x1x256_S1x1x1_0_0_95 : ∀ a, (![0, 0, 95] : Fin 3 → Nat) a + S1x1x1.size a ≤ S1x1x256.size a
  inb_S1x1x256_S1x1x1_0_0_96 : ∀ a, (![0, 0, 96] : Fin 3 → Nat) a + S1x1x1.size a ≤ S1x1x256.size a
  inb_S1x1x256_S1x1x1_0_0_97 : ∀ a, (![0, 0, 97] : Fin 3 → Nat) a + S1x1x1.size a ≤ S1x1x256.size a
  inb_S1x1x256_S1x1x1_0_0_98 : ∀ a, (![0, 0, 98] : Fin 3 → Nat) a + S1x1x1.size a ≤ S1x1x256.size a
  inb_S1x1x256_S1x1x1_0_0_99 : ∀ a, (![0, 0, 99] : Fin 3 → Nat) a + S1x1x1.size a ≤ S1x1x256.size a
  inb_S1x1x256_S1x1x1_0_0_100 : ∀ a, (![0, 0, 100] : Fin 3 → Nat) a + S1x1x1.size a ≤ S1x1x256.size a
  inb_S1x1x256_S1x1x1_0_0_101 : ∀ a, (![0, 0, 101] : Fin 3 → Nat) a + S1x1x1.size a ≤ S1x1x256.size a
  inb_S1x1x256_S1x1x1_0_0_102 : ∀ a, (![0, 0, 102] : Fin 3 → Nat) a + S1x1x1.size a ≤ S1x1x256.size a
  inb_S1x1x256_S1x1x1_0_0_103 : ∀ a, (![0, 0, 103] : Fin 3 → Nat) a + S1x1x1.size a ≤ S1x1x256.size a
  inb_S1x1x256_S1x1x1_0_0_104 : ∀ a, (![0, 0, 104] : Fin 3 → Nat) a + S1x1x1.size a ≤ S1x1x256.size a
  inb_S1x1x256_S1x1x1_0_0_105 : ∀ a, (![0, 0, 105] : Fin 3 → Nat) a + S1x1x1.size a ≤ S1x1x256.size a
  inb_S1x1x256_S1x1x1_0_0_106 : ∀ a, (![0, 0, 106] : Fin 3 → Nat) a + S1x1x1.size a ≤ S1x1x256.size a
  inb_S1x1x256_S1x1x1_0_0_107 : ∀ a, (![0, 0, 107] : Fin 3 → Nat) a + S1x1x1.size a ≤ S1x1x256.size a
  inb_S1x1x256_S1x1x1_0_0_108 : ∀ a, (![0, 0, 108] : Fin 3 → Nat) a + S1x1x1.size a ≤ S1x1x256.size a
  inb_S1x1x256_S1x1x1_0_0_109 : ∀ a, (![0, 0, 109] : Fin 3 → Nat) a + S1x1x1.size a ≤ S1x1x256.size a
  inb_S1x1x256_S1x1x1_0_0_110 : ∀ a, (![0, 0, 110] : Fin 3 → Nat) a + S1x1x1.size a ≤ S1x1x256.size a
  inb_S1x1x256_S1x1x1_0_0_111 : ∀ a, (![0, 0, 111] : Fin 3 → Nat) a + S1x1x1.size a ≤ S1x1x256.size a
  inb_S1x1x256_S1x1x1_0_0_112 : ∀ a, (![0, 0, 112] : Fin 3 → Nat) a + S1x1x1.size a ≤ S1x1x256.size a
  inb_S1x1x256_S1x1x1_0_0_113 : ∀ a, (![0, 0, 113] : Fin 3 → Nat) a + S1x1x1.size a ≤ S1x1x256.size a
  inb_S1x1x256_S1x1x1_0_0_114 : ∀ a, (![0, 0, 114] : Fin 3 → Nat) a + S1x1x1.size a ≤ S1x1x256.size a
  inb_S1x1x256_S1x1x1_0_0_115 : ∀ a, (![0, 0, 115] : Fin 3 → Nat) a + S1x1x1.size a ≤ S1x1x256.size a
  inb_S1x1x256_S1x1x1_0_0_116 : ∀ a, (![0, 0, 116] : Fin 3 → Nat) a + S1x1x1.size a ≤ S1x1x256.size a
  inb_S1x1x256_S1x1x1_0_0_117 : ∀ a, (![0, 0, 117] : Fin 3 → Nat) a + S1x1x1.size a ≤ S1x1x256.size a
  inb_S1x1x256_S1x1x1_0_0_118 : ∀ a, (![0, 0, 118] : Fin 3 → Nat) a + S1x1x1.size a ≤ S1x1x256.size a
  inb_S1x1x256_S1x1x1_0_0_119 : ∀ a, (![0, 0, 119] : Fin 3 → Nat) a + S1x1x1.size a ≤ S1x1x256.size a
  inb_S1x1x256_S1x1x1_0_0_120 : ∀ a, (![0, 0, 120] : Fin 3 → Nat) a + S1x1x1.size a ≤ S1x1x256.size a
  inb_S1x1x256_S1x1x1_0_0_121 : ∀ a, (![0, 0, 121] : Fin 3 → Nat) a + S1x1x1.size a ≤ S1x1x256.size a
  inb_S1x1x256_S1x1x1_0_0_122 : ∀ a, (![0, 0, 122] : Fin 3 → Nat) a + S1x1x1.size a ≤ S1x1x256.size a
  inb_S1x1x256_S1x1x1_0_0_123 : ∀ a, (![0, 0, 123] : Fin 3 → Nat) a + S1x1x1.size a ≤ S1x1x256.size a
  inb_S1x1x256_S1x1x1_0_0_124 : ∀ a, (![0, 0, 124] : Fin 3 → Nat) a + S1x1x1.size a ≤ S1x1x256.size a
  inb_S1x1x256_S1x1x1_0_0_125 : ∀ a, (![0, 0, 125] : Fin 3 → Nat) a + S1x1x1.size a ≤ S1x1x256.size a
  inb_S1x1x256_S1x1x1_0_0_126 : ∀ a, (![0, 0, 126] : Fin 3 → Nat) a + S1x1x1.size a ≤ S1x1x256.size a
  inb_S1x1x256_S1x1x1_0_0_127 : ∀ a, (![0, 0, 127] : Fin 3 → Nat) a + S1x1x1.size a ≤ S1x1x256.size a
  inb_S1x1x256_S1x1x1_0_0_128 : ∀ a, (![0, 0, 128] : Fin 3 → Nat) a + S1x1x1.size a ≤ S1x1x256.size a
  inb_S1x1x256_S1x1x1_0_0_129 : ∀ a, (![0, 0, 129] : Fin 3 → Nat) a + S1x1x1.size a ≤ S1x1x256.size a
  inb_S1x1x256_S1x1x1_0_0_130 : ∀ a, (![0, 0, 130] : Fin 3 → Nat) a + S1x1x1.size a ≤ S1x1x256.size a
  inb_S1x1x256_S1x1x1_0_0_131 : ∀ a, (![0, 0, 131] : Fin 3 → Nat) a + S1x1x1.size a ≤ S1x1x256.size a
  inb_S1x1x256_S1x1x1_0_0_132 : ∀ a, (![0, 0, 132] : Fin 3 → Nat) a + S1x1x1.size a ≤ S1x1x256.size a
  inb_S1x1x256_S1x1x1_0_0_133 : ∀ a, (![0, 0, 133] : Fin 3 → Nat) a + S1x1x1.size a ≤ S1x1x256.size a
  inb_S1x1x256_S1x1x1_0_0_134 : ∀ a, (![0, 0, 134] : Fin 3 → Nat) a + S1x1x1.size a ≤ S1x1x256.size a
  inb_S1x1x256_S1x1x1_0_0_135 : ∀ a, (![0, 0, 135] : Fin 3 → Nat) a + S1x1x1.size a ≤ S1x1x256.size a
  inb_S1x1x256_S1x1x1_0_0_136 : ∀ a, (![0, 0, 136] : Fin 3 → Nat) a + S1x1x1.size a ≤ S1x1x256.size a
  inb_S1x1x256_S1x1x1_0_0_137 : ∀ a, (![0, 0, 137] : Fin 3 → Nat) a + S1x1x1.size a ≤ S1x1x256.size a
  inb_S1x1x256_S1x1x1_0_0_138 : ∀ a, (![0, 0, 138] : Fin 3 → Nat) a + S1x1x1.size a ≤ S1x1x256.size a
  inb_S1x1x256_S1x1x1_0_0_139 : ∀ a, (![0, 0, 139] : Fin 3 → Nat) a + S1x1x1.size a ≤ S1x1x256.size a
  inb_S1x1x256_S1x1x1_0_0_140 : ∀ a, (![0, 0, 140] : Fin 3 → Nat) a + S1x1x1.size a ≤ S1x1x256.size a
  inb_S1x1x256_S1x1x1_0_0_141 : ∀ a, (![0, 0, 141] : Fin 3 → Nat) a + S1x1x1.size a ≤ S1x1x256.size a
  inb_S1x1x256_S1x1x1_0_0_142 : ∀ a, (![0, 0, 142] : Fin 3 → Nat) a + S1x1x1.size a ≤ S1x1x256.size a
  inb_S1x1x256_S1x1x1_0_0_143 : ∀ a, (![0, 0, 143] : Fin 3 → Nat) a + S1x1x1.size a ≤ S1x1x256.size a
  inb_S1x1x256_S1x1x1_0_0_144 : ∀ a, (![0, 0, 144] : Fin 3 → Nat) a + S1x1x1.size a ≤ S1x1x256.size a
  inb_S1x1x256_S1x1x1_0_0_145 : ∀ a, (![0, 0, 145] : Fin 3 → Nat) a + S1x1x1.size a ≤ S1x1x256.size a
  inb_S1x1x256_S1x1x1_0_0_146 : ∀ a, (![0, 0, 146] : Fin 3 → Nat) a + S1x1x1.size a ≤ S1x1x256.size a
  inb_S1x1x256_S1x1x1_0_0_147 : ∀ a, (![0, 0, 147] : Fin 3 → Nat) a + S1x1x1.size a ≤ S1x1x256.size a
  inb_S1x1x256_S1x1x1_0_0_148 : ∀ a, (![0, 0, 148] : Fin 3 → Nat) a + S1x1x1.size a ≤ S1x1x256.size a
  inb_S1x1x256_S1x1x1_0_0_149 : ∀ a, (![0, 0, 149] : Fin 3 → Nat) a + S1x1x1.size a ≤ S1x1x256.size a
  inb_S1x1x256_S1x1x1_0_0_150 : ∀ a, (![0, 0, 150] : Fin 3 → Nat) a + S1x1x1.size a ≤ S1x1x256.size a
  inb_S1x1x256_S1x1x1_0_0_151 : ∀ a, (![0, 0, 151] : Fin 3 → Nat) a + S1x1x1.size a ≤ S1x1x256.size a
  inb_S1x1x256_S1x1x1_0_0_152 : ∀ a, (![0, 0, 152] : Fin 3 → Nat) a + S1x1x1.size a ≤ S1x1x256.size a
  inb_S1x1x256_S1x1x1_0_0_153 : ∀ a, (![0, 0, 153] : Fin 3 → Nat) a + S1x1x1.size a ≤ S1x1x256.size a
  inb_S1x1x256_S1x1x1_0_0_154 : ∀ a, (![0, 0, 154] : Fin 3 → Nat) a + S1x1x1.size a ≤ S1x1x256.size a
  inb_S1x1x256_S1x1x1_0_0_155 : ∀ a, (![0, 0, 155] : Fin 3 → Nat) a + S1x1x1.size a ≤ S1x1x256.size a
  inb_S1x1x256_S1x1x1_0_0_156 : ∀ a, (![0, 0, 156] : Fin 3 → Nat) a + S1x1x1.size a ≤ S1x1x256.size a
  inb_S1x1x256_S1x1x1_0_0_157 : ∀ a, (![0, 0, 157] : Fin 3 → Nat) a + S1x1x1.size a ≤ S1x1x256.size a
  inb_S1x1x256_S1x1x1_0_0_158 : ∀ a, (![0, 0, 158] : Fin 3 → Nat) a + S1x1x1.size a ≤ S1x1x256.size a
  inb_S1x1x256_S1x1x1_0_0_159 : ∀ a, (![0, 0, 159] : Fin 3 → Nat) a + S1x1x1.size a ≤ S1x1x256.size a
  inb_S1x1x256_S1x1x1_0_0_160 : ∀ a, (![0, 0, 160] : Fin 3 → Nat) a + S1x1x1.size a ≤ S1x1x256.size a
  inb_S1x1x256_S1x1x1_0_0_161 : ∀ a, (![0, 0, 161] : Fin 3 → Nat) a + S1x1x1.size a ≤ S1x1x256.size a
  inb_S1x1x256_S1x1x1_0_0_162 : ∀ a, (![0, 0, 162] : Fin 3 → Nat) a + S1x1x1.size a ≤ S1x1x256.size a
  inb_S1x1x256_S1x1x1_0_0_163 : ∀ a, (![0, 0, 163] : Fin 3 → Nat) a + S1x1x1.size a ≤ S1x1x256.size a
  inb_S1x1x256_S1x1x1_0_0_164 : ∀ a, (![0, 0, 164] : Fin 3 → Nat) a + S1x1x1.size a ≤ S1x1x256.size a
  inb_S1x1x256_S1x1x1_0_0_165 : ∀ a, (![0, 0, 165] : Fin 3 → Nat) a + S1x1x1.size a ≤ S1x1x256.size a
  inb_S1x1x256_S1x1x1_0_0_166 : ∀ a, (![0, 0, 166] : Fin 3 → Nat) a + S1x1x1.size a ≤ S1x1x256.size a
  inb_S1x1x256_S1x1x1_0_0_167 : ∀ a, (![0, 0, 167] : Fin 3 → Nat) a + S1x1x1.size a ≤ S1x1x256.size a
  inb_S1x1x256_S1x1x1_0_0_168 : ∀ a, (![0, 0, 168] : Fin 3 → Nat) a + S1x1x1.size a ≤ S1x1x256.size a
  inb_S1x1x256_S1x1x1_0_0_169 : ∀ a, (![0, 0, 169] : Fin 3 → Nat) a + S1x1x1.size a ≤ S1x1x256.size a
  inb_S1x1x256_S1x1x1_0_0_170 : ∀ a, (![0, 0, 170] : Fin 3 → Nat) a + S1x1x1.size a ≤ S1x1x256.size a
  inb_S1x1x256_S1x1x1_0_0_171 : ∀ a, (![0, 0, 171] : Fin 3 → Nat) a + S1x1x1.size a ≤ S1x1x256.size a
  inb_S1x1x256_S1x1x1_0_0_172 : ∀ a, (![0, 0, 172] : Fin 3 → Nat) a + S1x1x1.size a ≤ S1x1x256.size a
  inb_S1x1x256_S1x1x1_0_0_173 : ∀ a, (![0, 0, 173] : Fin 3 → Nat) a + S1x1x1.size a ≤ S1x1x256.size a
  inb_S1x1x256_S1x1x1_0_0_174 : ∀ a, (![0, 0, 174] : Fin 3 → Nat) a + S1x1x1.size a ≤ S1x1x256.size a
  inb_S1x1x256_S1x1x1_0_0_175 : ∀ a, (![0, 0, 175] : Fin 3 → Nat) a + S1x1x1.size a ≤ S1x1x256.size a
  inb_S1x1x256_S1x1x1_0_0_176 : ∀ a, (![0, 0, 176] : Fin 3 → Nat) a + S1x1x1.size a ≤ S1x1x256.size a
  inb_S1x1x256_S1x1x1_0_0_177 : ∀ a, (![0, 0, 177] : Fin 3 → Nat) a + S1x1x1.size a ≤ S1x1x256.size a
  inb_S1x1x256_S1x1x1_0_0_178 : ∀ a, (![0, 0, 178] : Fin 3 → Nat) a + S1x1x1.size a ≤ S1x1x256.size a
  inb_S1x1x256_S1x1x1_0_0_179 : ∀ a, (![0, 0, 179] : Fin 3 → Nat) a + S1x1x1.size a ≤ S1x1x256.size a
  inb_S1x1x256_S1x1x1_0_0_180 : ∀ a, (![0, 0, 180] : Fin 3 → Nat) a + S1x1x1.size a ≤ S1x1x256.size a
  inb_S1x1x256_S1x1x1_0_0_181 : ∀ a, (![0, 0, 181] : Fin 3 → Nat) a + S1x1x1.size a ≤ S1x1x256.size a
  inb_S1x1x256_S1x1x1_0_0_182 : ∀ a, (![0, 0, 182] : Fin 3 → Nat) a + S1x1x1.size a ≤ S1x1x256.size a
  inb_S1x1x256_S1x1x1_0_0_183 : ∀ a, (![0, 0, 183] : Fin 3 → Nat) a + S1x1x1.size a ≤ S1x1x256.size a
  inb_S1x1x256_S1x1x1_0_0_184 : ∀ a, (![0, 0, 184] : Fin 3 → Nat) a + S1x1x1.size a ≤ S1x1x256.size a
  inb_S1x1x256_S1x1x1_0_0_185 : ∀ a, (![0, 0, 185] : Fin 3 → Nat) a + S1x1x1.size a ≤ S1x1x256.size a
  inb_S1x1x256_S1x1x1_0_0_186 : ∀ a, (![0, 0, 186] : Fin 3 → Nat) a + S1x1x1.size a ≤ S1x1x256.size a
  inb_S1x1x256_S1x1x1_0_0_187 : ∀ a, (![0, 0, 187] : Fin 3 → Nat) a + S1x1x1.size a ≤ S1x1x256.size a
  inb_S1x1x256_S1x1x1_0_0_188 : ∀ a, (![0, 0, 188] : Fin 3 → Nat) a + S1x1x1.size a ≤ S1x1x256.size a
  inb_S1x1x256_S1x1x1_0_0_189 : ∀ a, (![0, 0, 189] : Fin 3 → Nat) a + S1x1x1.size a ≤ S1x1x256.size a
  inb_S1x1x256_S1x1x1_0_0_190 : ∀ a, (![0, 0, 190] : Fin 3 → Nat) a + S1x1x1.size a ≤ S1x1x256.size a
  inb_S1x1x256_S1x1x1_0_0_191 : ∀ a, (![0, 0, 191] : Fin 3 → Nat) a + S1x1x1.size a ≤ S1x1x256.size a
  inb_S1x1x256_S1x1x1_0_0_192 : ∀ a, (![0, 0, 192] : Fin 3 → Nat) a + S1x1x1.size a ≤ S1x1x256.size a
  inb_S1x1x256_S1x1x1_0_0_193 : ∀ a, (![0, 0, 193] : Fin 3 → Nat) a + S1x1x1.size a ≤ S1x1x256.size a
  inb_S1x1x256_S1x1x1_0_0_194 : ∀ a, (![0, 0, 194] : Fin 3 → Nat) a + S1x1x1.size a ≤ S1x1x256.size a
  inb_S1x1x256_S1x1x1_0_0_195 : ∀ a, (![0, 0, 195] : Fin 3 → Nat) a + S1x1x1.size a ≤ S1x1x256.size a
  inb_S1x1x256_S1x1x1_0_0_196 : ∀ a, (![0, 0, 196] : Fin 3 → Nat) a + S1x1x1.size a ≤ S1x1x256.size a
  inb_S1x1x256_S1x1x1_0_0_197 : ∀ a, (![0, 0, 197] : Fin 3 → Nat) a + S1x1x1.size a ≤ S1x1x256.size a
  inb_S1x1x256_S1x1x1_0_0_198 : ∀ a, (![0, 0, 198] : Fin 3 → Nat) a + S1x1x1.size a ≤ S1x1x256.size a
  inb_S1x1x256_S1x1x1_0_0_199 : ∀ a, (![0, 0, 199] : Fin 3 → Nat) a + S1x1x1.size a ≤ S1x1x256.size a
  inb_S1x1x256_S1x1x1_0_0_200 : ∀ a, (![0, 0, 200] : Fin 3 → Nat) a + S1x1x1.size a ≤ S1x1x256.size a
  inb_S1x1x256_S1x1x1_0_0_201 : ∀ a, (![0, 0, 201] : Fin 3 → Nat) a + S1x1x1.size a ≤ S1x1x256.size a
  inb_S1x1x256_S1x1x1_0_0_202 : ∀ a, (![0, 0, 202] : Fin 3 → Nat) a + S1x1x1.size a ≤ S1x1x256.size a
  inb_S1x1x256_S1x1x1_0_0_203 : ∀ a, (![0, 0, 203] : Fin 3 → Nat) a + S1x1x1.size a ≤ S1x1x256.size a
  inb_S1x1x256_S1x1x1_0_0_204 : ∀ a, (![0, 0, 204] : Fin 3 → Nat) a + S1x1x1.size a ≤ S1x1x256.size a
  inb_S1x1x256_S1x1x1_0_0_205 : ∀ a, (![0, 0, 205] : Fin 3 → Nat) a + S1x1x1.size a ≤ S1x1x256.size a
  inb_S1x1x256_S1x1x1_0_0_206 : ∀ a, (![0, 0, 206] : Fin 3 → Nat) a + S1x1x1.size a ≤ S1x1x256.size a
  inb_S1x1x256_S1x1x1_0_0_207 : ∀ a, (![0, 0, 207] : Fin 3 → Nat) a + S1x1x1.size a ≤ S1x1x256.size a
  inb_S1x1x256_S1x1x1_0_0_208 : ∀ a, (![0, 0, 208] : Fin 3 → Nat) a + S1x1x1.size a ≤ S1x1x256.size a
  inb_S1x1x256_S1x1x1_0_0_209 : ∀ a, (![0, 0, 209] : Fin 3 → Nat) a + S1x1x1.size a ≤ S1x1x256.size a
  inb_S1x1x256_S1x1x1_0_0_210 : ∀ a, (![0, 0, 210] : Fin 3 → Nat) a + S1x1x1.size a ≤ S1x1x256.size a
  inb_S1x1x256_S1x1x1_0_0_211 : ∀ a, (![0, 0, 211] : Fin 3 → Nat) a + S1x1x1.size a ≤ S1x1x256.size a
  inb_S1x1x256_S1x1x1_0_0_212 : ∀ a, (![0, 0, 212] : Fin 3 → Nat) a + S1x1x1.size a ≤ S1x1x256.size a
  inb_S1x1x256_S1x1x1_0_0_213 : ∀ a, (![0, 0, 213] : Fin 3 → Nat) a + S1x1x1.size a ≤ S1x1x256.size a
  inb_S1x1x256_S1x1x1_0_0_214 : ∀ a, (![0, 0, 214] : Fin 3 → Nat) a + S1x1x1.size a ≤ S1x1x256.size a
  inb_S1x1x256_S1x1x1_0_0_215 : ∀ a, (![0, 0, 215] : Fin 3 → Nat) a + S1x1x1.size a ≤ S1x1x256.size a
  inb_S1x1x256_S1x1x1_0_0_216 : ∀ a, (![0, 0, 216] : Fin 3 → Nat) a + S1x1x1.size a ≤ S1x1x256.size a
  inb_S1x1x256_S1x1x1_0_0_217 : ∀ a, (![0, 0, 217] : Fin 3 → Nat) a + S1x1x1.size a ≤ S1x1x256.size a
  inb_S1x1x256_S1x1x1_0_0_218 : ∀ a, (![0, 0, 218] : Fin 3 → Nat) a + S1x1x1.size a ≤ S1x1x256.size a
  inb_S1x1x256_S1x1x1_0_0_219 : ∀ a, (![0, 0, 219] : Fin 3 → Nat) a + S1x1x1.size a ≤ S1x1x256.size a
  inb_S1x1x256_S1x1x1_0_0_220 : ∀ a, (![0, 0, 220] : Fin 3 → Nat) a + S1x1x1.size a ≤ S1x1x256.size a
  inb_S1x1x256_S1x1x1_0_0_221 : ∀ a, (![0, 0, 221] : Fin 3 → Nat) a + S1x1x1.size a ≤ S1x1x256.size a
  inb_S1x1x256_S1x1x1_0_0_222 : ∀ a, (![0, 0, 222] : Fin 3 → Nat) a + S1x1x1.size a ≤ S1x1x256.size a
  inb_S1x1x256_S1x1x1_0_0_223 : ∀ a, (![0, 0, 223] : Fin 3 → Nat) a + S1x1x1.size a ≤ S1x1x256.size a
  inb_S1x1x256_S1x1x1_0_0_224 : ∀ a, (![0, 0, 224] : Fin 3 → Nat) a + S1x1x1.size a ≤ S1x1x256.size a
  inb_S1x1x256_S1x1x1_0_0_225 : ∀ a, (![0, 0, 225] : Fin 3 → Nat) a + S1x1x1.size a ≤ S1x1x256.size a
  inb_S1x1x256_S1x1x1_0_0_226 : ∀ a, (![0, 0, 226] : Fin 3 → Nat) a + S1x1x1.size a ≤ S1x1x256.size a
  inb_S1x1x256_S1x1x1_0_0_227 : ∀ a, (![0, 0, 227] : Fin 3 → Nat) a + S1x1x1.size a ≤ S1x1x256.size a
  inb_S1x1x256_S1x1x1_0_0_228 : ∀ a, (![0, 0, 228] : Fin 3 → Nat) a + S1x1x1.size a ≤ S1x1x256.size a
  inb_S1x1x256_S1x1x1_0_0_229 : ∀ a, (![0, 0, 229] : Fin 3 → Nat) a + S1x1x1.size a ≤ S1x1x256.size a
  inb_S1x1x256_S1x1x1_0_0_230 : ∀ a, (![0, 0, 230] : Fin 3 → Nat) a + S1x1x1.size a ≤ S1x1x256.size a
  inb_S1x1x256_S1x1x1_0_0_231 : ∀ a, (![0, 0, 231] : Fin 3 → Nat) a + S1x1x1.size a ≤ S1x1x256.size a
  inb_S1x1x256_S1x1x1_0_0_232 : ∀ a, (![0, 0, 232] : Fin 3 → Nat) a + S1x1x1.size a ≤ S1x1x256.size a
  inb_S1x1x256_S1x1x1_0_0_233 : ∀ a, (![0, 0, 233] : Fin 3 → Nat) a + S1x1x1.size a ≤ S1x1x256.size a
  inb_S1x1x256_S1x1x1_0_0_234 : ∀ a, (![0, 0, 234] : Fin 3 → Nat) a + S1x1x1.size a ≤ S1x1x256.size a
  inb_S1x1x256_S1x1x1_0_0_235 : ∀ a, (![0, 0, 235] : Fin 3 → Nat) a + S1x1x1.size a ≤ S1x1x256.size a
  inb_S1x1x256_S1x1x1_0_0_236 : ∀ a, (![0, 0, 236] : Fin 3 → Nat) a + S1x1x1.size a ≤ S1x1x256.size a
  inb_S1x1x256_S1x1x1_0_0_237 : ∀ a, (![0, 0, 237] : Fin 3 → Nat) a + S1x1x1.size a ≤ S1x1x256.size a
  inb_S1x1x256_S1x1x1_0_0_238 : ∀ a, (![0, 0, 238] : Fin 3 → Nat) a + S1x1x1.size a ≤ S1x1x256.size a
  inb_S1x1x256_S1x1x1_0_0_239 : ∀ a, (![0, 0, 239] : Fin 3 → Nat) a + S1x1x1.size a ≤ S1x1x256.size a
  inb_S1x1x256_S1x1x1_0_0_240 : ∀ a, (![0, 0, 240] : Fin 3 → Nat) a + S1x1x1.size a ≤ S1x1x256.size a
  inb_S1x1x256_S1x1x1_0_0_241 : ∀ a, (![0, 0, 241] : Fin 3 → Nat) a + S1x1x1.size a ≤ S1x1x256.size a
  inb_S1x1x256_S1x1x1_0_0_242 : ∀ a, (![0, 0, 242] : Fin 3 → Nat) a + S1x1x1.size a ≤ S1x1x256.size a
  inb_S1x1x256_S1x1x1_0_0_243 : ∀ a, (![0, 0, 243] : Fin 3 → Nat) a + S1x1x1.size a ≤ S1x1x256.size a
  inb_S1x1x256_S1x1x1_0_0_244 : ∀ a, (![0, 0, 244] : Fin 3 → Nat) a + S1x1x1.size a ≤ S1x1x256.size a
  inb_S1x1x256_S1x1x1_0_0_245 : ∀ a, (![0, 0, 245] : Fin 3 → Nat) a + S1x1x1.size a ≤ S1x1x256.size a
  inb_S1x1x256_S1x1x1_0_0_246 : ∀ a, (![0, 0, 246] : Fin 3 → Nat) a + S1x1x1.size a ≤ S1x1x256.size a
  inb_S1x1x256_S1x1x1_0_0_247 : ∀ a, (![0, 0, 247] : Fin 3 → Nat) a + S1x1x1.size a ≤ S1x1x256.size a
  inb_S1x1x256_S1x1x1_0_0_248 : ∀ a, (![0, 0, 248] : Fin 3 → Nat) a + S1x1x1.size a ≤ S1x1x256.size a
  inb_S1x1x256_S1x1x1_0_0_249 : ∀ a, (![0, 0, 249] : Fin 3 → Nat) a + S1x1x1.size a ≤ S1x1x256.size a
  inb_S1x1x256_S1x1x1_0_0_250 : ∀ a, (![0, 0, 250] : Fin 3 → Nat) a + S1x1x1.size a ≤ S1x1x256.size a
  inb_S1x1x256_S1x1x1_0_0_251 : ∀ a, (![0, 0, 251] : Fin 3 → Nat) a + S1x1x1.size a ≤ S1x1x256.size a
  inb_S1x1x256_S1x1x1_0_0_252 : ∀ a, (![0, 0, 252] : Fin 3 → Nat) a + S1x1x1.size a ≤ S1x1x256.size a
  inb_S1x1x256_S1x1x1_0_0_253 : ∀ a, (![0, 0, 253] : Fin 3 → Nat) a + S1x1x1.size a ≤ S1x1x256.size a
  inb_S1x1x256_S1x1x1_0_0_254 : ∀ a, (![0, 0, 254] : Fin 3 → Nat) a + S1x1x1.size a ≤ S1x1x256.size a
  inb_S1x1x256_S1x1x1_0_0_255 : ∀ a, (![0, 0, 255] : Fin 3 → Nat) a + S1x1x1.size a ≤ S1x1x256.size a
  shapeCasts_S512x1024_S1x512x1024 : S512x1024.ShapeCasts S1x512x1024
  shapeCasts_S32x1024x1024_S32x1x1024x1024 : S32x1024x1024.ShapeCasts S32x1x1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S32x1024x1024.size a
  hwx0_0 : ∀ i : grid0.Coords, EltTy.bits .f32 = 32 ∨ (Rect.block (s := S32x1024x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S32x1024x1024.size a
  hwx0_1 : ∀ i : grid0.Coords, EltTy.bits .i32 = 32 ∨ (Rect.block (s := S32x1024x1024) S1x512x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S32x1x256.size a
  hwx0_2 : ∀ i : grid0.Coords, EltTy.bits .f32 = 32 ∨ (Rect.block (s := S32x1x256) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S32x1x256.size a
  hwx0_3 : ∀ i : grid0.Coords, EltTy.bits .f32 = 32 ∨ (Rect.block (s := S32x1x256) S1x1x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S32x1024x1024.size a
  hwx1_0 : ∀ i : grid1.Coords, EltTy.bits .f32 = 32 ∨ (Rect.block (s := S32x1024x1024) S1x512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S32x1024x1024.size a
  hwx1_1 : ∀ i : grid1.Coords, EltTy.bits .i32 = 32 ∨ (Rect.block (s := S32x1024x1024) S1x512x1024.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x256.size a ≤ S32x1x256.size a
  hwx1_2 : ∀ i : grid1.Coords, EltTy.bits .f32 = 32 ∨ (Rect.block (s := S32x1x256) S1x1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S32x1024x1024.size a
  hwx1_3 : ∀ i : grid1.Coords, EltTy.bits .f32 = 32 ∨ (Rect.block (s := S32x1024x1024) S1x512x1024.size (cc1_transform_3 i) (hinb1_3 i)).WholeWords (EltTy.packing .f32)

variable [Facts₀]

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x1x1024x1024 : Shape := ⟨4, ![32, 1, 1024, 1024]⟩
abbrev S32x1048576 : Shape := ⟨2, ![32, 1048576]⟩
abbrev S32 : Shape := ⟨1, ![32]⟩
abbrev S32x1 : Shape := ⟨2, ![32, 1]⟩
abbrev S_ : Shape := ⟨0, ![]⟩
abbrev S33554432 : Shape := ⟨1, ![33554432]⟩
abbrev S8192 : Shape := ⟨1, ![8192]⟩
abbrev S33554432x1 : Shape := ⟨2, ![33554432, 1]⟩
abbrev S32x256 : Shape := ⟨2, ![32, 256]⟩
abbrev S32x1048576x1 : Shape := ⟨3, ![32, 1048576, 1]⟩
abbrev S1 : Shape := ⟨1, ![1]⟩
abbrev S1x1x1 : Shape := ⟨3, ![1, 1, 1]⟩

abbrev nBuf : Space → Nat
  | .hbm => 60
  | .vmem => 0
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1024x1024, .i32⟩
  | .hbm, ⟨2, _⟩ => ⟨S32x1048576, .f32⟩
  | .hbm, ⟨3, _⟩ => ⟨S32x1048576, .i32⟩
  | .hbm, ⟨4, _⟩ => ⟨S32, .i32⟩
  | .hbm, ⟨5, _⟩ => ⟨S32x1, .i32⟩
  | .hbm, ⟨6, _⟩ => ⟨S_, .i32⟩
  | .hbm, ⟨7, _⟩ => ⟨S32x1, .i32⟩
  | .hbm, ⟨8, _⟩ => ⟨S32x1, .i32⟩
  | .hbm, ⟨9, _⟩ => ⟨S32x1048576, .i32⟩
  | .hbm, ⟨10, _⟩ => ⟨S32x1048576, .i32⟩
  | .hbm, ⟨11, _⟩ => ⟨S33554432, .i32⟩
  | .hbm, ⟨12, _⟩ => ⟨S33554432, .f32⟩
  | .hbm, ⟨13, _⟩ => ⟨S_, .f32⟩
  | .hbm, ⟨14, _⟩ => ⟨S8192, .f32⟩
  | .hbm, ⟨15, _⟩ => ⟨S33554432x1, .i32⟩
  | .hbm, ⟨16, _⟩ => ⟨S8192, .f32⟩
  | .hbm, ⟨17, _⟩ => ⟨S_, .f32⟩
  | .hbm, ⟨18, _⟩ => ⟨S33554432, .f32⟩
  | .hbm, ⟨19, _⟩ => ⟨S_, .f32⟩
  | .hbm, ⟨20, _⟩ => ⟨S8192, .f32⟩
  | .hbm, ⟨21, _⟩ => ⟨S33554432x1, .i32⟩
  | .hbm, ⟨22, _⟩ => ⟨S8192, .f32⟩
  | .hbm, ⟨23, _⟩ => ⟨S8192, .f32⟩
  | .hbm, ⟨24, _⟩ => ⟨S32x256, .f32⟩
  | .hbm, ⟨25, _⟩ => ⟨S_, .i32⟩
  | .hbm, ⟨26, _⟩ => ⟨S32x1048576, .i32⟩
  | .hbm, ⟨27, _⟩ => ⟨S32x1048576, .i1⟩
  | .hbm, ⟨28, _⟩ => ⟨S_, .i32⟩
  | .hbm, ⟨29, _⟩ => ⟨S32x1048576, .i32⟩
  | .hbm, ⟨30, _⟩ => ⟨S32x1048576, .i32⟩
  | .hbm, ⟨31, _⟩ => ⟨S32x1048576, .i32⟩
  | .hbm, ⟨32, _⟩ => ⟨S32x1048576x1, .i32⟩
  | .hbm, ⟨33, _⟩ => ⟨S1, .i32⟩
  | .hbm, ⟨34, _⟩ => ⟨S_, .i32⟩
  | .hbm, ⟨35, _⟩ => ⟨S32x1048576x1, .i32⟩
  | .hbm, ⟨36, _⟩ => ⟨S32x1048576x1, .i1⟩
  | .hbm, ⟨37, _⟩ => ⟨S1x1x1, .i32⟩
  | .hbm, ⟨38, _⟩ => ⟨S32x1048576x1, .i32⟩
  | .hbm, ⟨39, _⟩ => ⟨S32x1048576x1, .i1⟩
  | .hbm, ⟨40, _⟩ => ⟨S32x1048576x1, .i1⟩
  | .hbm, ⟨41, _⟩ => ⟨S_, .i1⟩
  | .hbm, ⟨42, _⟩ => ⟨S32x1048576, .i1⟩
  | .hbm, ⟨43, _⟩ => ⟨S32x1048576, .f32⟩
  | .hbm, ⟨44, _⟩ => ⟨S_, .f32⟩
  | .hbm, ⟨45, _⟩ => ⟨S32x1048576, .f32⟩
  | .hbm, ⟨46, _⟩ => ⟨S32x1048576, .f32⟩
  | .hbm, ⟨47, _⟩ => ⟨S_, .f32⟩
  | .hbm, ⟨48, _⟩ => ⟨S32x1048576, .f32⟩
  | .hbm, ⟨49, _⟩ => ⟨S32x1048576, .i1⟩
  | .hbm, ⟨50, _⟩ => ⟨S_, .f32⟩
  | .hbm, ⟨51, _⟩ => ⟨S_, .f32⟩
  | .hbm, ⟨52, _⟩ => ⟨S32x1048576, .f32⟩
  | .hbm, ⟨53, _⟩ => ⟨S32x1048576, .f32⟩
  | .hbm, ⟨54, _⟩ => ⟨S32x1048576, .f32⟩
  | .hbm, ⟨55, _⟩ => ⟨S_, .i32⟩
  | .hbm, ⟨56, _⟩ => ⟨S32x1048576, .i32⟩
  | .hbm, ⟨57, _⟩ => ⟨S32x1048576, .i1⟩
  | .hbm, ⟨58, _⟩ => ⟨S32x1048576, .f32⟩
  | .hbm, ⟨59, _⟩ => ⟨S32x1x1024x1024, .f32⟩
  | _, _ => ⟨S32x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_cst : Ref sig .tc := ⟨.hbm, 44, rfl⟩
abbrev main_call0_v14 : Ref sig .tc := ⟨.hbm, 45, rfl⟩
abbrev main_v19 : Ref sig .tc := ⟨.hbm, 46, rfl⟩
abbrev main_cst_2 : Ref sig .tc := ⟨.hbm, 47, rfl⟩
abbrev main_v20 : Ref sig .tc := ⟨.hbm, 48, rfl⟩
abbrev main_v21 : Ref sig .tc := ⟨.hbm, 49, rfl⟩
abbrev main_cst_3 : Ref sig .tc := ⟨.hbm, 50, rfl⟩
abbrev main_cst_4 : Ref sig .tc := ⟨.hbm, 51, rfl⟩
abbrev main_call1_v0 : Ref sig .tc := ⟨.hbm, 52, rfl⟩
abbrev main_call1_v1 : Ref sig .tc := ⟨.hbm, 53, rfl⟩
abbrev main_v22 : Ref sig .tc := ⟨.hbm, 54, rfl⟩
abbrev main_c_5 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩

abbrev nD : Nat := 1
abbrev τ : Topo := Topo.v7x

variable {F : FTy → Type} [FloatOps F]

class Facts₀ : Prop where
  shapeCasts_S32x1x1024x1024_S32x1048576 : S32x1x1024x1024.ShapeCasts S32x1048576
  bcast_S32_S32x1_0 : S32.BroadcastsInDim S32x1 (![0] : Fin 1 → Fin S32x1.rank)
  bcast_S_S32x1 : S_.BroadcastsInDim S32x1 (![] : Fin 0 → Fin S32x1.rank)
  bcast_S32x1_S32x1048576_0_1 : S32x1.BroadcastsInDim S32x1048576 (![0, 1] : Fin 2 → Fin S32x1048576.rank)
  shapeCasts_S32x1048576_S33554432 : S32x1048576.ShapeCasts S33554432
  bcast_S_S8192 : S_.BroadcastsInDim S8192 (![] : Fin 0 → Fin S8192.rank)
  bcast_S33554432_S33554432x1_0 : S33554432.BroadcastsInDim S33554432x1 (![0] : Fin 1 → Fin S33554432x1.rank)
  bcast_S_S33554432 : S_.BroadcastsInDim S33554432 (![] : Fin 0 → Fin S33554432.rank)
  shapeCasts_S8192_S32x256 : S8192.ShapeCasts S32x256
  bcast_S_S32x1048576 : S_.BroadcastsInDim S32x1048576 (![] : Fin 0 → Fin S32x1048576.rank)
  shapeCasts_S32x1048576_S32x1048576x1 : S32x1048576.ShapeCasts S32x1048576x1
  bcast_S_S32x1048576x1 : S_.BroadcastsInDim S32x1048576x1 (![] : Fin 0 → Fin S32x1048576x1.rank)
  bcast_S1_S1x1x1_2 : S1.BroadcastsInDim S1x1x1 (![2] : Fin 1 → Fin S1x1x1.rank)
  bcast_S1x1x1_S32x1048576x1_0_1_2 : S1x1x1.BroadcastsInDim S32x1048576x1 (![0, 1, 2] : Fin 3 → Fin S32x1048576x1.rank)
  reducesTo_S32x1048576x1_S32x1048576_d2 : S32x1048576x1.ReducesTo [2] S32x1048576
  h_S_ : 0 < S_.numel
  shapeCasts_S32x1048576_S32x1x1024x1024 : S32x1048576.ShapeCasts S32x1x1024x1024
  scatter_S8192_S33554432x1_S33554432_n_0_0_1_wf : ScatterDims.WF S8192 S33554432x1 S33554432 [] [0] [0] 1
  gather_S32x256_S32x1048576x1_S32x1048576_n_1_0_0_1_2_11_wf : GatherDims.WF S32x256 S32x1048576x1 S32x1048576 [] [1] [0] [1] [0] 2 ![1, 1]

variable [Facts₀]

def scatter_S8192_S33554432x1_S33554432_n_0_0_1 : ScatterDims S8192 S33554432x1 S33554432 where
  updateWindowDims := []
  insertedWindowDims := [0]
  scatterDimsToOperandDims := [0]
  indexVectorDim := 1
  wf := scatter_S8192_S33554432x1_S33554432_n_0_0_1_wf
def gather_S32x256_S32x1048576x1_S32x1048576_n_1_0_0_1_2_11 : GatherDims S32x256 S32x1048576x1 S32x1048576 where
  offsetDims := []
  collapsedSliceDims := [1]
  operandBatchingDims := [0]
  startIndicesBatchingDims := [0]
  startIndexMap := [1]
  indexVectorDim := 2
  sliceSizes := ![1, 1]
  wf := gather_S32x256_S32x1048576x1_S32x1048576_n_1_0_0_1_2_11_wf

class Facts : Prop extends Facts₀ where

variable [Facts]
-- ==== Proof.HistBody.lean ====
/-
  What the histogram body leaves in its two output blocks, as closed forms.

  The body walks the 256 superpixel ids in order. For id `k` it masks the 512×1024 tile of scores by
  `ids = k`, sums the masked tile over its columns and then its rows, and adds that one number, times the
  indicator row of lane `k`, to a running 1×256 row; the same with the mask itself (as 0/1 floats) gives
  the running row of counts. After the last id the two rows are added to what the output blocks held
  (zero, at the first tile of an image, where the body has just reset them). The closed forms below are
  the running rows as a recursion on the number of ids walked; that the body's unrolled text computes
  exactly `accS … 256` and `accC … 256` is checked by unfolding.
-/
import proofs.«411308_j8117488189733_1_alg».proof.Proof.Gen.KernelIdeal.Frame
import Idealize.ShloMosaic.Lib.Pipeline.Value
import Idealize.ShloMosaic.Lib.Tactic

set_option maxRecDepth 65536

noncomputable section

open Idealize.ShloMosaic Idealize.ShloMosaic.TcCoe Idealize.SL.Sem
open Idealize.ShloMosaic.Pipeline (Dat)

namespace Cert.KernelIdeal.Hist

open Cert.KernelIdeal Cert.KernelIdeal.Gen

variable {F : FTy → Type} [FloatOps F]

theorem hz3 : (![0, 0, 0] : Fin 3 → Nat) = fun _ => 0 := funext fun a => by fin_cases a <;> rfl

/-- The row of lane numbers 0 … 255. -/
abbrev lanes : IVec S1x256 32 := iota .tc S1x256 32 [1] Gen.iota_S1x256_d1_w32

/-- The indicator row of lane `k`, as floats: 1 at lane `k`, 0 elsewhere. -/
def onehot (k : BitVec 32) : FVec F S1x256 .f32 :=
  sitofp .f32 (extui 32 (cmpi .eq lanes (broadcast S1x256 k)) Gen.natLt_1_32)

/-- A tile's sum, over its columns and then its rows, as a 1×1 block. -/
def tileSum (v : FVec F S512x1024 .f32) : FVec F S1x1 .f32 :=
  shapeCast S1x1 (multiReduction .add [0] S1 (shapeCast S512x1 (multiReduction .add [1] S512 v 0x00000000#32 Gen.reduces_S512x1024_S512 (.inl rfl) rfl) Gen.shapeCasts_S512_S512x1) 0x00000000#32 Gen.reduces_S512x1_S1 (.inl rfl) rfl) Gen.shapeCasts_S1_S1x1

/-- The tile of scores masked by `ids = k` (zero elsewhere). -/
def masked (ids : IVec S512x1024 32) (sc : FVec F S512x1024 .f32) (k : BitVec 32) : FVec F S512x1024 .f32 :=
  select (cmpi .eq ids (broadcast S512x1024 k)) sc (broadcast S512x1024 (Scalar.ofBits .f32 0x00000000#32))

/-- The mask `ids = k` itself as 0/1 floats. -/
def maskf (ids : IVec S512x1024 32) (k : BitVec 32) : FVec F S512x1024 .f32 :=
  sitofp .f32 (extui 32 (cmpi .eq ids (broadcast S512x1024 k)) Gen.natLt_1_32)

/-- Id `k`'s contribution added to the running row of sums. -/
def sumStep (ids : IVec S512x1024 32) (sc : FVec F S512x1024 .f32) (k : BitVec 32) (acc : FVec F S1x256 .f32) : FVec F S1x256 .f32 :=
  addf acc (mulf (onehot k) (broadcastTo S1x256 (tileSum (masked ids sc k)) Gen.broadcasts_S1x1_S1x256))

/-- Id `k`'s contribution added to the running row of counts. -/
def cntStep (ids : IVec S512x1024 32) (k : BitVec 32) (acc : FVec F S1x256 .f32) : FVec F S1x256 .f32 :=
  addf acc (mulf (onehot k) (broadcastTo S1x256 (tileSum (maskf (F := F) ids k)) Gen.broadcasts_S1x1_S1x256))

/-- The running row of sums after the first `n` ids. -/
def accS (ids : IVec S512x1024 32) (sc : FVec F S512x1024 .f32) : Nat → FVec F S1x256 .f32
  | 0 => broadcast S1x256 (Scalar.ofBits .f32 0x00000000#32)
  | n + 1 => sumStep ids sc (BitVec.ofNat 32 n) (accS ids sc n)

/-- The running row of counts after the first `n` ids. -/
def accC (ids : IVec S512x1024 32) : Nat → FVec F S1x256 .f32
  | 0 => broadcast S1x256 (Scalar.ofBits .f32 0x00000000#32)
  | n + 1 => cntStep ids (BitVec.ofNat 32 n) (accC ids n)

/-- The tile of ids, and of scores, a body reads from its input blocks. -/
abbrev idsOf (x1 : Vec F S1x512x1024 .i32) : IVec S512x1024 32 := shapeCast S512x1024 x1 Gen.shapeCasts_S1x512x1024_S512x1024
abbrev scOf (x0 : Vec F S1x512x1024 .f32) : FVec F S512x1024 .f32 := shapeCast S512x1024 x0 Gen.shapeCasts_S1x512x1024_S512x1024

/-- What an output block holds after the body, from what it held before (`prev`) and the tile's row `acc`. -/
def bump (prev : Vec F S1x1x256 .f32) (acc : FVec F S1x256 .f32) : Vec F S1x1x256 .f32 :=
  shapeCast S1x1x256 (addf (shapeCast S1x256 prev Gen.shapeCasts_S1x1x256_S1x256) acc) Gen.shapeCasts_S1x256_S1x1x256

/-- The zero block the reset stores. -/
abbrev zblk : Vec F S1x1x256 .f32 := broadcast S1x1x256 (Scalar.ofBits .f32 0x00000000#32)

variable (c : Dev nD) (i : grid0.Coords) (a2 : Memref sig .tc .vmem S1x512x1024 .f32) (h2 : a2.IsWhole)
    (a3 : Memref sig .tc .vmem S1x512x1024 .i32) (h3 : a3.IsWhole) (a4 : Memref sig .tc .vmem S1x1x256 .f32) (h4 : a4.IsWhole)
    (a5 : Memref sig .tc .vmem S1x1x256 .f32) (h5 : a5.IsWhole)
    (x0 : Vec F S1x512x1024 .f32) (x1 : Vec F S1x512x1024 .i32)

/-- At an image's first tile the block of sums ends at the tile's row over zero. -/
theorem out_A_2 (hc : cond0_0 i) :
    out0_A_2 c i a2 h2 a3 h3 a4 h4 a5 h5 hc x0 x1 = bump zblk (accS (idsOf x1) (scOf x0) 256) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x1x256) hz3]
  simp only [View.readAt_eq_ld, h2.read_unread, h3.read_unread, View.ld_unit_zero (S := S1x512x1024) hz3, View.ld_unit_zero (S := S1x1x256) hz3, View.readCov_unit_zero (S := S1x1x256) _ hz3]
  rfl

/-- At an image's first tile the block of counts ends at the tile's row over zero. -/
theorem out_A_3 (hc : cond0_0 i) :
    out0_A_3 c i a2 h2 a3 h3 a4 h4 a5 h5 hc x0 x1 = bump zblk (accC (F := F) (idsOf x1) 256) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1x256) hz3]
  simp only [View.readAt_eq_ld, h2.read_unread, h3.read_unread, View.ld_unit_zero (S := S1x512x1024) hz3, View.ld_unit_zero (S := S1x1x256) hz3, View.readCov_unit_zero (S := S1x1x256) _ hz3]
  rfl

/-- At an image's second tile the block of sums ends at the tile's row over what the first tile left. -/
theorem out_B_2 (hc : ¬cond0_0 i) (xo2 xo3 : Vec F S1x1x256 .f32) :
    out0_B_2 c i a2 h2 a3 h3 a4 h4 a5 h5 hc x0 x1 xo2 xo3 = bump xo2 (accS (idsOf x1) (scOf x0) 256) := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, h5.read_unread, View.ld_unit_zero (S := S1x512x1024) hz3, View.ld_unit_zero (S := S1x1x256) hz3]
  rfl

/-- At an image's second tile the block of counts ends at the tile's row over what the first tile left. -/
theorem out_B_3 (hc : ¬cond0_0 i) (xo2 xo3 : Vec F S1x1x256 .f32) :
    out0_B_3 c i a2 h2 a3 h3 a4 h4 a5 h5 hc x0 x1 xo2 xo3 = bump xo3 (accC (F := F) (idsOf x1) 256) := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, h5.read_unread, View.ld_unit_zero (S := S1x512x1024) hz3, View.ld_unit_zero (S := S1x1x256) hz3]
  rfl

end Cert.KernelIdeal.Hist

end
-- ==== Proof.Spec.lean ====
/-
  The mathematics both programs compute, stated once over the literal shapes.

  An image batch `sc : f32[32,1024,1024]` carries for every pixel a superpixel id `ids : i32[32,1024,1024]`.
  For image `b` and id `k` let `segSum b k` be the sum of the scores of the pixels of image `b` whose id is
  `k`, and `segCnt b k` their number; the superpixel's mean is their quotient. A pixel whose id is below 255 is
  replaced by 1 when its superpixel's mean exceeds 1/2 and by 0 otherwise; a pixel of id 255 keeps its score.
  Everything is over the extended reals; sums are finite sums in that commutative monoid, so no finiteness of
  the scores is ever needed.
-/
import Idealize.ShloMosaic.PureOps.Ideal
import Idealize.ShloMosaic.Lib.ValueIdx

noncomputable section

open Idealize.ShloMosaic Idealize.ShloMosaic.ValueIdx
open scoped BigOperators

namespace Cert.Spec

abbrev SArg : Shape := ⟨4, ![32, 1, 1024, 1024]⟩
abbrev SImg : Shape := ⟨3, ![32, 1024, 1024]⟩
abbrev STab : Shape := ⟨3, ![32, 1, 256]⟩

/-- The 32-bit word of the superpixel id `k`. -/
abbrev idw (k : Fin 256) : BitVec 32 := BitVec.ofNat 32 k.val

/-- The table column an id word selects (the word itself when it is below 256). -/
def slot (v : BitVec 32) : Fin 256 := ⟨v.toNat % 256, Nat.mod_lt _ (by decide)⟩

theorem slot_idw (k : Fin 256) : slot (idw k) = k := by
  apply Fin.ext
  show (BitVec.ofNat 32 k.val).toNat % 256 = k.val
  have := k.isLt
  rw [BitVec.toNat_ofNat]
  omega

theorem idw_slot (v : BitVec 32) (h : v.toNat < 256) : idw (slot v) = v := by
  apply BitVec.eq_of_toNat_eq
  show (BitVec.ofNat 32 (v.toNat % 256)).toNat = v.toNat
  rw [BitVec.toNat_ofNat]
  omega

/-- The sum of the scores of image `b`'s pixels whose id is `k`. -/
def segSum (sc : FVec Ideal SImg .f32) (ids : IVec SImg 32) (b : Fin 32) (k : Fin 256) : EReal :=
  ∑ h : Fin 1024, ∑ w : Fin 1024, if ids (ix3 b h w) = idw k then (sc (ix3 b h w) : EReal) else 0

/-- The number of image `b`'s pixels whose id is `k`. -/
def segCnt (ids : IVec SImg 32) (b : Fin 32) (k : Fin 256) : EReal :=
  ∑ h : Fin 1024, ∑ w : Fin 1024, if ids (ix3 b h w) = idw k then (1 : EReal) else 0

/-- The table of sums, `f32[32,1,256]`. -/
def tabSum (sc : FVec Ideal SImg .f32) (ids : IVec SImg 32) : FVec Ideal STab .f32 :=
  fun j => segSum sc ids ⟨(j 0).val, (j 0).isLt⟩ ⟨(j 2).val, (j 2).isLt⟩

/-- The table of counts, `f32[32,1,256]`. -/
def tabCnt (ids : IVec SImg 32) : FVec Ideal STab .f32 :=
  fun j => segCnt ids ⟨(j 0).val, (j 0).isLt⟩ ⟨(j 2).val, (j 2).isLt⟩

/-- The table of means: the host's quotient of the two tables, entry by entry. -/
def tabMean (sc : FVec Ideal SImg .f32) (ids : IVec SImg 32) : FVec Ideal STab .f32 :=
  Host.divf (F := Ideal) (tabSum sc ids) (tabCnt ids)

/-- One fused pixel from its superpixel's mean, its id and its score. -/
def fuse (mean : EReal) (id : BitVec 32) (s : EReal) : EReal :=
  Scalar.select (IntOp.cmpi .slt id 255#32)
    (Scalar.select (FloatOps.cmpf (F := Ideal) (φ := .f32) .ogt mean (Ideal.ofBits .f32 0x3F000000#32))
      (Ideal.ofBits .f32 0x3F800000#32) (Ideal.ofBits .f32 0x00000000#32))
    s

/-- The fused image from a table of means. -/
def fuseImg (mean : FVec Ideal STab .f32) (sc : FVec Ideal SImg .f32) (ids : IVec SImg 32) : FVec Ideal SImg .f32 :=
  fun p => fuse (mean (ix3 ⟨(p 0).val, (p 0).isLt⟩ (0 : Fin 1) (slot (ids p)))) (ids p) (sc p)

/-- The whole result over the images `[32,1024,1024]`. -/
def outImg (sc : FVec Ideal SImg .f32) (ids : IVec SImg 32) : FVec Ideal SImg .f32 :=
  fuseImg (tabMean sc ids) sc ids

/-- The image `[32,1024,1024]` an argument array `[32,1,1024,1024]` is read as. -/
def img {α : Type} (x : SArg.Idx → α) : SImg.Idx → α :=
  fun p => x (ix4 ⟨(p 0).val, (p 0).isLt⟩ (0 : Fin 1) ⟨(p 1).val, (p 1).isLt⟩ ⟨(p 2).val, (p 2).isLt⟩)

/-- The result array `[32,1,1024,1024]` of the argument arrays. -/
def G (x0 : FVec Ideal SArg .f32) (x1 : IVec SArg 32) : FVec Ideal SArg .f32 :=
  fun i => outImg (img x0) (img x1) (ix3 ⟨(i 0).val, (i 0).isLt⟩ ⟨(i 2).val, (i 2).isLt⟩ ⟨(i 3).val, (i 3).isLt⟩)

/-- The domain the reference indexes inside: every id is one of the 256 table columns. -/
def InRange (x1 : IVec SArg 32) : Prop := ∀ i, (x1 i).toNat < 256

end Cert.Spec

end
-- ==== Proof.HistLane.lean ====
/-
  The running rows of the histogram body read lane by lane, over the extended reals.

  Lane `k` of the row of sums after all 256 ids is the sum, over the tile's rows and columns, of the scores
  whose id is `k`: id `j`'s step adds (indicator of lane `j`) × (the tile's masked sum), the indicator is 1 at
  lane `j` and 0 elsewhere, and in the extended reals 0 · x = 0 and 1 · x = x for every x. The row of counts
  likewise, with the mask as 0/1 numbers in place of the masked scores.
-/
import proofs.«411308_j8117488189733_1_alg».proof.Proof.HistBody
import proofs.«411308_j8117488189733_1_alg».proof.Proof.Spec
import Idealize.ShloMosaic.PureOps.Ideal.Laws
import Idealize.ShloMosaic.Lib.ValueIdx
import Idealize.ShloMosaic.Lib.ValueLayout

noncomputable section

open Idealize.ShloMosaic Idealize.ShloMosaic.TcCoe Idealize.ShloMosaic.ValueIdx
open scoped BigOperators

namespace Cert.KernelIdeal.Hist

open Cert.KernelIdeal Cert.KernelIdeal.Gen

/-- The indicator of equality of two 32-bit words, as an extended real. -/
private theorem indWord (x y : BitVec 32) :
    (FloatOps.sitofp (F := Ideal) .f32 ((IntOp.cmpi .eq x y).setWidth 32) : EReal) = if x = y then 1 else 0 := by
  show ((((BitVec.ofBool (x == y)).setWidth 32).toInt : ℝ) : EReal) = _
  by_cases h : x = y
  · rw [if_pos h, beq_iff_eq.mpr h]
    have : ((BitVec.ofBool true).setWidth 32).toInt = 1 := by decide
    rw [this]; simp
  · rw [if_neg h, beq_eq_false_iff_ne.mpr h]
    have : ((BitVec.ofBool false).setWidth 32).toInt = 0 := by decide
    rw [this]; simp

/-- The row of lane numbers at lane k. -/
private theorem lanes_apply (k : Fin 256) : lanes (ix2 (0 : Fin 1) k) = BitVec.ofNat 32 k.val :=
  iota_single_apply .tc S1x256 32 1 _ _

/-- The indicator row of lane j read at lane k: 1 when k = j, 0 otherwise (both below 256, so the 32-bit words are equal exactly when the numbers are). -/
private theorem onehot_apply (j : Nat) (hj : j < 256) (k : Fin 256) :
    (onehot (F := Ideal) (BitVec.ofNat 32 j) (ix2 (0 : Fin 1) k) : EReal) = if k.val = j then 1 else 0 := by
  show (FloatOps.sitofp (F := Ideal) .f32 ((IntOp.cmpi .eq (lanes (ix2 (0 : Fin 1) k)) (BitVec.ofNat 32 j)).setWidth 32) : EReal) = _
  rw [lanes_apply, indWord]
  have hk := k.isLt
  have : (BitVec.ofNat 32 k.val = BitVec.ofNat 32 j) ↔ k.val = j := by
    constructor
    · intro h
      have := congrArg BitVec.toNat h
      rw [BitVec.toNat_ofNat, BitVec.toNat_ofNat] at this
      omega
    · intro h; rw [h]
  simp only [this]

/-- The masked tile at a pixel: the score where the id is k, zero elsewhere. -/
private theorem masked_apply (ids : IVec S512x1024 32) (sc : FVec Ideal S512x1024 .f32) (k : BitVec 32) (i : S512x1024.Idx) :
    (masked (F := Ideal) ids sc k i : EReal) = if ids i = k then (sc i : EReal) else 0 := by
  show Scalar.select (IntOp.cmpi .eq (ids i) k) (sc i) (Ideal.ofBits .f32 0x00000000#32) = _
  rw [Ideal.ofBits_zero_f32]
  show (if BitVec.ofBool (ids i == k) = 1#1 then (sc i : EReal) else 0) = _
  by_cases h : ids i = k
  · rw [if_pos h, beq_iff_eq.mpr h]; rfl
  · rw [if_neg h, beq_eq_false_iff_ne.mpr h]; rfl

/-- The mask as numbers at a pixel: 1 where the id is k, 0 elsewhere. -/
private theorem maskf_apply (ids : IVec S512x1024 32) (k : BitVec 32) (i : S512x1024.Idx) :
    (maskf (F := Ideal) ids k i : EReal) = if ids i = k then 1 else 0 :=
  indWord (ids i) k

/-- A tile's sum is the double sum over its rows and columns. -/
private theorem tileSum_apply (v : FVec Ideal S512x1024 .f32) :
    (tileSum (F := Ideal) v (ix2 (0 : Fin 1) (0 : Fin 1)) : EReal) = ∑ r : Fin 512, ∑ w : Fin 1024, (v (ix2 r w) : EReal) := by
  unfold tileSum
  rw [shapeCast_apply _ Gen.shapeCasts_S1_S1x1 (ix2 (0 : Fin 1) (0 : Fin 1)) (ix1 (0 : Fin 1))
    (by rw [Shape.rowMajor_val_two, Shape.rowMajor_val_one]; rfl)]
  refine (Ideal.multiReduction_add_single (φ := .f32) _ _ Gen.reduces_S512x1_S1 _ _ (ix1 (0 : Fin 1))).trans ?_
  show ∑ r : Fin 512, _ = _
  refine Finset.sum_congr rfl fun r _ => ?_
  have e1 : Gen.reduces_S512x1_S1.lift (ix1 (0 : Fin 1)) r = ix2 r (0 : Fin 1) := by
    funext a; match a with | ⟨0, _⟩ => rfl | ⟨1, _⟩ => rfl
  rw [e1]
  rw [shapeCast_apply _ Gen.shapeCasts_S512_S512x1 (ix2 r (0 : Fin 1)) (ix1 r)
    (by rw [Shape.rowMajor_val_two, Shape.rowMajor_val_one]; show r.val = r.val * 1 + 0; omega)]
  refine (Ideal.multiReduction_add_single (φ := .f32) _ _ Gen.reduces_S512x1024_S512 _ _ (ix1 r)).trans ?_
  show ∑ w : Fin 1024, _ = _
  refine Finset.sum_congr rfl fun w _ => ?_
  have e2 : Gen.reduces_S512x1024_S512.lift (ix1 r) w = ix2 r w := by
    funext a; match a with | ⟨0, _⟩ => rfl | ⟨1, _⟩ => rfl
  rw [e2]

/-- A 1×1 block broadcast along the row reads its one entry at every lane. -/
private theorem bcast_apply (u : FVec Ideal S1x1 .f32) (k : Fin 256) :
    broadcastTo S1x256 u Gen.broadcasts_S1x1_S1x256 (ix2 (0 : Fin 1) k) = u (ix2 (0 : Fin 1) (0 : Fin 1)) := by
  refine broadcastTo_apply u _ _ _ fun ax => ?_
  match ax with
  | ⟨0, _⟩ => rfl
  | ⟨1, _⟩ => rfl

/-- One id's step of the row of sums, read at a lane. -/
private theorem sumStep_apply (ids : IVec S512x1024 32) (sc : FVec Ideal S512x1024 .f32) (j : Nat) (hj : j < 256)
    (acc : FVec Ideal S1x256 .f32) (k : Fin 256) :
    (sumStep (F := Ideal) ids sc (BitVec.ofNat 32 j) acc (ix2 (0 : Fin 1) k) : EReal)
      = acc (ix2 (0 : Fin 1) k) + (if k.val = j then 1 else 0)
          * ∑ r : Fin 512, ∑ w : Fin 1024, (if ids (ix2 r w) = BitVec.ofNat 32 j then (sc (ix2 r w) : EReal) else 0) := by
  unfold sumStep
  rw [addf_apply, mulf_apply, onehot_apply j hj, bcast_apply, tileSum_apply]
  simp only [masked_apply]

/-- One id's step of the row of counts, read at a lane. -/
private theorem cntStep_apply (ids : IVec S512x1024 32) (j : Nat) (hj : j < 256)
    (acc : FVec Ideal S1x256 .f32) (k : Fin 256) :
    (cntStep (F := Ideal) ids (BitVec.ofNat 32 j) acc (ix2 (0 : Fin 1) k) : EReal)
      = acc (ix2 (0 : Fin 1) k) + (if k.val = j then 1 else 0)
          * ∑ r : Fin 512, ∑ w : Fin 1024, (if ids (ix2 r w) = BitVec.ofNat 32 j then (1 : EReal) else 0) := by
  unfold cntStep
  rw [addf_apply, mulf_apply, onehot_apply j hj, bcast_apply, tileSum_apply]
  simp only [maskf_apply]

/-- The rows start at zero, and each further id applies one step. -/
private theorem accS_zero (ids : IVec S512x1024 32) (sc : FVec Ideal S512x1024 .f32) (i : S1x256.Idx) :
    (accS (F := Ideal) ids sc 0 i : EReal) = 0 := Ideal.ofBits_zero_f32

private theorem accS_succ (ids : IVec S512x1024 32) (sc : FVec Ideal S512x1024 .f32) (n : Nat) :
    accS (F := Ideal) ids sc (n + 1) = sumStep ids sc (BitVec.ofNat 32 n) (accS ids sc n) := rfl

private theorem accC_zero (ids : IVec S512x1024 32) (i : S1x256.Idx) :
    (accC (F := Ideal) ids 0 i : EReal) = 0 := Ideal.ofBits_zero_f32

private theorem accC_succ (ids : IVec S512x1024 32) (n : Nat) :
    accC (F := Ideal) ids (n + 1) = cntStep ids (BitVec.ofNat 32 n) (accC ids n) := rfl

/-- Lane k of the running row of sums after the first n ids: the tile's scores of id k once id k has been walked. -/
private theorem accS_prefix (ids : IVec S512x1024 32) (sc : FVec Ideal S512x1024 .f32) (n : Nat) (hn : n ≤ 256) (k : Fin 256) :
    (accS (F := Ideal) ids sc n (ix2 (0 : Fin 1) k) : EReal)
      = if k.val < n then ∑ r : Fin 512, ∑ w : Fin 1024, (if ids (ix2 r w) = Cert.Spec.idw k then (sc (ix2 r w) : EReal) else 0) else 0 := by
  induction n with
  | zero =>
    rw [if_neg (Nat.not_lt_zero _)]
    exact accS_zero ids sc _
  | succ n ih =>
    have ih := ih (by omega)
    rw [accS_succ, sumStep_apply ids sc n (by omega), ih]
    by_cases h1 : k.val = n
    · have h2 : ¬ k.val < n := by omega
      have h3 : k.val < n + 1 := by omega
      rw [if_pos h1, if_neg h2, if_pos h3, one_mul, zero_add, ← h1]
    · rw [if_neg h1, zero_mul, add_zero]
      by_cases h2 : k.val < n
      · have h3 : k.val < n + 1 := by omega
        rw [if_pos h2, if_pos h3]
      · have h3 : ¬ k.val < n + 1 := by omega
        rw [if_neg h2, if_neg h3]

/-- Lane k of the running row of counts after the first n ids. -/
private theorem accC_prefix (ids : IVec S512x1024 32) (n : Nat) (hn : n ≤ 256) (k : Fin 256) :
    (accC (F := Ideal) ids n (ix2 (0 : Fin 1) k) : EReal)
      = if k.val < n then ∑ r : Fin 512, ∑ w : Fin 1024, (if ids (ix2 r w) = Cert.Spec.idw k then (1 : EReal) else 0) else 0 := by
  induction n with
  | zero =>
    rw [if_neg (Nat.not_lt_zero _)]
    exact accC_zero ids _
  | succ n ih =>
    have ih := ih (by omega)
    rw [accC_succ, cntStep_apply ids n (by omega), ih]
    by_cases h1 : k.val = n
    · have h2 : ¬ k.val < n := by omega
      have h3 : k.val < n + 1 := by omega
      rw [if_pos h1, if_neg h2, if_pos h3, one_mul, zero_add, ← h1]
    · rw [if_neg h1, zero_mul, add_zero]
      by_cases h2 : k.val < n
      · have h3 : k.val < n + 1 := by omega
        rw [if_pos h2, if_pos h3]
      · have h3 : ¬ k.val < n + 1 := by omega
        rw [if_neg h2, if_neg h3]

/-- Lane `k` of the tile's row of sums: the tile's scores of id `k`, summed over rows and columns. -/
theorem accS_apply (ids : IVec S512x1024 32) (sc : FVec Ideal S512x1024 .f32) (k : Fin 256) :
    accS (F := Ideal) ids sc 256 (ix2 (0 : Fin 1) k)
      = ∑ r : Fin 512, ∑ w : Fin 1024, if ids (ix2 r w) = Cert.Spec.idw k then (sc (ix2 r w) : EReal) else 0 := by
  rw [accS_prefix ids sc 256 (le_refl _) k, if_pos k.isLt]

/-- Lane `k` of the tile's row of counts: the number of the tile's pixels of id `k`. -/
theorem accC_apply (ids : IVec S512x1024 32) (k : Fin 256) :
    accC (F := Ideal) ids 256 (ix2 (0 : Fin 1) k)
      = ∑ r : Fin 512, ∑ w : Fin 1024, if ids (ix2 r w) = Cert.Spec.idw k then (1 : EReal) else 0 := by
  rw [accC_prefix ids 256 (le_refl _) k, if_pos k.isLt]

/-- An output block after the body, lane by lane: what it held plus the tile's row. -/
theorem bump_apply (prev : Vec Ideal S1x1x256 .f32) (acc : FVec Ideal S1x256 .f32) (k : Fin 256) :
    bump (F := Ideal) prev acc (ix3 (0 : Fin 1) (0 : Fin 1) k) = (prev (ix3 (0 : Fin 1) (0 : Fin 1) k) : EReal) + acc (ix2 (0 : Fin 1) k) := by
  unfold bump
  rw [shapeCast_ab_1ab_apply, addf_apply, shapeCast_1ab_ab_apply]

/-- The zero block is zero at every lane. -/
theorem zblk_apply (j : S1x1x256.Idx) : (zblk (F := Ideal) j : EReal) = 0 :=
  Ideal.ofBits_zero_f32

end Cert.KernelIdeal.Hist

end
-- ==== Proof.HistArr.lean ====
/-
  The two tables the histogram region leaves: for every image and id, the sum of the scores of the image's
  pixels of that id, and their number.

  Image `b`'s block of either table is visited at the two grid points 2b and 2b+1 (the image's upper and
  lower 512 rows) and written back after the second. The first point leaves the upper tile's row over
  zero, the second adds the lower tile's row; lane `k` of the result is the sum over all 1024 rows.
-/
import proofs.«411308_j8117488189733_1_alg».proof.Proof.HistLane
import Idealize.ShloMosaic.Lib.Pipeline.Value
import Mathlib.Algebra.BigOperators.Fin

noncomputable section

open Idealize.ShloMosaic Idealize.ShloMosaic.TcCoe Idealize.SL.Sem Idealize.ShloMosaic.ValueIdx
open Idealize.ShloMosaic.Pipeline (Dat)
open scoped BigOperators

namespace Cert.KernelIdeal.Hist

open Cert.KernelIdeal Cert.KernelIdeal.Gen

variable (V : (c : Dev nD) → (b : Ref sig .tc) → Buf (Elt Ideal) ((c : Thread nD τ).loc b))

/-- The windows' block indices at point `t`: image `t / 2`; the inputs' row tile `t % 2`. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = t.val % 2 ∧ win0_1.index t (2 : Fin 3) = 0
    ∧ win0_2.index t (0 : Fin 3) = t.val / 2 ∧ win0_2.index t (1 : Fin 3) = 0 ∧ win0_2.index t (2 : Fin 3) = 0
    ∧ win0_3.index t (0 : Fin 3) = t.val / 2 ∧ win0_3.index t (1 : Fin 3) = 0 ∧ win0_3.index t (2 : Fin 3) = 0 :=
  (by decide +kernel : ∀ t : Fin grid0.N, _)

/-- The block of scores and the block of ids the body reads at point `t`; the images of scores and of ids. -/
abbrev scBlk (c : Dev nD) (t : Fin cfg0.N) : Vec Ideal S1x512x1024 .f32 := iblk0 V c 0 t
abbrev idBlk (c : Dev nD) (t : Fin cfg0.N) : Vec Ideal S1x512x1024 .i32 := iblk0 V c 1 t
abbrev scArr (c : Dev nD) : FVec Ideal Cert.Spec.SImg .f32 := V c main_v0
abbrev idArr (c : Dev nD) : IVec Cert.Spec.SImg 32 := V c main_v1

/-- Entry (0, r, w) of point `t`'s block of scores is entry (t / 2, 512 · (t % 2) + r, w) of the images. -/
theorem scBlk_apply (c : Dev nD) (t : Fin cfg0.N) (r : Fin 512) (w : Fin 1024) (b : Fin 32) (h : Fin 1024)
    (hb : b.val = t.val / 2) (hh : h.val = 512 * (t.val % 2) + r.val) :
    scBlk V c t (ix3 (0 : Fin 1) r w) = scArr V c (ix3 b h w) := by
  obtain ⟨e0, e1, e2, -⟩ := idx_facts t
  unfold scBlk iblk0
  rw [View.read_apply]
  show V c main_v0 _ = V c main_v0 _
  congr 1
  funext a
  apply Fin.ext
  match a with
  | ⟨0, _⟩ => show win0_0.index t (0 : Fin 3) * 1 + 1 * 0 = b.val; rw [e0, hb]; omega
  | ⟨1, _⟩ => show win0_0.index t (1 : Fin 3) * 512 + 1 * r.val = h.val; rw [e1, hh]; omega
  | ⟨2, _⟩ => show win0_0.index t (2 : Fin 3) * 1024 + 1 * w.val = w.val; rw [e2]; omega

/-- Entry (0, r, w) of point `t`'s block of ids is entry (t / 2, 512 · (t % 2) + r, w) of the images. -/
theorem idBlk_apply (c : Dev nD) (t : Fin cfg0.N) (r : Fin 512) (w : Fin 1024) (b : Fin 32) (h : Fin 1024)
    (hb : b.val = t.val / 2) (hh : h.val = 512 * (t.val % 2) + r.val) :
    idBlk V c t (ix3 (0 : Fin 1) r w) = idArr V c (ix3 b h w) := by
  obtain ⟨-, -, -, e0, e1, e2, -⟩ := idx_facts t
  unfold idBlk iblk0
  rw [View.read_apply]
  show V c main_v1 _ = V c main_v1 _
  congr 1
  funext a
  apply Fin.ext
  match a with
  | ⟨0, _⟩ => show win0_1.index t (0 : Fin 3) * 1 + 1 * 0 = b.val; rw [e0, hb]; omega
  | ⟨1, _⟩ => show win0_1.index t (1 : Fin 3) * 512 + 1 * r.val = h.val; rw [e1, hh]; omega
  | ⟨2, _⟩ => show win0_1.index t (2 : Fin 3) * 1024 + 1 * w.val = w.val; rw [e2]; omega

/-- The tile of scores the body reads at point `t`, entry by entry: the images' entries. -/
theorem scOf_apply (c : Dev nD) (t : Fin cfg0.N) (r : Fin 512) (w : Fin 1024) (b : Fin 32) (h : Fin 1024)
    (hb : b.val = t.val / 2) (hh : h.val = 512 * (t.val % 2) + r.val) :
    scOf (F := Ideal) (scBlk V c t) (ix2 r w) = scArr V c (ix3 b h w) := by
  refine (shapeCast_apply (scBlk V c t) Gen.shapeCasts_S1x512x1024_S512x1024 (ix2 r w) (ix3 (0 : Fin 1) r w) ?_).trans (scBlk_apply V c t r w b h hb hh)
  rw [Shape.rowMajor_val_three, Shape.rowMajor_val_two]
  show ((0 : Nat) * 512 + r.val) * 1024 + w.val = r.val * 1024 + w.val
  omega

/-- The tile of ids the body reads at point `t`, entry by entry: the images' entries. -/
theorem idsOf_apply (c : Dev nD) (t : Fin cfg0.N) (r : Fin 512) (w : Fin 1024) (b : Fin 32) (h : Fin 1024)
    (hb : b.val = t.val / 2) (hh : h.val = 512 * (t.val % 2) + r.val) :
    idsOf (F := Ideal) (idBlk V c t) (ix2 r w) = idArr V c (ix3 b h w) := by
  refine (shapeCast_apply (idBlk V c t) Gen.shapeCasts_S1x512x1024_S512x1024 (ix2 r w) (ix3 (0 : Fin 1) r w) ?_).trans (idBlk_apply V c t r w b h hb hh)
  rw [Shape.rowMajor_val_three, Shape.rowMajor_val_two]
  show ((0 : Nat) * 512 + r.val) * 1024 + w.val = r.val * 1024 + w.val
  omega

/-- After an image's first tile: the tile's rows over zero. -/
theorem outs_even (c : Dev nD) (t : Fin cfg0.N) (h0 : t.val % 2 = 0) :
    outsAt0 V c t.val t.isLt
      = (bump zblk (accS (idsOf (idBlk V c t)) (scOf (scBlk V c t)) 256), bump zblk (accC (F := Ideal) (idsOf (idBlk V c t)) 256)) := by
  rw [outsAt0_A V c t h0]
  rw [out_A_2 (F := Ideal) c (grid0.coords t) (ms0_0 t) (hs0_0 t) (ms0_1 t) (hs0_1 t) (ms0_2 t) (hs0_2 t) (ms0_3 t) (hs0_3 t) (scBlk V c t) (idBlk V c t) ((hcond0_0 t).mpr h0),
    out_A_3 (F := Ideal) c (grid0.coords t) (ms0_0 t) (hs0_0 t) (ms0_1 t) (hs0_1 t) (ms0_2 t) (hs0_2 t) (ms0_3 t) (hs0_3 t) (scBlk V c t) (idBlk V c t) ((hcond0_0 t).mpr h0)]

/-- The point before `t`. -/
abbrev prevPt (t : Fin cfg0.N) : Fin cfg0.N := ⟨t.val - 1, Nat.lt_of_le_of_lt (Nat.sub_le _ _) t.isLt⟩

/-- After an image's second tile: the tile's rows over what the first tile left. -/
theorem outs_odd (c : Dev nD) (t : Fin cfg0.N) (h1 : t.val % 2 = 1) :
    outsAt0 V c t.val t.isLt
      = (bump (bump zblk (accS (idsOf (idBlk V c (prevPt t))) (scOf (scBlk V c (prevPt t))) 256)) (accS (idsOf (idBlk V c t)) (scOf (scBlk V c t)) 256),
         bump (bump zblk (accC (F := Ideal) (idsOf (idBlk V c (prevPt t))) 256)) (accC (F := Ideal) (idsOf (idBlk V c t)) 256)) := by
  have hB : ¬t.val % 2 = 0 := by omega
  have hA : (prevPt t).val % 2 = 0 := by show (t.val - 1) % 2 = 0; omega
  rw [outsAt0_B V c t hB]
  rw [show outsAt0 V c (t.val - 1) (Nat.lt_of_le_of_lt (Nat.sub_le _ _) t.isLt) = outsAt0 V c (prevPt t).val (prevPt t).isLt from rfl]
  rw [outs_even V c (prevPt t) hA]
  dsimp only
  rw [out_B_2 (F := Ideal) c (grid0.coords t) (ms0_0 t) (hs0_0 t) (ms0_1 t) (hs0_1 t) (ms0_2 t) (hs0_2 t) (ms0_3 t) (hs0_3 t) (scBlk V c t) (idBlk V c t) (fun h => hB ((hcond0_0 t).mp h)),
    out_B_3 (F := Ideal) c (grid0.coords t) (ms0_0 t) (hs0_0 t) (ms0_1 t) (hs0_1 t) (ms0_2 t) (hs0_2 t) (ms0_3 t) (hs0_3 t) (scBlk V c t) (idBlk V c t) (fun h => hB ((hcond0_0 t).mp h))]

/-- A sum over the 1024 rows is the sum over the upper 512 plus the sum over the lower 512. -/
theorem sum_halves (f : Fin 1024 → EReal) :
    ∑ h : Fin 1024, f h = ∑ r : Fin 512, f ⟨r.val, by omega⟩ + ∑ r : Fin 512, f ⟨512 + r.val, by omega⟩ :=
  Fin.sum_univ_add (a := 512) (b := 512) f

/-- Lane `k` of the block of sums after image `b`'s second tile: the image's sum for id `k`. -/
theorem sums_lane (c : Dev nD) (t : Fin cfg0.N) (h1 : t.val % 2 = 1) (b : Fin 32) (hb : b.val = t.val / 2) (k : Fin 256) :
    (outsAt0 V c t.val t.isLt).1 (ix3 (0 : Fin 1) (0 : Fin 1) k) = Cert.Spec.segSum (scArr V c) (idArr V c) b k := by
  rw [outs_odd V c t h1]
  dsimp only
  rw [bump_apply, bump_apply, zblk_apply, zero_add, accS_apply, accS_apply]
  unfold Cert.Spec.segSum
  rw [sum_halves]
  refine congrArg₂ (· + ·) ?_ ?_
  · refine Finset.sum_congr rfl fun r _ => Finset.sum_congr rfl fun w _ => ?_
    have hr := r.isLt
    rw [idsOf_apply V c (prevPt t) r w b ⟨r.val, by omega⟩ (by show b.val = (t.val - 1) / 2; omega) (by show r.val = 512 * ((t.val - 1) % 2) + r.val; omega),
      scOf_apply V c (prevPt t) r w b ⟨r.val, by omega⟩ (by show b.val = (t.val - 1) / 2; omega) (by show r.val = 512 * ((t.val - 1) % 2) + r.val; omega)]
  · refine Finset.sum_congr rfl fun r _ => Finset.sum_congr rfl fun w _ => ?_
    have hr := r.isLt
    rw [idsOf_apply V c t r w b ⟨512 + r.val, by omega⟩ hb (by show 512 + r.val = 512 * (t.val % 2) + r.val; omega),
      scOf_apply V c t r w b ⟨512 + r.val, by omega⟩ hb (by show 512 + r.val = 512 * (t.val % 2) + r.val; omega)]

/-- Lane `k` of the block of counts after image `b`'s second tile: the number of the image's pixels of id `k`. -/
theorem cnts_lane (c : Dev nD) (t : Fin cfg0.N) (h1 : t.val % 2 = 1) (b : Fin 32) (hb : b.val = t.val / 2) (k : Fin 256) :
    (outsAt0 V c t.val t.isLt).2 (ix3 (0 : Fin 1) (0 : Fin 1) k) = Cert.Spec.segCnt (idArr V c) b k := by
  rw [outs_odd V c t h1]
  dsimp only
  rw [bump_apply, bump_apply, zblk_apply, zero_add, accC_apply, accC_apply]
  unfold Cert.Spec.segCnt
  rw [sum_halves]
  refine congrArg₂ (· + ·) ?_ ?_
  · refine Finset.sum_congr rfl fun r _ => Finset.sum_congr rfl fun w _ => ?_
    have hr := r.isLt
    rw [idsOf_apply V c (prevPt t) r w b ⟨r.val, by omega⟩ (by show b.val = (t.val - 1) / 2; omega) (by show r.val = 512 * ((t.val - 1) % 2) + r.val; omega)]
  · refine Finset.sum_congr rfl fun r _ => Finset.sum_congr rfl fun w _ => ?_
    have hr := r.isLt
    rw [idsOf_apply V c t r w b ⟨512 + r.val, by omega⟩ hb (by show 512 + r.val = 512 * (t.val % 2) + r.val; omega)]

/-- What a point that writes back writes to the table of sums: its block of the specification's table. -/
theorem sums_flushed (c : Dev nD) (t : Fin cfg0.N) (hf : (cfg0.win 2).flush t = true) :
    (dat0 V c).flushed 2 t = ((cfg0.win 2).blk t).view.read (Elt Ideal) (Cert.Spec.tabSum (scArr V c) (idArr V c)) := by
  have h1 : t.val % 2 = 1 := (flush0_2 t).mp hf
  have hN : t.val < 64 := lt_of_lt_of_eq t.isLt (show cfg0.N = 64 from N_0)
  obtain ⟨-, -, -, -, -, -, e0, e1, e2, -⟩ := idx_facts t
  show (cfg0.win 2).cut (grid0.coords t) ((dat0 V c).after 2 t) = _
  rw [after0_2]
  funext j
  rw [View.read_apply]
  have hj0 : (j 0).val < 1 := (j 0).isLt
  have hj1 : (j 1).val < 1 := (j 1).isLt
  have hj2 : (j 2).val < 256 := (j 2).isLt
  show (outsAt0 V c t.val t.isLt).1 ((cfg0.win 2).xinj (grid0.coords t) j) = _
  have ej : (cfg0.win 2).xinj (grid0.coords t) j = ix3 (0 : Fin 1) (0 : Fin 1) (⟨(j 2).val, hj2⟩ : Fin 256) := by
    funext a; apply Fin.ext
    match a with
    | ⟨0, _⟩ => show (j 0).val = 0; omega
    | ⟨1, _⟩ => show (j 1).val = 0; omega
    | ⟨2, _⟩ => rfl
  rw [ej, sums_lane V c t h1 ⟨t.val / 2, by omega⟩ rfl]
  unfold Cert.Spec.tabSum
  refine congrArg₂ (Cert.Spec.segSum (scArr V c) (idArr V c)) (Fin.ext ?_) (Fin.ext ?_)
  · show t.val / 2 = win0_2.index t (0 : Fin 3) * 1 + 1 * (j 0).val; rw [e0]; omega
  · show (j 2).val = win0_2.index t (2 : Fin 3) * 256 + 1 * (j 2).val; rw [e2]; omega

/-- What a point that writes back writes to the table of counts: its block of the specification's table. -/
theorem cnts_flushed (c : Dev nD) (t : Fin cfg0.N) (hf : (cfg0.win 3).flush t = true) :
    (dat0 V c).flushed 3 t = ((cfg0.win 3).blk t).view.read (Elt Ideal) (Cert.Spec.tabCnt (idArr V c)) := by
  have h1 : t.val % 2 = 1 := (flush0_3 t).mp hf
  have hN : t.val < 64 := lt_of_lt_of_eq t.isLt (show cfg0.N = 64 from N_0)
  obtain ⟨-, -, -, -, -, -, -, -, -, e0, e1, e2⟩ := idx_facts t
  show (cfg0.win 3).cut (grid0.coords t) ((dat0 V c).after 3 t) = _
  rw [after0_3]
  funext j
  rw [View.read_apply]
  have hj0 : (j 0).val < 1 := (j 0).isLt
  have hj1 : (j 1).val < 1 := (j 1).isLt
  have hj2 : (j 2).val < 256 := (j 2).isLt
  show (outsAt0 V c t.val t.isLt).2 ((cfg0.win 3).xinj (grid0.coords t) j) = _
  have ej : (cfg0.win 3).xinj (grid0.coords t) j = ix3 (0 : Fin 1) (0 : Fin 1) (⟨(j 2).val, hj2⟩ : Fin 256) := by
    funext a; apply Fin.ext
    match a with
    | ⟨0, _⟩ => show (j 0).val = 0; omega
    | ⟨1, _⟩ => show (j 1).val = 0; omega
    | ⟨2, _⟩ => rfl
  rw [ej, cnts_lane V c t h1 ⟨t.val / 2, by omega⟩ rfl]
  unfold Cert.Spec.tabCnt
  refine congrArg₂ (Cert.Spec.segCnt (idArr V c)) (Fin.ext ?_) (Fin.ext ?_)
  · show t.val / 2 = win0_3.index t (0 : Fin 3) * 1 + 1 * (j 0).val; rw [e0]; omega
  · show (j 2).val = win0_3.index t (2 : Fin 3) * 256 + 1 * (j 2).val; rw [e2]; omega

/-- The point after which image `b`'s blocks are written back: its second tile's. -/
abbrev lastPt (b : Nat) (hb : b < 32) : Fin cfg0.N := ⟨2 * b + 1, by rw [show cfg0.N = 64 from N_0]; omega⟩

/-- The table of sums after the region, from the images and ids the region finds. -/
theorem sums_arr (c : Dev nD) :
    (dat0 (F := Ideal) V c).arrAt 2 cfg0.N = Cert.Spec.tabSum (V c main_v0) (V c main_v1) :=
  (dat0 V c).arrAt_eq_of_cover 2 (Cert.Spec.tabSum (V c main_v0) (V c main_v1)) (sums_flushed V c) fun i => by
    have hi0 : (i 0 : Nat) < 32 := (i 0).isLt
    have hi1 : (i 1 : Nat) < 1 := (i 1).isLt
    have hi2 : (i 2 : Nat) < 256 := (i 2).isLt
    refine ⟨lastPt (i 0).val hi0, (flush0_2 _).mpr (by show (2 * (i 0).val + 1) % 2 = 1; omega), ?_⟩
    obtain ⟨-, -, -, -, -, -, e0, e1, e2, -⟩ := idx_facts (lastPt (i 0).val hi0)
    have e0' : win0_2.index (lastPt (i 0).val hi0) (0 : Fin 3) = (i 0).val := by rw [e0]; show (2 * (i 0).val + 1) / 2 = _; omega
    show i ∈ ((View.whole main_v2_0).slice (win0_2.rect (lastPt (i 0).val hi0))).set
    rw [View.set_slice_whole, Rect.mem_set_unit]
    intro a
    match a with
    | ⟨0, _⟩ => show win0_2.index (lastPt (i 0).val hi0) (0 : Fin 3) * 1 ≤ (i 0 : Nat) ∧ (i 0 : Nat) < win0_2.index (lastPt (i 0).val hi0) (0 : Fin 3) * 1 + 1
                rw [e0']; omega
    | ⟨1, _⟩ => show win0_2.index (lastPt (i 0).val hi0) (1 : Fin 3) * 1 ≤ (i 1 : Nat) ∧ (i 1 : Nat) < win0_2.index (lastPt (i 0).val hi0) (1 : Fin 3) * 1 + 1
                rw [e1]; omega
    | ⟨2, _⟩ => show win0_2.index (lastPt (i 0).val hi0) (2 : Fin 3) * 256 ≤ (i 2 : Nat) ∧ (i 2 : Nat) < win0_2.index (lastPt (i 0).val hi0) (2 : Fin 3) * 256 + 256
                rw [e2]; omega

/-- The table of counts after the region. -/
theorem cnts_arr (c : Dev nD) :
    (dat0 (F := Ideal) V c).arrAt 3 cfg0.N = Cert.Spec.tabCnt (V c main_v1) :=
  (dat0 V c).arrAt_eq_of_cover 3 (Cert.Spec.tabCnt (V c main_v1)) (cnts_flushed V c) fun i => by
    have hi0 : (i 0 : Nat) < 32 := (i 0).isLt
    have hi1 : (i 1 : Nat) < 1 := (i 1).isLt
    have hi2 : (i 2 : Nat) < 256 := (i 2).isLt
    refine ⟨lastPt (i 0).val hi0, (flush0_3 _).mpr (by show (2 * (i 0).val + 1) % 2 = 1; omega), ?_⟩
    obtain ⟨-, -, -, -, -, -, -, -, -, e0, e1, e2⟩ := idx_facts (lastPt (i 0).val hi0)
    have e0' : win0_3.index (lastPt (i 0).val hi0) (0 : Fin 3) = (i 0).val := by rw [e0]; show (2 * (i 0).val + 1) / 2 = _; omega
    show i ∈ ((View.whole main_v2_1).slice (win0_3.rect (lastPt (i 0).val hi0))).set
    rw [View.set_slice_whole, Rect.mem_set_unit]
    intro a
    match a with
    | ⟨0, _⟩ => show win0_3.index (lastPt (i 0).val hi0) (0 : Fin 3) * 1 ≤ (i 0 : Nat) ∧ (i 0 : Nat) < win0_3.index (lastPt (i 0).val hi0) (0 : Fin 3) * 1 + 1
                rw [e0']; omega
    | ⟨1, _⟩ => show win0_3.index (lastPt (i 0).val hi0) (1 : Fin 3) * 1 ≤ (i 1 : Nat) ∧ (i 1 : Nat) < win0_3.index (lastPt (i 0).val hi0) (1 : Fin 3) * 1 + 1
                rw [e1]; omega
    | ⟨2, _⟩ => show win0_3.index (lastPt (i 0).val hi0) (2 : Fin 3) * 256 ≤ (i 2 : Nat) ∧ (i 2 : Nat) < win0_3.index (lastPt (i 0).val hi0) (2 : Fin 3) * 256 + 256
                rw [e2]; omega

end Cert.KernelIdeal.Hist

end
-- ==== Proof.FinalBody.lean ====
/-
  What the finalize body leaves in its output block.

  The body walks the 256 superpixel ids in order and keeps, for every pixel of the 512×1024 tile, the table
  entry of the pixel's id: starting from zero, id `k`'s step replaces the running value by the image's mean
  `k` (entry `k` of the 1×1×256 block of means) wherever `ids = k`. A pixel whose id is one of the 256 ids ends
  at its own id's mean. The stored tile is then 1 or 0 by whether that mean exceeds 1/2 where the id is
  below 255, and the pixel's own score elsewhere. The closed form is a recursion on the number of ids
  walked; that the body's unrolled text computes exactly `pick … 256` is checked by unfolding.
-/
import proofs.«411308_j8117488189733_1_alg».proof.Proof.Gen.KernelIdeal.Frame
import proofs.«411308_j8117488189733_1_alg».proof.Proof.Spec
import Idealize.ShloMosaic.Lib.Pipeline.Value
import Idealize.ShloMosaic.Lib.ValueIdx
import Idealize.ShloMosaic.Lib.ValueLayout
import Idealize.ShloMosaic.Lib.Tactic

set_option maxRecDepth 65536

noncomputable section

open Idealize.ShloMosaic Idealize.ShloMosaic.TcCoe Idealize.SL.Sem Idealize.ShloMosaic.ValueIdx

namespace Cert.KernelIdeal.Final

open Cert.KernelIdeal Cert.KernelIdeal.Gen

variable {F : FTy → Type} [FloatOps F]

theorem hz3 : (![0, 0, 0] : Fin 3 → Nat) = fun _ => 0 := funext fun a => by fin_cases a <;> rfl

/-- The 1×1×1 rectangle of the block of means at entry `n`. -/
abbrev cell (n : Nat) (hn : n < 256) : Rect S1x1x256 :=
  Rect.unit (s := S1x1x256) ![0, 0, n] S1x1x1.size (by
    intro a; fin_cases a <;> simp [Shape.size] <;> omega)

/-- Entry `n` of the block of means, as a scalar. -/
def meanAt (x2 : Vec F S1x1x256 .f32) (n : Nat) (hn : n < 256) : F .f32 :=
  extractAt ![0, 0, 0] (View.ld x2 (cell n hn)) Gen.inpos_S1x1x1_p0_0_0

/-- The running per-pixel mean after the first `n` ids. -/
def pick (ids : IVec S512x1024 32) (x2 : Vec F S1x1x256 .f32) : (n : Nat) → n ≤ 256 → FVec F S512x1024 .f32
  | 0, _ => broadcast S512x1024 (Scalar.ofBits .f32 0x00000000#32)
  | n + 1, h => select (cmpi .eq ids (broadcast S512x1024 (BitVec.ofNat 32 n)))
      (broadcast S512x1024 (meanAt x2 n (by omega))) (pick ids x2 n (by omega))

/-- The stored tile from the per-pixel mean. -/
def snap (ids : IVec S512x1024 32) (sc mp : FVec F S512x1024 .f32) : FVec F S1x512x1024 .f32 :=
  shapeCast S1x512x1024
    (select (cmpi .slt ids (broadcast S512x1024 255#32))
      (select (cmpf .ogt mp (broadcast S512x1024 (Scalar.ofBits .f32 0x3F000000#32)))
        (broadcast S512x1024 (Scalar.ofBits .f32 0x3F800000#32)) (broadcast S512x1024 (Scalar.ofBits .f32 0x00000000#32)))
      sc) Gen.shapeCasts_S512x1024_S1x512x1024

abbrev idsOf (x1 : Vec F S1x512x1024 .i32) : IVec S512x1024 32 := shapeCast S512x1024 x1 Gen.shapeCasts_S1x512x1024_S512x1024
abbrev scOf (x0 : Vec F S1x512x1024 .f32) : FVec F S512x1024 .f32 := shapeCast S512x1024 x0 Gen.shapeCasts_S1x512x1024_S512x1024

/-- The output block after the body: one store of the whole block, the snapped tile. -/
theorem out_eq (x0 : Vec F S1x512x1024 .f32) (x1 : Vec F S1x512x1024 .i32) (x2 : Vec F S1x1x256 .f32) :
    out1_3 x0 x1 x2 = snap (idsOf x1) (scOf x0) (pick (idsOf x1) x2 256 (le_refl _)) := by
  unfold out1_3
  rw [View.canon_unit_zero hz3]
  simp only [View.ld_unit_zero (S := S1x512x1024) hz3]
  rfl

end Cert.KernelIdeal.Final

end
-- ==== Proof.FinalLane.lean ====
/-
  The finalize body's output block read pixel by pixel, over the extended reals.

  A pixel whose id word is one of 0 … 255 ends the id walk at its own id's mean: the steps of the other ids
  do not touch it and its own id's step sets it. The stored value is then the fused pixel of the
  specification.
-/
import proofs.«411308_j8117488189733_1_alg».proof.Proof.FinalBody
import Idealize.ShloMosaic.PureOps.Ideal.Laws

noncomputable section

open Idealize.ShloMosaic Idealize.ShloMosaic.TcCoe Idealize.ShloMosaic.ValueIdx

namespace Cert.KernelIdeal.Final

open Cert.KernelIdeal Cert.KernelIdeal.Gen

/-- Entry `n` of the block of means is the block's value at `(0, 0, n)`. -/
theorem meanAt_eq (x2 : Vec Ideal S1x1x256 .f32) (n : Nat) (hn : n < 256) :
    meanAt (F := Ideal) x2 n hn = x2 (ix3 (0 : Fin 1) (0 : Fin 1) (⟨n, hn⟩ : Fin 256)) := by
  unfold meanAt extractAt
  show x2 _ = x2 _
  congr 1
  funext a
  apply Fin.ext
  match a with
  | ⟨0, _⟩ => rfl
  | ⟨1, _⟩ => rfl
  | ⟨2, _⟩ => show n + 1 * 0 = n; omega

/-- The id walk at one pixel whose id word `v` is below 256: after the first `n` ids the running value is the
    mean of `v`'s own id when that id is among them, zero otherwise. The step of id `n` compares `v` with the word of
    `n`: equal words mean `v` is `n` and the step writes mean `n`; otherwise the step leaves the value. -/
theorem pick_apply (ids : IVec S512x1024 32) (x2 : Vec Ideal S1x1x256 .f32) (i : S512x1024.Idx)
    (v : BitVec 32) (hv : ids i = v) (h : v.toNat < 256) : ∀ (n : Nat) (hn : n ≤ 256),
    pick (F := Ideal) ids x2 n hn i
      = if v.toNat < n then x2 (ix3 (0 : Fin 1) (0 : Fin 1) (⟨v.toNat, h⟩ : Fin 256))
        else (Scalar.ofBits (F := Ideal) .f32 0x00000000#32 : Ideal .f32)
  | 0, _ => by
    rw [if_neg (Nat.not_lt_zero _)]
    rfl
  | n + 1, hn => by
    have ih := pick_apply ids x2 i v hv h n (by omega)
    have hstep : pick (F := Ideal) ids x2 (n + 1) hn i
        = Scalar.select (IntOp.cmpi .eq (ids i) (BitVec.ofNat 32 n)) (meanAt (F := Ideal) x2 n (by omega))
            (pick (F := Ideal) ids x2 n (by omega) i) := rfl
    rw [hstep, ih, meanAt_eq, hv]
    by_cases hvn : v = BitVec.ofNat 32 n
    · have hn' : v.toNat = n := by
        rw [hvn, BitVec.toNat_ofNat]; omega
      rw [IntOp.cmpi_eq.mpr hvn, select_one, if_pos (by omega)]
      congr 2
      exact Fin.ext hn'.symm
    · have hn' : v.toNat ≠ n := by
        intro e
        apply hvn
        apply BitVec.eq_of_toNat_eq
        rw [BitVec.toNat_ofNat, e]; omega
      have hc : ¬ IntOp.cmpi .eq v (BitVec.ofNat 32 n) = 1#1 := fun e => hvn (IntOp.cmpi_eq.mp e)
      rw [eq_zero_of_ne_one hc, select_zero]
      by_cases hlt : v.toNat < n
      · rw [if_pos hlt, if_pos (by omega)]
      · rw [if_neg hlt, if_neg (by omega)]

/-- The stored tile at pixel `(r, w)`: the two selects on the pixel's own id word, mean and score. -/
theorem snap_apply (ids : IVec S512x1024 32) (sc mp : FVec Ideal S512x1024 .f32) (r : Fin 512) (w : Fin 1024) :
    snap (F := Ideal) ids sc mp (ix3 (0 : Fin 1) r w)
      = Scalar.select (IntOp.cmpi .slt (ids (ix2 r w)) 255#32)
          (Scalar.select (FloatOps.cmpf (F := Ideal) (φ := .f32) .ogt (mp (ix2 r w)) (Ideal.ofBits .f32 0x3F000000#32))
            (Ideal.ofBits .f32 0x3F800000#32) (Ideal.ofBits .f32 0x00000000#32))
          (sc (ix2 r w)) := by
  unfold snap
  rw [shapeCast_ab_1ab_apply]
  rfl

/-- The output block at pixel `(r, w)` of the tile, for an id word below 256. -/
theorem out_apply (x0 : Vec Ideal S1x512x1024 .f32) (x1 : Vec Ideal S1x512x1024 .i32) (x2 : Vec Ideal S1x1x256 .f32)
    (r : Fin 512) (w : Fin 1024) (h : (x1 (ix3 (0 : Fin 1) r w)).toNat < 256) :
    out1_3 (F := Ideal) x0 x1 x2 (ix3 (0 : Fin 1) r w)
      = Cert.Spec.fuse (x2 (ix3 (0 : Fin 1) (0 : Fin 1) (Cert.Spec.slot (x1 (ix3 (0 : Fin 1) r w)))))
          (x1 (ix3 (0 : Fin 1) r w)) (x0 (ix3 (0 : Fin 1) r w)) := by
  have hid : idsOf (F := Ideal) x1 (ix2 r w) = x1 (ix3 (0 : Fin 1) r w) :=
    shapeCast_1ab_ab_apply x1 _ r w
  have hsc : scOf (F := Ideal) x0 (ix2 r w) = x0 (ix3 (0 : Fin 1) r w) :=
    shapeCast_1ab_ab_apply x0 _ r w
  have hp := pick_apply (idsOf (F := Ideal) x1) x2 (ix2 r w) _ hid h 256 (le_refl _)
  rw [if_pos h] at hp
  have hslot : (⟨(x1 (ix3 (0 : Fin 1) r w)).toNat, h⟩ : Fin 256) = Cert.Spec.slot (x1 (ix3 (0 : Fin 1) r w)) :=
    Fin.ext (Nat.mod_eq_of_lt h).symm
  rw [out_eq, snap_apply, hp, hid, hsc, hslot]
  rfl

end Cert.KernelIdeal.Final

end
-- ==== Proof.FinalArr.lean ====
/-
  The image the finalize region leaves: every pixel fused from its image's table of means.

  Grid point `t` handles image `t / 2`, rows `512 · (t % 2)` onwards, and writes its own block of the result;
  the blocks tile the array, so the array is the one function of the images, ids and means whose
  restriction to each block is what the body stored there.
-/
import proofs.«411308_j8117488189733_1_alg».proof.Proof.FinalLane
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen

variable (V : (c : Dev nD) → (b : Ref sig .tc) → Buf (Elt Ideal) ((c : Thread nD τ).loc b))

/-- Where each window's block sits at grid point `t`: image `t / 2` on the first axis; the score, id and result
    blocks at row tile `t % 2`, the block of means at the table's one row; every block starts at column 0. -/
theorem idx_facts : ∀ t : Fin cfg1.N,
    win1_0.index t (0 : Fin 3) = t.val / 2 ∧ win1_0.index t (1 : Fin 3) = t.val % 2 ∧ win1_0.index t (2 : Fin 3) = 0
    ∧ win1_1.index t (0 : Fin 3) = t.val / 2 ∧ win1_1.index t (1 : Fin 3) = t.val % 2 ∧ win1_1.index t (2 : Fin 3) = 0
    ∧ win1_2.index t (0 : Fin 3) = t.val / 2 ∧ win1_2.index t (1 : Fin 3) = 0 ∧ win1_2.index t (2 : Fin 3) = 0
    ∧ win1_3.index t (0 : Fin 3) = t.val / 2 ∧ win1_3.index t (1 : Fin 3) = t.val % 2 ∧ win1_3.index t (2 : Fin 3) = 0 :=
  (by decide +kernel : ∀ t : Fin grid1.N, _)

/-- The output block at any index of the tile whose id word is below 256: the fused pixel of the block of means,
    the id and the score there (the index is `(0, r, w)` for its row `r` and column `w`). -/
theorem out_at (x0 : Vec Ideal S1x512x1024 .f32) (x1 : Vec Ideal S1x512x1024 .i32) (x2 : Vec Ideal S1x1x256 .f32)
    (y : S1x512x1024.Idx) (h : (x1 y).toNat < 256) :
    out1_3 (F := Ideal) x0 x1 x2 y
      = Cert.Spec.fuse (x2 (ix3 (0 : Fin 1) (0 : Fin 1) (Cert.Spec.slot (x1 y)))) (x1 y) (x0 y) := by
  have hy : y = ix3 (0 : Fin 1) (⟨(y 1).val, (y 1).isLt⟩ : Fin 512) (⟨(y 2).val, (y 2).isLt⟩ : Fin 1024) := by
    funext a
    match a with
    | ⟨0, _⟩ => exact Fin.ext (by have h0 : (y 0).val < 1 := (y 0).isLt; show (y 0).val = 0; omega)
    | ⟨1, _⟩ => rfl
    | ⟨2, _⟩ => rfl
  obtain ⟨r, w, rfl⟩ : ∃ (r : Fin 512) (w : Fin 1024), y = ix3 (0 : Fin 1) r w := ⟨_, _, hy⟩
  exact out_apply x0 x1 x2 r w h

/-- The score block sits where the result block sits: coordinate = block index × block size + offset inside. -/
theorem emb0_eq (t : Fin cfg1.N) (y : S1x512x1024.Idx) :
    ((cfg1.win 0).blk t).view.emb y = ((cfg1.win 3).blk t).view.emb y := by
  obtain ⟨a0, a1, a2, b0, b1, b2, c0, c1, c2, d0, d1, d2⟩ := idx_facts t
  funext a; apply Fin.ext
  match a with
  | ⟨0, _⟩ => show win1_0.index t (0 : Fin 3) * 1 + 1 * (y 0).val = win1_3.index t (0 : Fin 3) * 1 + 1 * (y 0).val; omega
  | ⟨1, _⟩ => show win1_0.index t (1 : Fin 3) * 512 + 1 * (y 1).val = win1_3.index t (1 : Fin 3) * 512 + 1 * (y 1).val; omega
  | ⟨2, _⟩ => show win1_0.index t (2 : Fin 3) * 1024 + 1 * (y 2).val = win1_3.index t (2 : Fin 3) * 1024 + 1 * (y 2).val; omega

/-- The id block sits where the result block sits. -/
theorem emb1_eq (t : Fin cfg1.N) (y : S1x512x1024.Idx) :
    ((cfg1.win 1).blk t).view.emb y = ((cfg1.win 3).blk t).view.emb y := by
  obtain ⟨a0, a1, a2, b0, b1, b2, c0, c1, c2, d0, d1, d2⟩ := idx_facts t
  funext a; apply Fin.ext
  match a with
  | ⟨0, _⟩ => show win1_1.index t (0 : Fin 3) * 1 + 1 * (y 0).val = win1_3.index t (0 : Fin 3) * 1 + 1 * (y 0).val; omega
  | ⟨1, _⟩ => show win1_1.index t (1 : Fin 3) * 512 + 1 * (y 1).val = win1_3.index t (1 : Fin 3) * 512 + 1 * (y 1).val; omega
  | ⟨2, _⟩ => show win1_1.index t (2 : Fin 3) * 1024 + 1 * (y 2).val = win1_3.index t (2 : Fin 3) * 1024 + 1 * (y 2).val; omega

/-- The block of means is the row of the table of the image the result block lies in. -/
theorem emb2_eq (t : Fin cfg1.N) (y : S1x512x1024.Idx) (k : Fin 256) :
    ((cfg1.win 2).blk t).view.emb (ix3 (0 : Fin 1) (0 : Fin 1) k)
      = ix3 (⟨((((cfg1.win 3).blk t).view.emb y) 0).val, ((((cfg1.win 3).blk t).view.emb y) 0).isLt⟩ : Fin 32) (0 : Fin 1) k := by
  obtain ⟨a0, a1, a2, b0, b1, b2, c0, c1, c2, d0, d1, d2⟩ := idx_facts t
  have h0 : (y 0).val < 1 := (y 0).isLt
  funext a; apply Fin.ext
  match a with
  | ⟨0, _⟩ => show win1_2.index t (0 : Fin 3) * 1 + 1 * 0 = win1_3.index t (0 : Fin 3) * 1 + 1 * (y 0).val; omega
  | ⟨1, _⟩ => show win1_2.index t (1 : Fin 3) * 1 + 1 * 0 = 0; omega
  | ⟨2, _⟩ => show win1_2.index t (2 : Fin 3) * 256 + 1 * k.val = k.val; omega

/-- The score block at a pixel of the tile is the score image at that pixel's place in the whole image. -/
theorem sc_blk (c : Dev nD) (t : Fin cfg1.N) (y : S1x512x1024.Idx) :
    (iblk1 V c 0 t : Vec Ideal S1x512x1024 .f32) y
      = (V c main_v0 : FVec Ideal Cert.Spec.SImg .f32) (((cfg1.win 3).blk t).view.emb y) := by
  show (V c main_v0 : FVec Ideal Cert.Spec.SImg .f32) (((cfg1.win 0).blk t).view.emb y) = _
  rw [emb0_eq t y]

/-- The id block likewise. -/
theorem id_blk (c : Dev nD) (t : Fin cfg1.N) (y : S1x512x1024.Idx) :
    (iblk1 V c 1 t : Vec Ideal S1x512x1024 .i32) y
      = (V c main_v1 : IVec Cert.Spec.SImg 32) (((cfg1.win 3).blk t).view.emb y) := by
  show (V c main_v1 : IVec Cert.Spec.SImg 32) (((cfg1.win 1).blk t).view.emb y) = _
  rw [emb1_eq t y]

/-- The block of means at column k is the table of means at the tile's image and column k. -/
theorem mean_blk (c : Dev nD) (t : Fin cfg1.N) (y : S1x512x1024.Idx) (k : Fin 256) :
    (iblk1 V c 2 t : Vec Ideal S1x1x256 .f32) (ix3 (0 : Fin 1) (0 : Fin 1) k)
      = (V c main_v3 : FVec Ideal Cert.Spec.STab .f32)
          (ix3 (⟨((((cfg1.win 3).blk t).view.emb y) 0).val, ((((cfg1.win 3).blk t).view.emb y) 0).isLt⟩ : Fin 32) (0 : Fin 1) k) := by
  show (V c main_v3 : FVec Ideal Cert.Spec.STab .f32) (((cfg1.win 2).blk t).view.emb (ix3 (0 : Fin 1) (0 : Fin 1) k)) = _
  rw [emb2_eq t y k]

/-- What grid point t writes back is its block of the fused image. -/
theorem flushed_eq (c : Dev nD) (hr : ∀ p : Cert.Spec.SImg.Idx, ((V c main_v1 : IVec Cert.Spec.SImg 32) p).toNat < 256)
    (t : Fin cfg1.N) :
    (dat1 (F := Ideal) V c).flushed 3 t
      = ((cfg1.win 3).blk t).view.read (Elt Ideal) (Cert.Spec.fuseImg (V c main_v3) (V c main_v0) (V c main_v1)) := by
  show (cfg1.win 3).cut (grid1.coords t) ((dat1 V c).after 3 t) = _
  rw [after1_3]
  funext y
  have hid := id_blk V c t y
  refine (out_at (iblk1 V c 0 t) (iblk1 V c 1 t) (iblk1 V c 2 t) y (by rw [hid]; exact hr _)).trans ?_
  show Cert.Spec.fuse _ _ _ = Cert.Spec.fuse _ _ _
  rw [mean_blk V c t y, hid, sc_blk V c t y]

/-- An index of the image is in point t's block iff each coordinate is in the block's range on its axis. -/
theorem mem_blk (t : Fin cfg1.N) (i : S32x1024x1024.Idx) :
    i ∈ ((cfg1.win 3).blk t).view.set ↔ ∀ a : Fin 3, win1_3.index t a * S1x512x1024.size a ≤ (i a).val ∧ (i a).val < win1_3.index t a * S1x512x1024.size a + S1x512x1024.size a := by
  show i ∈ ((View.whole main_v4).slice (win1_3.rect t)).set ↔ _
  rw [View.set_slice_whole, Rect.mem_set_unit]
  exact Iff.rfl

/-- Pixel (b, h, w) lies in the block of grid point 2b + h / 512: the blocks tile the image. -/
theorem cover (i : S32x1024x1024.Idx) :
    ∃ t : Fin cfg1.N, (cfg1.win 3).flush t = true ∧ i ∈ ((cfg1.win 3).blk t).view.set := by
  have hi0 : (i 0).val < 32 := (i 0).isLt
  have hi1 : (i 1).val < 1024 := (i 1).isLt
  have hi2 : (i 2).val < 1024 := (i 2).isLt
  have hN : cfg1.N = 64 := N_1
  obtain ⟨t, ht⟩ : ∃ t : Fin cfg1.N, t.val = 2 * (i 0).val + (i 1).val / 512 := ⟨⟨_, by rw [hN]; omega⟩, rfl⟩
  obtain ⟨-, -, -, -, -, -, -, -, -, d0, d1, d2⟩ := idx_facts t
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 1024 ≤ (i 2).val ∧ (i 2).val < win1_3.index t (2 : Fin 3) * 1024 + 1024; omega

/-- The result image after the region, from the images, ids and means the region finds, when every id word
    is below 256. -/
theorem out_arr (c : Dev nD) (hr : ∀ p : Cert.Spec.SImg.Idx, ((V c main_v1 : IVec Cert.Spec.SImg 32) p).toNat < 256) :
    (dat1 (F := Ideal) V c).arrAt 3 cfg1.N = Cert.Spec.fuseImg (V c main_v3) (V c main_v0) (V c main_v1) :=
  (dat1 V c).arrAt_eq_of_cover 3 (Cert.Spec.fuseImg (V c main_v3) (V c main_v0) (V c main_v1))
    (fun t _ => flushed_eq V c hr t) cover

end Cert.KernelIdeal.Final

end
-- ==== Proof.KValue.lean ====
/-
  The idealized kernel program's result array, from the launch memory: the specification's function of the two
  argument arrays, when every id word is below 256.

  Reading back from the result: the last host operation reshapes the finalize region's image to
  `[32,1,1024,1024]`; that region fuses every pixel from the table of means it is entered with; the table
  is the host's quotient of the two tables the histogram region leaves; those are the per-image sums and
  counts of the images the first two host operations reshape out of the arguments. An input window's array
  is not changed by its region, and no host operation writes a buffer it does not define.
-/
import proofs.«411308_j8117488189733_1_alg».proof.Proof.KRun
import proofs.«411308_j8117488189733_1_alg».proof.Proof.HistArr
import proofs.«411308_j8117488189733_1_alg».proof.Proof.FinalArr
import Idealize.ShloMosaic.Lib.Pipeline.Value
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.KValue

open Cert.KernelIdeal Cert.KernelIdeal.Gen

variable (m : (ℓ : Loc nD τ sig) → Buf (Elt Ideal) ℓ) (ρ : Dev nD → PrngReg)

/-- The score images the histogram region is entered with: the first argument reshaped. -/
theorem V1_v0 (c : Dev nD) :
    (V1 m ρ c main_v0 : FVec Ideal S32x1024x1024 .f32) = shapeCast S32x1024x1024 (m ((c : Thread nD τ).loc main_arg0)) Gen.shapeCasts_S32x1x1024x1024_S32x1024x1024 := by
  dsimp only [V1, W1, hostOps0]
  after_results
  rfl

/-- The id images the histogram region is entered with: the second argument reshaped. -/
theorem V1_v1 (c : Dev nD) :
    (V1 m ρ c main_v1 : IVec S32x1024x1024 32) = shapeCast S32x1024x1024 (m ((c : Thread nD τ).loc main_arg1)) Gen.shapeCasts_S32x1x1024x1024_S32x1024x1024 := by
  dsimp only [V1, W1, hostOps0]
  after_results
  rfl

/-- No operation of the quotient stretch writes `b` when `b` is not its result. -/
theorem W3_of_ne (c : Dev nD) (b : Ref sig .tc) (hb : main_v3 ≠ b) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.binary_writes, Finset.mem_singleton]
    exact StableHlo.devRef_ne_of_ne (Ne.symm hb)))

/-- The finalize region is entered with the score images the histogram region was entered with. -/
theorem V3_v0 (c : Dev nD) : V3 m ρ c main_v0 = V1 m ρ c main_v0 :=
  calc V3 m ρ c main_v0 = W2 m ρ c (Proc.devRef .tc main_v0) := W3_of_ne m ρ c main_v0 (by decide)
    _ = (dat0 (V1 m ρ) c).arrAt 0 cfg0.N := W2_arr m ρ c 0
    _ = (dat0 (V1 m ρ) c).A 0 := (dat0 (V1 m ρ) c).arrAt_in 0 rfl _
    _ = V1 m ρ c main_v0 := A_eq0 (V1 m ρ) c 0

/-- … and with the same id images. -/
theorem V3_v1 (c : Dev nD) : V3 m ρ c main_v1 = V1 m ρ c main_v1 :=
  calc V3 m ρ c main_v1 = W2 m ρ c (Proc.devRef .tc main_v1) := W3_of_ne m ρ c main_v1 (by decide)
    _ = (dat0 (V1 m ρ) c).arrAt 1 cfg0.N := W2_arr m ρ c 1
    _ = (dat0 (V1 m ρ) c).A 1 := (dat0 (V1 m ρ) c).arrAt_in 1 rfl _
    _ = V1 m ρ c main_v1 := A_eq0 (V1 m ρ) c 1

/-- The table of means the finalize region is entered with: the quotient of the histogram region's two tables. -/
theorem V3_v3 (c : Dev nD) :
    (V3 m ρ c main_v3 : FVec Ideal S32x1x256 .f32)
      = Host.divf (F := Ideal) (s := S32x1x256) (φ := .f32) (((dat0 (V1 m ρ) c).arrAt 2 cfg0.N : FVec Ideal S32x1x256 .f32))
          (((dat0 (V1 m ρ) c).arrAt 3 cfg0.N : FVec Ideal S32x1x256 .f32)) := by
  rw [← W2_arr m ρ c 2, ← W2_arr m ρ c 3]
  dsimp only [V3, W3, hostOps1]
  after_results

/-- The result array: the finalize region's image reshaped. -/
theorem W5_v5 (c : Dev nD) :
    (W5 m ρ c (Proc.devRef .tc main_v5) : FVec Ideal S32x1x1024x1024 .f32)
      = shapeCast S32x1x1024x1024 ((dat1 (V3 m ρ) c).arrAt 3 cfg1.N : FVec Ideal S32x1024x1024 .f32) Gen.shapeCasts_S32x1024x1024_S32x1x1024x1024 := by
  rw [← W4_arr m ρ c 3]
  dsimp only [W5, hostOps2]
  after_results
  rfl

/-- An argument array reshaped to `[32,1024,1024]` is the image the specification reads it as. -/
theorem reshape_img {α : Type} (x : S32x1x1024x1024.Idx → α) :
    shapeCast S32x1024x1024 x Gen.shapeCasts_S32x1x1024x1024_S32x1024x1024 = Cert.Spec.img x := by
  funext p
  unfold Cert.Spec.img
  exact shapeCast_apply x Gen.shapeCasts_S32x1x1024x1024_S32x1024x1024 p _ (by
    rewrite [Shape.rowMajor_val_four, Shape.rowMajor_val_three]
    have h0 : (p 0).val < 32 := (p 0).isLt; have h1 : (p 1).val < 1024 := (p 1).isLt; have h2 : (p 2).val < 1024 := (p 2).isLt
    show (((p 0).val * 1 + 0) * 1024 + (p 1).val) * 1024 + (p 2).val = ((p 0).val * 1024 + (p 1).val) * 1024 + (p 2).val
    omega)

/-- An image reshaped to `[32,1,1024,1024]`, read at an index. -/
theorem reshape_arg {α : Type} (f : S32x1024x1024.Idx → α) (i : S32x1x1024x1024.Idx) :
    shapeCast S32x1x1024x1024 f Gen.shapeCasts_S32x1024x1024_S32x1x1024x1024 i
      = f (ix3 (⟨(i 0).val, (i 0).isLt⟩ : Fin 32) (⟨(i 2).val, (i 2).isLt⟩ : Fin 1024) (⟨(i 3).val, (i 3).isLt⟩ : Fin 1024)) :=
  shapeCast_apply f Gen.shapeCasts_S32x1024x1024_S32x1x1024x1024 i _ (by
    rewrite [Shape.rowMajor_val_three, Shape.rowMajor_val_four]
    have h0 : (i 0).val < 32 := (i 0).isLt; have h1 : (i 1).val < 1 := (i 1).isLt; have h2 : (i 2).val < 1024 := (i 2).isLt; have h3 : (i 3).val < 1024 := (i 3).isLt
    show ((i 0).val * 1024 + (i 2).val) * 1024 + (i 3).val = (((i 0).val * 1 + (i 1).val) * 1024 + (i 2).val) * 1024 + (i 3).val
    omega)

/-- THE KERNEL'S VALUE: the result array is the specification's function of the arguments. -/
theorem result_eq (c : Dev nD) (hr : Cert.Spec.InRange (m ((c : Thread nD τ).loc main_arg1))) :
    (W5 m ρ c (Proc.devRef .tc main_v5) : FVec Ideal S32x1x1024x1024 .f32)
      = Cert.Spec.G (m ((c : Thread nD τ).loc main_arg0)) (m ((c : Thread nD τ).loc main_arg1)) := by
  have hids : (V3 m ρ c main_v1 : IVec S32x1024x1024 32) = Cert.Spec.img (m ((c : Thread nD τ).loc main_arg1)) := by
    rw [V3_v1, V1_v1, reshape_img]
  have hsc : (V3 m ρ c main_v0 : FVec Ideal S32x1024x1024 .f32) = Cert.Spec.img (m ((c : Thread nD τ).loc main_arg0)) := by
    rw [V3_v0, V1_v0, reshape_img]
  have hmean : (V3 m ρ c main_v3 : FVec Ideal S32x1x256 .f32)
      = Cert.Spec.tabMean (Cert.Spec.img (m ((c : Thread nD τ).loc main_arg0))) (Cert.Spec.img (m ((c : Thread nD τ).loc main_arg1))) := by
    rw [V3_v3, Cert.KernelIdeal.Hist.sums_arr (V1 m ρ) c, Cert.KernelIdeal.Hist.cnts_arr (V1 m ρ) c, V1_v0, V1_v1, reshape_img, reshape_img]
    rfl
  have hr3 : ∀ p : Cert.Spec.SImg.Idx, ((V3 m ρ c main_v1 : IVec Cert.Spec.SImg 32) p).toNat < 256 := by
    intro p
    rw [hids]
    exact hr _
  rw [W5_v5, Cert.KernelIdeal.Final.out_arr (V3 m ρ) c hr3, hmean, hsc, hids]
  funext i
  rw [reshape_arg]
  rfl

end Cert.KernelIdeal.KValue

end
-- ==== Proof.RefRunHand.lean ====
/-
  The reference's run: every weakly fair execution of its 58 host operations ends with the result array at the
  last stage's value of the two argument arrays, and the arguments unchanged. Each operation writes one
  buffer from buffers written before it, so the contents after the whole list are read back one stage at a
  time.
-/
import proofs.«411308_j8117488189733_1_alg».proof.Proof.RefRead
import Idealize.ShloMosaic.Lib.StableHlo.Run

noncomputable section

open Idealize.ShloMosaic Idealize.ShloMosaic.TcCoe Idealize.SL.Sem Idealize.ShloMosaic.StableHlo

namespace Cert.ReferenceIdeal.RunHand

open Cert.ReferenceIdeal Cert.ReferenceIdeal.Gen

variable {F : FTy → Type} [FloatOps F]

/-- Transport along a type equation and back is the identity. -/
private theorem cast_cast_self {α β : Type} (h1 : α = β) (h2 : β = α) (a : α) : cast h2 (cast h1 a) = a := by
  subst h1; rfl

abbrev opsA : List (HloOp τ sig (Elt F)) :=
  [ reshape main_arg0 main_v0 rfl shapeCasts_S32x1x1024x1024_S32x1048576,
    reshape main_arg1 main_v1 rfl shapeCasts_S32x1x1024x1024_S32x1048576,
    nullary main_v2 (iotaInDim S32 32 0),
    unary main_v2 main_v3 (broadcastInDim S32x1 ![0] bcast_S32_S32x1_0 : (⟨S32, .i32⟩ : BufTy).Contents (Elt F) → (⟨S32x1, .i32⟩ : BufTy).Contents (Elt F)),
    nullary main_c (constantI S_ 32 256#32),
    unary main_c main_v4 (broadcastInDim S32x1 ![] bcast_S_S32x1 : (⟨S_, .i32⟩ : BufTy).Contents (Elt F) → (⟨S32x1, .i32⟩ : BufTy).Contents (Elt F)),
    binary main_v4 main_v3 main_v5 (muli : (⟨S32x1, .i32⟩ : BufTy).Contents (Elt F) → (⟨S32x1, .i32⟩ : BufTy).Contents (Elt F) → (⟨S32x1, .i32⟩ : BufTy).Contents (Elt F)),
    unary main_v5 main_v6 (broadcastInDim S32x1048576 ![0, 1] bcast_S32x1_S32x1048576_0_1 : (⟨S32x1, .i32⟩ : BufTy).Contents (Elt F) → (⟨S32x1048576, .i32⟩ : BufTy).Contents (Elt F)),
    binary main_v1 main_v6 main_v7 (addi : (⟨S32x1048576, .i32⟩ : BufTy).Contents (Elt F) → (⟨S32x1048576, .i32⟩ : BufTy).Contents (Elt F) → (⟨S32x1048576, .i32⟩ : BufTy).Contents (Elt F)),
    reshape main_v7 main_v8 rfl shapeCasts_S32x1048576_S33554432,
    reshape main_v0 main_v9 rfl shapeCasts_S32x1048576_S33554432 ]

/-- Operations 1 to 11, from any contents holding the earlier stages' values at the buffers read here. -/
theorem stageA (W : Valuation τ sig (Elt F)) (x0 : (⟨S32x1x1024x1024, .f32⟩ : BufTy).Contents (Elt F)) (x1 : (⟨S32x1x1024x1024, .i32⟩ : BufTy).Contents (Elt F))
    (h_main_arg0 : W (Proc.devRef .tc main_arg0) = x0)
    (h_main_arg1 : W (Proc.devRef .tc main_arg1) = x1) :
    after opsA W (Proc.devRef .tc main_arg0) = x0 ∧
    after opsA W (Proc.devRef .tc main_arg1) = x1 ∧
    after opsA W (Proc.devRef .tc main_v0) = ReadP.val_main_v0 (F := F) x0 ∧
    after opsA W (Proc.devRef .tc main_v1) = ReadP.val_main_v1 (F := F) x1 ∧
    after opsA W (Proc.devRef .tc main_v8) = ReadP.val_main_v8 (F := F) x1 ∧
    after opsA W (Proc.devRef .tc main_v9) = ReadP.val_main_v9 (F := F) x0 := by
  refine ⟨?_, ?_, ?_, ?_, ?_, ?_⟩
  · after_results; exact h_main_arg0
  · after_results; exact h_main_arg1
  · after_results; rw [h_main_arg0]; rfl
  · after_results; rw [h_main_arg1]; rfl
  · after_results; rw [h_main_arg1]; rfl
  · after_results; rw [h_main_arg0]; rfl

abbrev opsB : List (HloOp τ sig (Elt F)) :=
  [ nullary main_cst (constant S_ .f32 0x00000000#32),
    unary main_cst main_v10 (broadcastInDim S8192 ![] bcast_S_S8192 : (⟨S_, .f32⟩ : BufTy).Contents (Elt F) → (⟨S8192, .f32⟩ : BufTy).Contents (Elt F)),
    unary main_v8 main_v11 (broadcastInDim S33554432x1 ![0] bcast_S33554432_S33554432x1_0 : (⟨S33554432, .i32⟩ : BufTy).Contents (Elt F) → (⟨S33554432x1, .i32⟩ : BufTy).Contents (Elt F)),
    ternary main_v10 main_v11 main_v9 main_v12 ((fun x i u => Host.scatterAdd scatter_S8192_S33554432x1_S33554432_n_0_0_1 x i u) : (⟨S8192, .f32⟩ : BufTy).Contents (Elt F) → (⟨S33554432x1, .i32⟩ : BufTy).Contents (Elt F) → (⟨S33554432, .f32⟩ : BufTy).Contents (Elt F) → (⟨S8192, .f32⟩ : BufTy).Contents (Elt F)),
    nullary main_cst_0 (constant S_ .f32 0x3F800000#32),
    unary main_cst_0 main_v13 (broadcastInDim S33554432 ![] bcast_S_S33554432 : (⟨S_, .f32⟩ : BufTy).Contents (Elt F) → (⟨S33554432, .f32⟩ : BufTy).Contents (Elt F)),
    nullary main_cst_1 (constant S_ .f32 0x00000000#32),
    unary main_cst_1 main_v14 (broadcastInDim S8192 ![] bcast_S_S8192 : (⟨S_, .f32⟩ : BufTy).Contents (Elt F) → (⟨S8192, .f32⟩ : BufTy).Contents (Elt F)),
    unary main_v8 main_v15 (broadcastInDim S33554432x1 ![0] bcast_S33554432_S33554432x1_0 : (⟨S33554432, .i32⟩ : BufTy).Contents (Elt F) → (⟨S33554432x1, .i32⟩ : BufTy).Contents (Elt F)),
    ternary main_v14 main_v15 main_v13 main_v16 ((fun x i u => Host.scatterAdd scatter_S8192_S33554432x1_S33554432_n_0_0_1 x i u) : (⟨S8192, .f32⟩ : BufTy).Contents (Elt F) → (⟨S33554432x1, .i32⟩ : BufTy).Contents (Elt F) → (⟨S33554432, .f32⟩ : BufTy).Contents (Elt F) → (⟨S8192, .f32⟩ : BufTy).Contents (Elt F)),
    binary main_v12 main_v16 main_v17 (Host.divf : (⟨S8192, .f32⟩ : BufTy).Contents (Elt F) → (⟨S8192, .f32⟩ : BufTy).Contents (Elt F) → (⟨S8192, .f32⟩ : BufTy).Contents (Elt F)),
    reshape main_v17 main_v18 rfl shapeCasts_S8192_S32x256 ]

/-- Operations 12 to 23, from any contents holding the earlier stages' values at the buffers read here. -/
theorem stageB (W : Valuation τ sig (Elt F)) (x0 : (⟨S32x1x1024x1024, .f32⟩ : BufTy).Contents (Elt F)) (x1 : (⟨S32x1x1024x1024, .i32⟩ : BufTy).Contents (Elt F))
    (h_main_arg0 : W (Proc.devRef .tc main_arg0) = x0)
    (h_main_arg1 : W (Proc.devRef .tc main_arg1) = x1)
    (h_main_v0 : W (Proc.devRef .tc main_v0) = ReadP.val_main_v0 (F := F) x0)
    (h_main_v1 : W (Proc.devRef .tc main_v1) = ReadP.val_main_v1 (F := F) x1)
    (h_main_v8 : W (Proc.devRef .tc main_v8) = ReadP.val_main_v8 (F := F) x1)
    (h_main_v9 : W (Proc.devRef .tc main_v9) = ReadP.val_main_v9 (F := F) x0) :
    after opsB W (Proc.devRef .tc main_arg0) = x0 ∧
    after opsB W (Proc.devRef .tc main_arg1) = x1 ∧
    after opsB W (Proc.devRef .tc main_v0) = ReadP.val_main_v0 (F := F) x0 ∧
    after opsB W (Proc.devRef .tc main_v1) = ReadP.val_main_v1 (F := F) x1 ∧
    after opsB W (Proc.devRef .tc main_v18) = ReadP.val_main_v18 (F := F) x0 x1 := by
  refine ⟨?_, ?_, ?_, ?_, ?_⟩
  · after_results; exact h_main_arg0
  · after_results; exact h_main_arg1
  · after_results; exact h_main_v0
  · after_results; exact h_main_v1
  · after_results; rw [h_main_v8, h_main_v9]; rfl

abbrev opsC : List (HloOp τ sig (Elt F)) :=
  [ TRef.nullary (TRef.of (T := ⟨S_, .i32⟩) main_call0_c) (constantI S_ 32 0#32),
    TRef.unary (TRef.of (T := ⟨S_, .i32⟩) main_call0_c) (TRef.of (T := ⟨S32x1048576, .i32⟩) main_call0_v0) (broadcastInDim S32x1048576 ![] bcast_S_S32x1048576),
    TRef.binary (TRef.of (T := ⟨S32x1048576, .i32⟩) main_v1) (TRef.of (T := ⟨S32x1048576, .i32⟩) main_call0_v0) (TRef.of (T := ⟨S32x1048576, .i1⟩) main_call0_v1) (cmpi .slt),
    TRef.nullary (TRef.of (T := ⟨S_, .i32⟩) main_call0_c_0) (constantI S_ 32 256#32),
    TRef.unary (TRef.of (T := ⟨S_, .i32⟩) main_call0_c_0) (TRef.of (T := ⟨S32x1048576, .i32⟩) main_call0_v2) (broadcastInDim S32x1048576 ![] bcast_S_S32x1048576),
    TRef.binary (TRef.of (T := ⟨S32x1048576, .i32⟩) main_v1) (TRef.of (T := ⟨S32x1048576, .i32⟩) main_call0_v2) (TRef.of (T := ⟨S32x1048576, .i32⟩) main_call0_v3) addi,
    TRef.ternary (TRef.of (T := ⟨S32x1048576, .i1⟩) main_call0_v1) (TRef.of (T := ⟨S32x1048576, .i32⟩) main_call0_v3) (TRef.of (T := ⟨S32x1048576, .i32⟩) main_v1) (TRef.of (T := ⟨S32x1048576, .i32⟩) main_call0_v4) select,
    TRef.reshape (TRef.of (T := ⟨S32x1048576, .i32⟩) main_call0_v4) (TRef.of (T := ⟨S32x1048576x1, .i32⟩) main_call0_v5) rfl shapeCasts_S32x1048576_S32x1048576x1 ]

/-- Operations 24 to 31, from any contents holding the earlier stages' values at the buffers read here. -/
theorem stageC (W : Valuation τ sig (Elt F)) (x0 : (⟨S32x1x1024x1024, .f32⟩ : BufTy).Contents (Elt F)) (x1 : (⟨S32x1x1024x1024, .i32⟩ : BufTy).Contents (Elt F))
    (h_main_arg0 : W (Proc.devRef .tc main_arg0) = x0)
    (h_main_arg1 : W (Proc.devRef .tc main_arg1) = x1)
    (h_main_v0 : W (Proc.devRef .tc main_v0) = ReadP.val_main_v0 (F := F) x0)
    (h_main_v1 : W (Proc.devRef .tc main_v1) = ReadP.val_main_v1 (F := F) x1)
    (h_main_v18 : W (Proc.devRef .tc main_v18) = ReadP.val_main_v18 (F := F) x0 x1) :
    after opsC W (Proc.devRef .tc main_arg0) = x0 ∧
    after opsC W (Proc.devRef .tc main_arg1) = x1 ∧
    after opsC W (Proc.devRef .tc main_v0) = ReadP.val_main_v0 (F := F) x0 ∧
    after opsC W (Proc.devRef .tc main_v1) = ReadP.val_main_v1 (F := F) x1 ∧
    after opsC W (Proc.devRef .tc main_v18) = ReadP.val_main_v18 (F := F) x0 x1 ∧
    after opsC W (Proc.devRef .tc main_call0_v5) = ReadP.val_main_call0_v5 (F := F) x1 := by
  refine ⟨?_, ?_, ?_, ?_, ?_, ?_⟩
  · after_results; exact h_main_arg0
  · after_results; exact h_main_arg1
  · after_results; exact h_main_v0
  · after_results; exact h_main_v1
  · after_results; exact h_main_v18
  · after_results; rw [h_main_v1]; rfl

abbrev opsD1 : List (HloOp τ sig (Elt F)) :=
  [ TRef.nullary (TRef.of (T := ⟨S1, .i32⟩) main_call0_c_1) (constantI S1 32 255#32),
    TRef.nullary (TRef.of (T := ⟨S_, .i32⟩) main_call0_c_2) (constantI S_ 32 0#32),
    TRef.unary (TRef.of (T := ⟨S_, .i32⟩) main_call0_c_2) (TRef.of (T := ⟨S32x1048576x1, .i32⟩) main_call0_v6) (broadcastInDim S32x1048576x1 ![] bcast_S_S32x1048576x1),
    TRef.binary (TRef.of (T := ⟨S32x1048576x1, .i32⟩) main_call0_v5) (TRef.of (T := ⟨S32x1048576x1, .i32⟩) main_call0_v6) (TRef.of (T := ⟨S32x1048576x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S32x1048576x1, .i32⟩) main_call0_v9) (broadcastInDim S32x1048576x1 ![0, 1, 2] bcast_S1x1x1_S32x1048576x1_0_1_2),
    TRef.binary (TRef.of (T := ⟨S32x1048576x1, .i32⟩) main_call0_v5) (TRef.of (T := ⟨S32x1048576x1, .i32⟩) main_call0_v9) (TRef.of (T := ⟨S32x1048576x1, .i1⟩) main_call0_v10) (cmpi .sle),
    TRef.binary (TRef.of (T := ⟨S32x1048576x1, .i1⟩) main_call0_v7) (TRef.of (T := ⟨S32x1048576x1, .i1⟩) main_call0_v10) (TRef.of (T := ⟨S32x1048576x1, .i1⟩) main_call0_v11) andi ]

/-- Operations 32 to 39, from any contents holding the earlier stages' values at the buffers read here. -/
theorem stageD1 (W : Valuation τ sig (Elt F)) (x0 : (⟨S32x1x1024x1024, .f32⟩ : BufTy).Contents (Elt F)) (x1 : (⟨S32x1x1024x1024, .i32⟩ : BufTy).Contents (Elt F))
    (h_main_arg0 : W (Proc.devRef .tc main_arg0) = x0)
    (h_main_arg1 : W (Proc.devRef .tc main_arg1) = x1)
    (h_main_v0 : W (Proc.devRef .tc main_v0) = ReadP.val_main_v0 (F := F) x0)
    (h_main_v1 : W (Proc.devRef .tc main_v1) = ReadP.val_main_v1 (F := F) x1)
    (h_main_v18 : W (Proc.devRef .tc main_v18) = ReadP.val_main_v18 (F := F) x0 x1)
    (h_main_call0_v5 : W (Proc.devRef .tc main_call0_v5) = ReadP.val_main_call0_v5 (F := F) x1) :
    after opsD1 W (Proc.devRef .tc main_arg0) = x0 ∧
    after opsD1 W (Proc.devRef .tc main_arg1) = x1 ∧
    after opsD1 W (Proc.devRef .tc main_v0) = ReadP.val_main_v0 (F := F) x0 ∧
    after opsD1 W (Proc.devRef .tc main_v1) = ReadP.val_main_v1 (F := F) x1 ∧
    after opsD1 W (Proc.devRef .tc main_v18) = ReadP.val_main_v18 (F := F) x0 x1 ∧
    after opsD1 W (Proc.devRef .tc main_call0_v5) = ReadP.val_main_call0_v5 (F := F) x1 ∧
    after opsD1 W (Proc.devRef .tc main_call0_v11) = ReadP.val_main_call0_v11 (F := F) x1 := by
  refine ⟨?_, ?_, ?_, ?_, ?_, ?_, ?_⟩
  · after_results; exact h_main_arg0
  · after_results; exact h_main_arg1
  · after_results; exact h_main_v0
  · after_results; exact h_main_v1
  · after_results; exact h_main_v18
  · after_results; exact h_main_call0_v5
  · after_results; rw [h_main_call0_v5]; rfl

abbrev opsD2 : List (HloOp τ sig (Elt F)) :=
  [ TRef.nullary (TRef.of (T := ⟨S_, .i1⟩) main_call0_c_3) (constantI S_ 1 1#1),
    TRef.binary (TRef.of (T := ⟨S32x1048576x1, .i1⟩) main_call0_v11) (TRef.of (T := ⟨S_, .i1⟩) main_call0_c_3) (TRef.of (T := ⟨S32x1048576, .i1⟩) main_call0_v12) (fun x v => Host.reduce IntOp.andi x v reducesTo_S32x1048576x1_S32x1048576_d2 h_S_) ]

/-- Operations 40 to 41, from any contents holding the earlier stages' values at the buffers read here. -/
theorem stageD2 (W : Valuation τ sig (Elt F)) (x0 : (⟨S32x1x1024x1024, .f32⟩ : BufTy).Contents (Elt F)) (x1 : (⟨S32x1x1024x1024, .i32⟩ : BufTy).Contents (Elt F))
    (h_main_arg0 : W (Proc.devRef .tc main_arg0) = x0)
    (h_main_arg1 : W (Proc.devRef .tc main_arg1) = x1)
    (h_main_v0 : W (Proc.devRef .tc main_v0) = ReadP.val_main_v0 (F := F) x0)
    (h_main_v1 : W (Proc.devRef .tc main_v1) = ReadP.val_main_v1 (F := F) x1)
    (h_main_v18 : W (Proc.devRef .tc main_v18) = ReadP.val_main_v18 (F := F) x0 x1)
    (h_main_call0_v5 : W (Proc.devRef .tc main_call0_v5) = ReadP.val_main_call0_v5 (F := F) x1)
    (h_main_call0_v11 : W (Proc.devRef .tc main_call0_v11) = ReadP.val_main_call0_v11 (F := F) x1) :
    after opsD2 W (Proc.devRef .tc main_arg0) = x0 ∧
    after opsD2 W (Proc.devRef .tc main_arg1) = x1 ∧
    after opsD2 W (Proc.devRef .tc main_v0) = ReadP.val_main_v0 (F := F) x0 ∧
    after opsD2 W (Proc.devRef .tc main_v1) = ReadP.val_main_v1 (F := F) x1 ∧
    after opsD2 W (Proc.devRef .tc main_v18) = ReadP.val_main_v18 (F := F) x0 x1 ∧
    after opsD2 W (Proc.devRef .tc main_call0_v5) = ReadP.val_main_call0_v5 (F := F) x1 ∧
    after opsD2 W (Proc.devRef .tc main_call0_v12) = ReadP.val_main_call0_v12 (F := F) x1 := by
  refine ⟨?_, ?_, ?_, ?_, ?_, ?_, ?_⟩
  · after_results; exact h_main_arg0
  · after_results; exact h_main_arg1
  · after_results; exact h_main_v0
  · after_results; exact h_main_v1
  · after_results; exact h_main_v18
  · after_results; exact h_main_call0_v5
  · after_results
    simp only [TRef.ofBuf, TRef.toBuf]
    try simp only [cast_cast_self]
    have e_main_call0_v11 : ∀ hh : (Proc.devRef .tc main_call0_v11).ty.Contents (Elt F) = (⟨S32x1048576x1, .i1⟩ : BufTy).Contents (Elt F), cast hh (W (Proc.devRef .tc main_call0_v11)) = ReadP.val_main_call0_v11 (F := F) x1 :=
      fun hh => by rw [h_main_call0_v11]; exact cast_eq hh _
    rw [e_main_call0_v11]
    refine (cast_eq _ _).trans ?_
    rfl

abbrev opsD3 : List (HloOp τ sig (Elt F)) :=
  [ TRef.binary (TRef.of (T := ⟨S32x256, .f32⟩) main_v18) (TRef.of (T := ⟨S32x1048576x1, .i32⟩) main_call0_v5) (TRef.of (T := ⟨S32x1048576, .f32⟩) main_call0_v13) (fun x i => Host.gather gather_S32x256_S32x1048576x1_S32x1048576_n_1_0_0_1_2_11 x i) ]

/-- Operation 42, from any contents holding the earlier stages' values at the buffers read here. -/
theorem stageD3 (W : Valuation τ sig (Elt F)) (x0 : (⟨S32x1x1024x1024, .f32⟩ : BufTy).Contents (Elt F)) (x1 : (⟨S32x1x1024x1024, .i32⟩ : BufTy).Contents (Elt F))
    (h_main_arg0 : W (Proc.devRef .tc main_arg0) = x0)
    (h_main_arg1 : W (Proc.devRef .tc main_arg1) = x1)
    (h_main_v0 : W (Proc.devRef .tc main_v0) = ReadP.val_main_v0 (F := F) x0)
    (h_main_v1 : W (Proc.devRef .tc main_v1) = ReadP.val_main_v1 (F := F) x1)
    (h_main_v18 : W (Proc.devRef .tc main_v18) = ReadP.val_main_v18 (F := F) x0 x1)
    (h_main_call0_v5 : W (Proc.devRef .tc main_call0_v5) = ReadP.val_main_call0_v5 (F := F) x1)
    (h_main_call0_v12 : W (Proc.devRef .tc main_call0_v12) = ReadP.val_main_call0_v12 (F := F) x1) :
    after opsD3 W (Proc.devRef .tc main_arg0) = x0 ∧
    after opsD3 W (Proc.devRef .tc main_arg1) = x1 ∧
    after opsD3 W (Proc.devRef .tc main_v0) = ReadP.val_main_v0 (F := F) x0 ∧
    after opsD3 W (Proc.devRef .tc main_v1) = ReadP.val_main_v1 (F := F) x1 ∧
    after opsD3 W (Proc.devRef .tc main_call0_v12) = ReadP.val_main_call0_v12 (F := F) x1 ∧
    after opsD3 W (Proc.devRef .tc main_call0_v13) = ReadP.val_main_call0_v13 (F := F) x0 x1 := by
  refine ⟨?_, ?_, ?_, ?_, ?_, ?_⟩
  · after_results; exact h_main_arg0
  · after_results; exact h_main_arg1
  · after_results; exact h_main_v0
  · after_results; exact h_main_v1
  · after_results; exact h_main_call0_v12
  · after_results; rw [h_main_v18, h_main_call0_v5]; rfl

abbrev opsD4 : List (HloOp τ sig (Elt F)) :=
  [ TRef.nullary (TRef.of (T := ⟨S_, .f32⟩) main_call0_cst) (constant S_ .f32 0x7FC00000#32),
    TRef.unary (TRef.of (T := ⟨S_, .f32⟩) main_call0_cst) (TRef.of (T := ⟨S32x1048576, .f32⟩) main_call0_v14) (broadcastInDim S32x1048576 ![] bcast_S_S32x1048576),
    TRef.ternary (TRef.of (T := ⟨S32x1048576, .i1⟩) main_call0_v12) (TRef.of (T := ⟨S32x1048576, .f32⟩) main_call0_v13) (TRef.of (T := ⟨S32x1048576, .f32⟩) main_call0_v14) (TRef.of (T := ⟨S32x1048576, .f32⟩) main_v19) select ]

/-- Operations 43 to 45, from any contents holding the earlier stages' values at the buffers read here. -/
theorem stageD4 (W : Valuation τ sig (Elt F)) (x0 : (⟨S32x1x1024x1024, .f32⟩ : BufTy).Contents (Elt F)) (x1 : (⟨S32x1x1024x1024, .i32⟩ : BufTy).Contents (Elt F))
    (h_main_arg0 : W (Proc.devRef .tc main_arg0) = x0)
    (h_main_arg1 : W (Proc.devRef .tc main_arg1) = x1)
    (h_main_v0 : W (Proc.devRef .tc main_v0) = ReadP.val_main_v0 (F := F) x0)
    (h_main_v1 : W (Proc.devRef .tc main_v1) = ReadP.val_main_v1 (F := F) x1)
    (h_main_call0_v12 : W (Proc.devRef .tc main_call0_v12) = ReadP.val_main_call0_v12 (F := F) x1)
    (h_main_call0_v13 : W (Proc.devRef .tc main_call0_v13) = ReadP.val_main_call0_v13 (F := F) x0 x1) :
    after opsD4 W (Proc.devRef .tc main_arg0) = x0 ∧
    after opsD4 W (Proc.devRef .tc main_arg1) = x1 ∧
    after opsD4 W (Proc.devRef .tc main_v0) = ReadP.val_main_v0 (F := F) x0 ∧
    after opsD4 W (Proc.devRef .tc main_v1) = ReadP.val_main_v1 (F := F) x1 ∧
    after opsD4 W (Proc.devRef .tc main_v19) = ReadP.val_main_v19 (F := F) x0 x1 := by
  refine ⟨?_, ?_, ?_, ?_, ?_⟩
  · after_results; exact h_main_arg0
  · after_results; exact h_main_arg1
  · after_results; exact h_main_v0
  · after_results; exact h_main_v1
  · after_results
    simp only [TRef.ofBuf, TRef.toBuf]
    try simp only [cast_cast_self]
    have e_main_call0_v12 : ∀ hh : (Proc.devRef .tc main_call0_v12).ty.Contents (Elt F) = (⟨S32x1048576, .i1⟩ : BufTy).Contents (Elt F), cast hh (W (Proc.devRef .tc main_call0_v12)) = ReadP.val_main_call0_v12 (F := F) x1 :=
      fun hh => by rw [h_main_call0_v12]; exact cast_eq hh _
    have e_main_call0_v13 : ∀ hh : (Proc.devRef .tc main_call0_v13).ty.Contents (Elt F) = (⟨S32x1048576, .f32⟩ : BufTy).Contents (Elt F), cast hh (W (Proc.devRef .tc main_call0_v13)) = ReadP.val_main_call0_v13 (F := F) x0 x1 :=
      fun hh => by rw [h_main_call0_v13]; exact cast_eq hh _
    rw [e_main_call0_v12, e_main_call0_v13]
    refine (cast_eq _ _).trans ?_
    rfl

abbrev opsE : List (HloOp τ sig (Elt F)) :=
  [ nullary main_cst_2 (constant S_ .f32 0x3F000000#32),
    unary main_cst_2 main_v20 (broadcastInDim S32x1048576 ![] bcast_S_S32x1048576 : (⟨S_, .f32⟩ : BufTy).Contents (Elt F) → (⟨S32x1048576, .f32⟩ : BufTy).Contents (Elt F)),
    binary main_v19 main_v20 main_v21 (cmpf .ogt : (⟨S32x1048576, .f32⟩ : BufTy).Contents (Elt F) → (⟨S32x1048576, .f32⟩ : BufTy).Contents (Elt F) → (⟨S32x1048576, .i1⟩ : BufTy).Contents (Elt F)),
    nullary main_cst_3 (constant S_ .f32 0x3F800000#32),
    nullary main_cst_4 (constant S_ .f32 0x00000000#32),
    TRef.unary (TRef.of (T := ⟨S_, .f32⟩) main_cst_3) (TRef.of (T := ⟨S32x1048576, .f32⟩) main_call1_v0) (broadcastInDim S32x1048576 ![] bcast_S_S32x1048576),
    TRef.unary (TRef.of (T := ⟨S_, .f32⟩) main_cst_4) (TRef.of (T := ⟨S32x1048576, .f32⟩) main_call1_v1) (broadcastInDim S32x1048576 ![] bcast_S_S32x1048576),
    TRef.ternary (TRef.of (T := ⟨S32x1048576, .i1⟩) main_v21) (TRef.of (T := ⟨S32x1048576, .f32⟩) main_call1_v0) (TRef.of (T := ⟨S32x1048576, .f32⟩) main_call1_v1) (TRef.of (T := ⟨S32x1048576, .f32⟩) main_v22) select,
    nullary main_c_5 (constantI S_ 32 255#32),
    unary main_c_5 main_v23 (broadcastInDim S32x1048576 ![] bcast_S_S32x1048576 : (⟨S_, .i32⟩ : BufTy).Contents (Elt F) → (⟨S32x1048576, .i32⟩ : BufTy).Contents (Elt F)),
    binary main_v1 main_v23 main_v24 (cmpi .slt : (⟨S32x1048576, .i32⟩ : BufTy).Contents (Elt F) → (⟨S32x1048576, .i32⟩ : BufTy).Contents (Elt F) → (⟨S32x1048576, .i1⟩ : BufTy).Contents (Elt F)),
    TRef.ternary (TRef.of (T := ⟨S32x1048576, .i1⟩) main_v24) (TRef.of (T := ⟨S32x1048576, .f32⟩) main_v22) (TRef.of (T := ⟨S32x1048576, .f32⟩) main_v0) (TRef.of (T := ⟨S32x1048576, .f32⟩) main_v25) select,
    reshape main_v25 main_v26 rfl shapeCasts_S32x1048576_S32x1x1024x1024 ]

/-- Operations 46 to 58, from any contents holding the earlier stages' values at the buffers read here. -/
theorem stageE (W : Valuation τ sig (Elt F)) (x0 : (⟨S32x1x1024x1024, .f32⟩ : BufTy).Contents (Elt F)) (x1 : (⟨S32x1x1024x1024, .i32⟩ : BufTy).Contents (Elt F))
    (h_main_arg0 : W (Proc.devRef .tc main_arg0) = x0)
    (h_main_arg1 : W (Proc.devRef .tc main_arg1) = x1)
    (h_main_v0 : W (Proc.devRef .tc main_v0) = ReadP.val_main_v0 (F := F) x0)
    (h_main_v1 : W (Proc.devRef .tc main_v1) = ReadP.val_main_v1 (F := F) x1)
    (h_main_v19 : W (Proc.devRef .tc main_v19) = ReadP.val_main_v19 (F := F) x0 x1) :
    after opsE W (Proc.devRef .tc main_arg0) = x0 ∧
    after opsE W (Proc.devRef .tc main_arg1) = x1 ∧
    after opsE W (Proc.devRef .tc main_v26) = ReadP.val_main_v26 (F := F) x0 x1 := by
  refine ⟨?_, ?_, ?_⟩
  · after_results; exact h_main_arg0
  · after_results; exact h_main_arg1
  · after_results; rw [h_main_v19, h_main_v1, h_main_v0]; rfl

/-- The contents after two lists run one after the other are the contents after their concatenation. -/
private theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The 58 operations are the stretches above, in order. -/
theorem ops_eq : (RunP.ops : List (HloOp τ sig (Elt F))) = opsA ++ (opsB ++ (opsC ++ (opsD1 ++ (opsD2 ++ (opsD3 ++ (opsD4 ++ (opsE))))))) := rfl

/-- After all 58 operations, from any contents: the result buffer holds the last stage's value of the two argument
    arrays, and the argument buffers hold what they held. Each stretch hands the next the stages it has reached. -/
theorem after_ops (W : Valuation τ sig (Elt F)) (x0 : (⟨S32x1x1024x1024, .f32⟩ : BufTy).Contents (Elt F)) (x1 : (⟨S32x1x1024x1024, .i32⟩ : BufTy).Contents (Elt F))
    (h_main_arg0 : W (Proc.devRef .tc main_arg0) = x0) (h_main_arg1 : W (Proc.devRef .tc main_arg1) = x1) :
    after RunP.ops W (Proc.devRef .tc main_v26) = ReadP.val_main_v26 (F := F) x0 x1 ∧
    after RunP.ops W (Proc.devRef .tc main_arg0) = x0 ∧
    after RunP.ops W (Proc.devRef .tc main_arg1) = x1 := by
  rw [ops_eq, after_app, after_app, after_app, after_app, after_app, after_app, after_app]
  obtain ⟨sA_main_arg0, sA_main_arg1, sA_main_v0, sA_main_v1, sA_main_v8, sA_main_v9⟩ :=
    stageA _ x0 x1 h_main_arg0 h_main_arg1
  obtain ⟨sB_main_arg0, sB_main_arg1, sB_main_v0, sB_main_v1, sB_main_v18⟩ :=
    stageB _ x0 x1 sA_main_arg0 sA_main_arg1 sA_main_v0 sA_main_v1 sA_main_v8 sA_main_v9
  obtain ⟨sC_main_arg0, sC_main_arg1, sC_main_v0, sC_main_v1, sC_main_v18, sC_main_call0_v5⟩ :=
    stageC _ x0 x1 sB_main_arg0 sB_main_arg1 sB_main_v0 sB_main_v1 sB_main_v18
  obtain ⟨sD1_main_arg0, sD1_main_arg1, sD1_main_v0, sD1_main_v1, sD1_main_v18, sD1_main_call0_v5, sD1_main_call0_v11⟩ :=
    stageD1 _ x0 x1 sC_main_arg0 sC_main_arg1 sC_main_v0 sC_main_v1 sC_main_v18 sC_main_call0_v5
  obtain ⟨sD2_main_arg0, sD2_main_arg1, sD2_main_v0, sD2_main_v1, sD2_main_v18, sD2_main_call0_v5, sD2_main_call0_v12⟩ :=
    stageD2 _ x0 x1 sD1_main_arg0 sD1_main_arg1 sD1_main_v0 sD1_main_v1 sD1_main_v18 sD1_main_call0_v5 sD1_main_call0_v11
  obtain ⟨sD3_main_arg0, sD3_main_arg1, sD3_main_v0, sD3_main_v1, sD3_main_call0_v12, sD3_main_call0_v13⟩ :=
    stageD3 _ x0 x1 sD2_main_arg0 sD2_main_arg1 sD2_main_v0 sD2_main_v1 sD2_main_v18 sD2_main_call0_v5 sD2_main_call0_v12
  obtain ⟨sD4_main_arg0, sD4_main_arg1, sD4_main_v0, sD4_main_v1, sD4_main_v19⟩ :=
    stageD4 _ x0 x1 sD3_main_arg0 sD3_main_arg1 sD3_main_v0 sD3_main_v1 sD3_main_call0_v12 sD3_main_call0_v13
  obtain ⟨sE_main_arg0, sE_main_arg1, sE_main_v26⟩ :=
    stageE _ x0 x1 sD4_main_arg0 sD4_main_arg1 sD4_main_v0 sD4_main_v1 sD4_main_v19
  exact ⟨sE_main_v26, sE_main_arg0, sE_main_arg1⟩

/-- The reference's run, its result named by the last stage. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26)
          = Cert.ReferenceIdeal.ReadP.val_main_v26 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      have key := after_ops (F := F) (launchContents m c) (m ((c.tc : Thread nD τ).loc main_arg0))
        (m ((c.tc : Thread nD τ).loc main_arg1)) rfl rfl
      ⟨(h c main_v26).trans key.1, (h c main_arg0).trans key.2.1, (h c main_arg1).trans key.2.2⟩)
    (run_seq RunP.scopedRefs_eq RunP.scopedSems_eq defs main (fun _ => RunP.ops) RunP.main_eq (fun _ => RunP.ops_sub) m ρ)

end Cert.ReferenceIdeal.RunHand

end
-- ==== Proof.RefTables.lean ====
/-
  The reference's two scatter-added tables read entry by entry: entry `256 · b + k` of the first is the sum of
  the scores of image `b`'s pixels whose id is `k`, and of the second their number, when every id word is below
  256.

  Pixel `p` of image `b'` (flat position `2^20 · b' + p`) is scattered to entry `256 · b' + id`; with
  `0 ≤ id < 256` that entry is `256 · b + k` exactly when `b' = b` and `id = k`. The scatter-add of a zero table is
  then, at that entry, the sum of the updates over those pixels, and the flat positions of image `b` are its
  1024 × 1024 pixels in row-major order.

  The steps: a scatter-add into a one-axis table adds update `r` at the entry its start index names, read signed
  and not clamped, so the entry `a` of the result is the table's entry plus the sum of the updates whose start index
  is `a`; the sum over the `2^25` flat positions is the sum over (image, row, column); the start index of a pixel is
  its id word plus `256 · b'` in 32-bit words, which neither wraps nor is negative read signed; of the sum over the
  images only image `b`'s term remains.
-/
import proofs.«411308_j8117488189733_1_alg».proof.Proof.RefRead
import proofs.«411308_j8117488189733_1_alg».proof.Proof.Spec
import Idealize.ShloMosaic.PureOps.Ideal.Laws
import Idealize.ShloMosaic.Lib.ValueIdx
import Idealize.ShloMosaic.Lib.ValueIdxRank1
import Idealize.ShloMosaic.Lib.IdealHost
import Idealize.ShloMosaic.Lib.ValueLayout
import Idealize.ShloMosaic.Lib.Pipeline.Value

noncomputable section

open Idealize.ShloMosaic Idealize.ShloMosaic.TcCoe Idealize.ShloMosaic.ValueIdx
open scoped BigOperators

namespace Cert.ReferenceIdeal.RefValue

open Cert.ReferenceIdeal Cert.ReferenceIdeal.Gen

/-- The flat table entry of image `b` and id `k`. -/
abbrev entry (b : Fin 32) (k : Fin 256) : S8192.Idx := ix1 (⟨256 * b.val + k.val, by have := b.isLt; have := k.isLt; omega⟩ : Fin 8192)

/-! ## A scatter-add into a one-axis table -/

/-- The dimension numbers of `x.at[idx].add(u)` for a table `[N]`, scatter indices `[R, 1]` and updates `[R]`. -/
private abbrev flatScatter (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Update `r` reads its one start-index component at `(r, 0)` of the scatter indices. -/
private theorem flatScatter_siIdx {N R : Nat} (wf : ScatterDims.WF ⟨1, ![N]⟩ ⟨2, ![R, 1]⟩ ⟨1, ![R]⟩ [] [0] [0] 1) (r : Fin R) :
    (flatScatter N R wf).siIdx (ix1 r) ⟨List.idxOf (0 : Fin 1) (flatScatter N R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's one axis the window starts at the scatter index of the update, read signed. -/
private theorem flatScatter_start {N R w : Nat} (wf : ScatterDims.WF ⟨1, ![N]⟩ ⟨2, ![R, 1]⟩ ⟨1, ![R]⟩ [] [0] [0] 1)
    (idx : IVec ⟨2, ![R, 1]⟩ w) (r : Fin R) :
    (flatScatter N R wf).start (ix1 r) idx 0 = (idx (ix2 r 0)).toInt := by
  unfold ScatterDims.start
  rw [dif_pos (show (0 : Fin 1) ∈ (flatScatter N R wf).scatterDimsToOperandDims from List.mem_singleton.mpr rfl),
    flatScatter_siIdx wf r]

/-- The table's one axis is an inserted axis: its window coordinate is `0`. -/
private theorem flatScatter_window {N R : Nat} (wf : ScatterDims.WF ⟨1, ![N]⟩ ⟨2, ![R, 1]⟩ ⟨1, ![R]⟩ [] [0] [0] 1) (r : Fin R) :
    (flatScatter N R wf).window (ix1 r) 0 = 0 := rfl

/-- Update `r` lands on table entry `a` exactly when its start index, read signed, is `a`. -/
private theorem flatScatter_resultIdx?_eq_some_iff {N R w : Nat}
    (wf : ScatterDims.WF ⟨1, ![N]⟩ ⟨2, ![R, 1]⟩ ⟨1, ![R]⟩ [] [0] [0] 1)
    (idx : IVec ⟨2, ![R, 1]⟩ w) (r : Fin R) (a : Fin N) :
    (flatScatter N R wf).resultIdx? (ix1 r) idx = some (ix1 a) ↔ (idx (ix2 r 0)).toInt = (a.val : Int) := by
  have hs := flatScatter_start wf idx r
  have hw := flatScatter_window wf r
  unfold ScatterDims.resultIdx?
  constructor
  · -- landed at a: the start is inside the table and equals a
    intro h
    split at h
    · rename_i hin
      have hf := Option.some.inj h
      have e0 := congrArg (fun f => (f 0).val) hf
      simp only [hs, hw] at e0
      have h0 := hin 0
      rw [hs, hw] at h0
      have ea : ((ix1 a : (⟨1, ![N]⟩ : Shape).Idx) 0).val = a.val := rfl
      rw [ea] at e0
      omega
    · exact absurd h (by simp)
  · -- the start index is an entry of the table: the window is inside, at a
    intro hv
    have hin : ∀ a' : Fin 1, 0 ≤ (flatScatter N R wf).start (ix1 r) idx a' + (flatScatter N R wf).window (ix1 r) a'
        ∧ (flatScatter N R wf).start (ix1 r) idx a' + (flatScatter N R wf).window (ix1 r) a' < (⟨1, ![N]⟩ : Shape).size a' := by
      intro a'
      match a' with
      | ⟨0, _⟩ =>
        show 0 ≤ (flatScatter N R wf).start (ix1 r) idx 0 + (flatScatter N R wf).window (ix1 r) 0
          ∧ (flatScatter N R wf).start (ix1 r) idx 0 + (flatScatter N R wf).window (ix1 r) 0 < (N : Int)
        rw [hs, hw, hv]; have := a.isLt; constructor <;> omega
    rw [dif_pos hin]
    congr 1
    funext a'
    refine Fin.ext ?_
    match a' with
    | ⟨0, _⟩ =>
      show ((flatScatter N R wf).start (ix1 r) idx 0 + (flatScatter N R wf).window (ix1 r) 0).toNat = a.val
      rw [hs, hw, hv]; omega

/-- The accumulated table at `a`: the table's entry plus the updates whose start index is `a`. -/
private theorem flatScatterAdd_apply {N R w : Nat}
    (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (upd : (⟨1, ![R]⟩ : Shape).Idx → EReal)
    (a : Fin N) :
    Ideal.hostScatterAdd (flatScatter N R wf) x idx upd (ix1 a)
      = x (ix1 a) + ∑ r : Fin R, if (idx (ix2 r 0)).toInt = (a.val : Int) then upd (ix1 r) else 0 := by
  unfold Ideal.hostScatterAdd
  congr 1
  -- the sum over the updates that land on a, re-indexed by the update's one coordinate
  rw [Finset.sum_filter, ← Equiv.sum_comp (idxEquiv1 (n := R)).symm]
  refine Finset.sum_congr rfl fun r _ => ?_
  show (if (flatScatter N R wf).resultIdx? (ix1 r) idx = some (ix1 a) then upd (ix1 r) else 0) = _
  simp only [flatScatter_resultIdx?_eq_some_iff]

/-! ## The flat positions of the pixels -/

/-- The flat position of pixel `(h, w)` of image `b'`, row-major. -/
private abbrev pix (b' : Fin 32) (h w : Fin 1024) : Fin 33554432 :=
  ⟨1048576 * b'.val + 1024 * h.val + w.val, by have := b'.isLt; have := h.isLt; have := w.isLt; omega⟩

/-- The flat positions are the triples (image, row, column). -/
private def pixEquiv : Fin 32 × Fin 1024 × Fin 1024 ≃ Fin 33554432 where
  toFun p := pix p.1 p.2.1 p.2.2
  invFun r := (⟨r.val / 1048576, by have := r.isLt; omega⟩, ⟨r.val / 1024 % 1024, by omega⟩, ⟨r.val % 1024, by omega⟩)
  left_inv p := by
    obtain ⟨b', h, w⟩ := p
    have := b'.isLt; have := h.isLt; have := w.isLt
    refine Prod.ext (Fin.ext ?_) (Prod.ext (Fin.ext ?_) (Fin.ext ?_))
    · show (1048576 * b'.val + 1024 * h.val + w.val) / 1048576 = b'.val; omega
    · show (1048576 * b'.val + 1024 * h.val + w.val) / 1024 % 1024 = h.val; omega
    · show (1048576 * b'.val + 1024 * h.val + w.val) % 1024 = w.val; omega
  right_inv r := by
    have := r.isLt
    refine Fin.ext ?_
    show 1048576 * (r.val / 1048576) + 1024 * (r.val / 1024 % 1024) + r.val % 1024 = r.val
    omega

/-- A sum over the flat positions is the sum over the images of the sums over their rows and columns. -/
private theorem sum_pix {M : Type} [AddCommMonoid M] (f : Fin 33554432 → M) :
    ∑ r, f r = ∑ b' : Fin 32, ∑ h : Fin 1024, ∑ w : Fin 1024, f (pix b' h w) := by
  rw [← Equiv.sum_comp pixEquiv f, Fintype.sum_prod_type]
  refine Finset.sum_congr rfl fun b' _ => ?_
  rw [Fintype.sum_prod_type]
  rfl

/-! ## The scattered stages read at a pixel -/

/-- The flattened scores at a pixel's flat position: the pixel's score. -/
private theorem v9_pix (x0 : FVec Ideal Cert.Spec.SArg .f32) (b' : Fin 32) (h w : Fin 1024) :
    ReadP.val_main_v9 (F := Ideal) x0 (ix1 (pix b' h w)) = x0 (ix4 b' 0 h w) := by
  rw [ReadP.val_main_v9_apply, ReadP.val_main_v0_apply]
  have e : ReadP.idx_main_v0 (ReadP.idx_main_v9 (ix1 (pix b' h w))) = ix4 b' 0 h w := by
    have := b'.isLt; have := h.isLt; have := w.isLt
    funext a
    refine Fin.ext ?_
    match a with
    | ⟨0, _⟩ =>
      show ((1048576 * b'.val + 1024 * h.val + w.val) / 1048576 * 1048576 + (1048576 * b'.val + 1024 * h.val + w.val) % 1048576) / 1048576 = b'.val
      omega
    | ⟨1, _⟩ => rfl
    | ⟨2, _⟩ =>
      show ((1048576 * b'.val + 1024 * h.val + w.val) / 1048576 * 1048576 + (1048576 * b'.val + 1024 * h.val + w.val) % 1048576) / 1024 % 1024 = h.val
      omega
    | ⟨3, _⟩ =>
      show ((1048576 * b'.val + 1024 * h.val + w.val) / 1048576 * 1048576 + (1048576 * b'.val + 1024 * h.val + w.val) % 1048576) % 1024 = w.val
      omega
  rw [e]

/-- The scatter index of a pixel of image `b'`: its id word plus `256 · b'`, in 32-bit words. -/
private theorem v11_pix (x1 : IVec Cert.Spec.SArg 32) (b' : Fin 32) (h w : Fin 1024) :
    ReadP.val_main_v11 (F := Ideal) x1 (ix2 (pix b' h w) 0)
      = x1 (ix4 b' 0 h w) + 256#32 * BitVec.ofNat 32 b'.val := by
  rw [ReadP.val_main_v11_apply, ReadP.val_main_v8_apply, ReadP.val_main_v7_apply, ReadP.val_main_v1_apply,
    ReadP.val_main_v6_apply, ReadP.val_main_v5_apply, ReadP.val_main_v4_apply, ReadP.val_main_v3_apply,
    ReadP.val_main_v2_apply, ReadP.val_main_c_apply]
  have := b'.isLt; have := h.isLt; have := w.isLt
  have e1 : ReadP.idx_main_v1 (ReadP.idx_main_v8 (ReadP.idx_main_v11 (ix2 (pix b' h w) 0))) = ix4 b' 0 h w := by
    funext a
    refine Fin.ext ?_
    match a with
    | ⟨0, _⟩ =>
      show ((1048576 * b'.val + 1024 * h.val + w.val) / 1048576 * 1048576 + (1048576 * b'.val + 1024 * h.val + w.val) % 1048576) / 1048576 = b'.val
      omega
    | ⟨1, _⟩ => rfl
    | ⟨2, _⟩ =>
      show ((1048576 * b'.val + 1024 * h.val + w.val) / 1048576 * 1048576 + (1048576 * b'.val + 1024 * h.val + w.val) % 1048576) / 1024 % 1024 = h.val
      omega
    | ⟨3, _⟩ =>
      show ((1048576 * b'.val + 1024 * h.val + w.val) / 1048576 * 1048576 + (1048576 * b'.val + 1024 * h.val + w.val) % 1048576) % 1024 = w.val
      omega
  have e2 : ((ReadP.idx_main_v3 (ReadP.idx_main_v6 (ReadP.idx_main_v8 (ReadP.idx_main_v11 (ix2 (pix b' h w) 0))))) 0).val
      = b'.val := by
    show (1048576 * b'.val + 1024 * h.val + w.val) / 1048576 = b'.val
    omega
  rw [e1, e2]
  rfl

/-- An id word below 256 plus `256 · b'` with `b' < 32` does not wrap, and is not negative read signed. -/
private theorem word_toInt (v : BitVec 32) (hv : v.toNat < 256) (b' : Fin 32) :
    (v + 256#32 * BitVec.ofNat 32 b'.val).toInt = ((256 * b'.val + v.toNat : Nat) : Int) := by
  have hb := b'.isLt
  have h1 : (v + 256#32 * BitVec.ofNat 32 b'.val).toNat = 256 * b'.val + v.toNat := by
    rw [BitVec.toNat_add, BitVec.toNat_mul, BitVec.toNat_ofNat, BitVec.toNat_ofNat]
    omega
  rw [BitVec.toInt_eq_toNat_cond, h1, if_pos (by omega)]

/-- The pixel `(h, w)` of image `b'` is scattered to entry `256 · b + k` exactly when `b' = b` and its id is `k`. -/
private theorem lands_iff (x1 : IVec Cert.Spec.SArg 32) (hr : Cert.Spec.InRange x1) (b b' : Fin 32) (k : Fin 256)
    (h w : Fin 1024) :
    (ReadP.val_main_v11 (F := Ideal) x1 (ix2 (pix b' h w) 0)).toInt = ((256 * b.val + k.val : Nat) : Int)
      ↔ b' = b ∧ x1 (ix4 b' 0 h w) = Cert.Spec.idw k := by
  have hv := hr (ix4 b' 0 h w)
  have hb := b.isLt; have hb' := b'.isLt; have hk := k.isLt
  rw [v11_pix, word_toInt _ hv]
  constructor
  · intro e
    refine ⟨Fin.ext (by omega), BitVec.eq_of_toNat_eq ?_⟩
    show _ = (BitVec.ofNat 32 k.val).toNat
    rw [BitVec.toNat_ofNat]; omega
  · rintro ⟨rfl, e⟩
    rw [e]
    show ((256 * b'.val + (BitVec.ofNat 32 k.val).toNat : Nat) : Int) = _
    rw [BitVec.toNat_ofNat]; omega

/-! ## The two tables -/

/-- A scatter-add by the reference's indices at entry `(b, k)`: the table's entry plus the updates of image `b`'s
    pixels whose id is `k`. The other images' pixels land on other entries. -/
private theorem table_apply (x1 : IVec Cert.Spec.SArg 32) (hr : Cert.Spec.InRange x1) (x : S8192.Idx → EReal)
    (upd : S33554432.Idx → EReal) (b : Fin 32) (k : Fin 256) :
    Ideal.hostScatterAdd scatter_S8192_S33554432x1_S33554432_n_0_0_1 x (ReadP.val_main_v11 (F := Ideal) x1) upd (entry b k)
      = x (entry b k) + ∑ h : Fin 1024, ∑ w : Fin 1024,
          if Cert.Spec.img x1 (ix3 b h w) = Cert.Spec.idw k then upd (ix1 (pix b h w)) else 0 := by
  show Ideal.hostScatterAdd (flatScatter 8192 33554432 Gen.scatter_S8192_S33554432x1_S33554432_n_0_0_1_wf) x
    (ReadP.val_main_v11 (F := Ideal) x1) upd (ix1 _) = _
  rw [flatScatterAdd_apply, sum_pix]
  congr 1
  -- of the sum over the images only image b's term is not zero
  rw [Finset.sum_eq_single b]
  · refine Finset.sum_congr rfl fun h _ => Finset.sum_congr rfl fun w _ => ?_
    exact if_congr ((lands_iff x1 hr b b k h w).trans ⟨fun e => e.2, fun e => ⟨rfl, e⟩⟩) rfl rfl
  · intro b' _ hne
    refine Finset.sum_eq_zero fun h _ => Finset.sum_eq_zero fun w _ => ?_
    rw [if_neg]
    intro e
    exact hne ((lands_iff x1 hr b b' k h w).1 e).1
  · intro hb
    exact absurd (Finset.mem_univ b) hb

/-- The table of sums is the scatter-add of the flattened scores into the zero table. -/
private theorem v12_eq (x0 : FVec Ideal Cert.Spec.SArg .f32) (x1 : IVec Cert.Spec.SArg 32) :
    ReadP.val_main_v12 (F := Ideal) x0 x1
      = Ideal.hostScatterAdd scatter_S8192_S33554432x1_S33554432_n_0_0_1 (ReadP.val_main_v10 (F := Ideal))
          (ReadP.val_main_v11 (F := Ideal) x1) (ReadP.val_main_v9 (F := Ideal) x0) := rfl

/-- The table of counts is the scatter-add of the constant one, by the same indices, into the zero table. -/
private theorem v16_eq (x1 : IVec Cert.Spec.SArg 32) :
    ReadP.val_main_v16 (F := Ideal) x1
      = Ideal.hostScatterAdd scatter_S8192_S33554432x1_S33554432_n_0_0_1 (ReadP.val_main_v14 (F := Ideal))
          (ReadP.val_main_v11 (F := Ideal) x1) (ReadP.val_main_v13 (F := Ideal)) := rfl

/-- The table of sums at entry `(b, k)`. -/
theorem ref_sums (x0 : FVec Ideal Cert.Spec.SArg .f32) (x1 : IVec Cert.Spec.SArg 32) (hr : Cert.Spec.InRange x1)
    (b : Fin 32) (k : Fin 256) :
    Cert.ReferenceIdeal.ReadP.val_main_v12 (F := Ideal) x0 x1 (entry b k)
      = Cert.Spec.segSum (Cert.Spec.img x0) (Cert.Spec.img x1) b k := by
  -- the zero table contributes nothing
  rw [v12_eq, table_apply x1 hr, ReadP.val_main_v10_apply, ReadP.val_main_cst_apply]
  show Ideal.ofBits .f32 0x00000000#32 + _ = _
  rw [Ideal.ofBits_zero_f32, zero_add]
  unfold Cert.Spec.segSum
  refine Finset.sum_congr rfl fun h _ => Finset.sum_congr rfl fun w _ => ?_
  rw [v9_pix]
  rfl

/-- The table of counts at entry `(b, k)`. -/
theorem ref_cnts (x1 : IVec Cert.Spec.SArg 32) (hr : Cert.Spec.InRange x1) (b : Fin 32) (k : Fin 256) :
    Cert.ReferenceIdeal.ReadP.val_main_v16 (F := Ideal) x1 (entry b k)
      = Cert.Spec.segCnt (Cert.Spec.img x1) b k := by
  -- the zero table contributes nothing, and every update is the constant one
  rw [v16_eq, table_apply x1 hr, ReadP.val_main_v14_apply, ReadP.val_main_cst_1_apply]
  show Ideal.ofBits .f32 0x00000000#32 + _ = _
  rw [Ideal.ofBits_zero_f32, zero_add]
  unfold Cert.Spec.segCnt
  refine Finset.sum_congr rfl fun h _ => Finset.sum_congr rfl fun w _ => ?_
  rw [ReadP.val_main_v13_apply, ReadP.val_main_cst_0_apply]
  show (if _ then Ideal.ofBits .f32 0x3F800000#32 else 0) = _
  rw [Ideal.ofBits_one_f32]

end Cert.ReferenceIdeal.RefValue

end
-- ==== Proof.RefValue.lean ====
/-
  The reference's result read index by index: it is the specification's function of the two argument arrays
  when every id word is below 256.

  The reference flattens the images to `[32, 2^20]`, adds `256 · b` to image `b`'s ids, and scatter-adds the
  scores (and ones) into a zero table of `32 · 256` entries: entry `256 · b + k` receives exactly the scores
  (the ones) of image `b`'s pixels whose id is `k`, because with ids in 0 … 255 the shifted ids of different
  images never meet. The quotient of the two tables, reshaped to `[32, 256]`, is gathered back at every
  pixel's id (in range, so the gather's own range test passes and its fill value is never taken), compared
  with 1/2 and selected against the score by `id < 255`.

  The proof reads the last stage at the result index `(b, 0, h, w)`. That index flattens to `(b, 1024 · h + w)`,
  where the flattened ids and scores are the arguments at `(b, 0, h, w)` again. The id there, `id`, is below 256:
  it is not negative as a signed word, so the wrapped index `id + 256` is never chosen; it lies in `[0, 255]`, so the
  range test is the bit 1 at every start index and so is its conjunction over the axis of extent 1; and the gather,
  which reads row `b` of the `[32, 256]` table at the start index read signed and clamped into `[0, 255]`, reads
  column `id`. That entry is the flat entry `256 · b + id` of the quotient of the two tables, the quotient of the
  sum and the count of image `b`'s pixels of id `id`. The two selects that follow are the specification's fused
  pixel of that mean, the id and the score, with the same literal words on both sides.
-/
import proofs.«411308_j8117488189733_1_alg».proof.Proof.RefTables
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value
import Idealize.ShloMosaic.Lib.StableHlo.Predicate

noncomputable section

open Idealize.ShloMosaic Idealize.ShloMosaic.TcCoe Idealize.ShloMosaic.ValueIdx
open scoped BigOperators

namespace Cert.ReferenceIdeal.RefValue

open Cert.ReferenceIdeal Cert.ReferenceIdeal.Gen

namespace Pixel

open Cert.ReferenceIdeal.ReadP

/-! ## Words: an id below 256 under the signed comparisons, and a conjunction of ones -/

/-- An id word below 256 is not negative as a signed integer. -/
theorem slt_zero_of_lt {a : BitVec 32} (h : a.toNat < 256) : IntOp.cmpi .slt a 0#32 = 0#1 := by
  apply eq_zero_of_ne_one
  intro e
  have h1 := (StableHlo.Predicate.slt_iff_toNat (a := a) (b := 0#32) (by omega) (by decide)).1 e
  have h0 : (0#32 : BitVec 32).toNat = 0 := rfl
  omega

/-- An id word below 256 is at least 0 as a signed integer. -/
theorem sge_zero_of_lt {a : BitVec 32} (h : a.toNat < 256) : IntOp.cmpi .sge a 0#32 = 1#1 := by
  refine (StableHlo.Predicate.sge_iff_toNat (a := a) (b := 0#32) (by omega) (by decide)).2 ?_
  have h0 : (0#32 : BitVec 32).toNat = 0 := rfl
  omega

/-- An id word below 256 is at most 255 as a signed integer. -/
theorem sle_255_of_lt {a : BitVec 32} (h : a.toNat < 256) : IntOp.cmpi .sle a 255#32 = 1#1 := by
  refine (StableHlo.Predicate.sle_iff_toNat (a := a) (b := 255#32) (by omega) (by decide)).2 ?_
  have h0 : (255#32 : BitVec 32).toNat = 255 := rfl
  omega

/-- An id word below 256, read signed and clamped into `[0, 255]`, is itself. -/
theorem clamp_id {a : BitVec 32} (h : a.toNat < 256) : min a.toInt.toNat 255 = a.toNat := by
  rw [StableHlo.Predicate.toInt_eq_toNat_of_lt (by omega), Int.toNat_natCast]
  omega

/-- The conjunction, from the bit 1, of bits that are all 1 is 1. -/
theorem foldl_andi_ones {ι : Type} (f : ι → BitVec 1) (hf : ∀ n, f n = 1#1) :
    ∀ l : List ι, l.foldl (fun r n => IntOp.andi r (f n)) 1#1 = 1#1
  | [] => rfl
  | n :: l => by
    rw [List.foldl_cons, hf n]
    exact foldl_andi_ones f hf l

/-! ## The gather's range test passes everywhere -/

/-- The gather's start indices before their reshape: the id itself, the wrapped index `id + 256` never chosen. -/
theorem ids_sel (x1 : IVec Cert.Spec.SArg 32) (hr : Cert.Spec.InRange x1) (j : S32x1048576.Idx) :
    val_main_call0_v4 (F := Ideal) x1 j = x1 (idx_main_v1 j) := by
  rw [val_main_call0_v4_apply, val_main_call0_v1_apply, val_main_v1_apply, val_main_call0_v0_apply,
    val_main_call0_c_apply, slt_zero_of_lt (hr _), select_zero]

/-- Every start index lies in `[0, 255]`. -/
theorem inb_one (x1 : IVec Cert.Spec.SArg 32) (hr : Cert.Spec.InRange x1) (i : S32x1048576x1.Idx) :
    val_main_call0_v11 (F := Ideal) x1 i = 1#1 := by
  rw [val_main_call0_v11_apply, val_main_call0_v7_apply, val_main_call0_v10_apply, val_main_call0_v5_apply,
    val_main_call0_v6_apply, val_main_call0_c_2_apply, val_main_call0_v9_apply, val_main_call0_v8_apply,
    val_main_call0_c_1_apply, ids_sel x1 hr, sge_zero_of_lt (hr _), sle_255_of_lt (hr _)]
  rfl

/-- The conjunction of the range tests over the start index's one component is 1 at every pixel. -/
theorem all_inb (x1 : IVec Cert.Spec.SArg 32) (hr : Cert.Spec.InRange x1) (j : S32x1048576.Idx) :
    val_main_call0_v12 (F := Ideal) x1 j = 1#1 := by
  unfold val_main_call0_v12
  rw [Host.reduce_eq_foldl]
  exact foldl_andi_ones _ (inb_one x1 hr) _

/-! ## The gather read at an index -/
section Gather
variable {α : Type}

/-- The gather along the id axis read at `(b, p)`: row `b` of the table at the start index `idx[b, p, 0]`, read signed
    and clamped into `[0, 255]`. -/
theorem gather_row_apply (x : S32x256.Idx → α) (idx : IVec S32x1048576x1 32) (j : S32x1048576.Idx) :
    Host.gather gather_S32x256_S32x1048576x1_S32x1048576_n_1_0_0_1_2_11 x idx j
      = x (ix2 (⟨(j 0).val, idx2_lt0 j⟩ : Fin 32)
          (⟨min (idx (ix3 (⟨(j 0).val, idx2_lt0 j⟩ : Fin 32) (⟨(j 1).val, idx2_lt1 j⟩ : Fin 1048576) (0 : Fin 1))).toInt.toNat 255,
            by omega⟩ : Fin 256)) := by
  unfold Host.gather
  congr 1
  funext a
  refine Fin.ext ?_
  match a with
  | ⟨0, _⟩ =>
    show gather_S32x256_S32x1048576x1_S32x1048576_n_1_0_0_1_2_11.start j idx 0
      + gather_S32x256_S32x1048576x1_S32x1048576_n_1_0_0_1_2_11.batchCoord j 0
      + gather_S32x256_S32x1048576x1_S32x1048576_n_1_0_0_1_2_11.offCoord j 0 = (j 0).val
    have hb : (0 : Fin 2) ∈ gather_S32x256_S32x1048576x1_S32x1048576_n_1_0_0_1_2_11.operandBatchingDims :=
      List.mem_singleton.mpr rfl
    rw [GatherDims.start_batching _ _ _ _ hb,
      GatherDims.offCoord_eq_zero _ _ _ (fun h => ((GatherDims.mem_sKept _ _).mp h).2 hb)]
    simp only [Nat.add_zero, Nat.zero_add]
    unfold GatherDims.batchCoord
    rw [dif_pos hb]
    rfl
  | ⟨1, _⟩ =>
    show gather_S32x256_S32x1048576x1_S32x1048576_n_1_0_0_1_2_11.start j idx 1
      + gather_S32x256_S32x1048576x1_S32x1048576_n_1_0_0_1_2_11.batchCoord j 1
      + gather_S32x256_S32x1048576x1_S32x1048576_n_1_0_0_1_2_11.offCoord j 1
      = min (idx (ix3 (⟨(j 0).val, idx2_lt0 j⟩ : Fin 32) (⟨(j 1).val, idx2_lt1 j⟩ : Fin 1048576) (0 : Fin 1))).toInt.toNat 255
    have hc : (1 : Fin 2) ∈ gather_S32x256_S32x1048576x1_S32x1048576_n_1_0_0_1_2_11.collapsedSliceDims :=
      List.mem_singleton.mpr rfl
    have hm : (1 : Fin 2) ∈ gather_S32x256_S32x1048576x1_S32x1048576_n_1_0_0_1_2_11.startIndexMap :=
      List.mem_singleton.mpr rfl
    have hnb : (1 : Fin 2) ∉ gather_S32x256_S32x1048576x1_S32x1048576_n_1_0_0_1_2_11.operandBatchingDims := by
      intro h; exact absurd (List.mem_singleton.mp h) (by decide)
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos hm]
    have hsi : gather_S32x256_S32x1048576x1_S32x1048576_n_1_0_0_1_2_11.siIdx j
        ⟨List.idxOf (1 : Fin 2) gather_S32x256_S32x1048576x1_S32x1048576_n_1_0_0_1_2_11.startIndexMap,
          List.idxOf_lt_length_iff.2 hm⟩
        = ix3 (⟨(j 0).val, idx2_lt0 j⟩ : Fin 32) (⟨(j 1).val, idx2_lt1 j⟩ : Fin 1048576) (0 : Fin 1) := by
      funext b; refine Fin.ext ?_
      match b with
      | ⟨0, _⟩ => rfl
      | ⟨1, _⟩ => rfl
      | ⟨2, _⟩ => rfl
    rw [hsi]
    rfl

end Gather

/-! ## The index arithmetic of the reshapes -/

/-- The flat position of pixel `(h, w)` in its image. -/
abbrev pix (h w : Fin 1024) : Fin 1048576 := ⟨h.val * 1024 + w.val, by have := h.isLt; have := w.isLt; omega⟩

/-- The result index `(b, 0, h, w)` flattens to `(b, 1024 · h + w)`. -/
theorem flat_of_arg (b : Fin 32) (h w : Fin 1024) :
    idx_main_v26 (ix4 b (0 : Fin 1) h w) = ix2 b (pix h w) := by
  funext a
  refine Fin.ext ?_
  have hb := b.isLt; have hh := h.isLt; have hw := w.isLt
  match a with
  | ⟨0, _⟩ =>
    show (((b.val * 1 + 0) * 1024 + h.val) * 1024 + w.val) / 1048576 = b.val
    omega
  | ⟨1, _⟩ =>
    show (((b.val * 1 + 0) * 1024 + h.val) * 1024 + w.val) % 1048576 = h.val * 1024 + w.val
    omega

/-- The flat index `(b, 1024 · h + w)` of the ids is the argument's `(b, 0, h, w)`. -/
theorem arg_of_flat (b : Fin 32) (h w : Fin 1024) :
    idx_main_v1 (ix2 b (pix h w)) = ix4 b (0 : Fin 1) h w := by
  funext a
  refine Fin.ext ?_
  have hb := b.isLt; have hh := h.isLt; have hw := w.isLt
  match a with
  | ⟨0, _⟩ =>
    show (b.val * 1048576 + (h.val * 1024 + w.val)) / 1048576 = b.val
    omega
  | ⟨1, _⟩ => rfl
  | ⟨2, _⟩ =>
    show (b.val * 1048576 + (h.val * 1024 + w.val)) / 1024 % 1024 = h.val
    omega
  | ⟨3, _⟩ =>
    show (b.val * 1048576 + (h.val * 1024 + w.val)) % 1024 = w.val
    omega

/-- The same for the scores. -/
theorem arg_of_flat' (b : Fin 32) (h w : Fin 1024) :
    idx_main_v0 (ix2 b (pix h w)) = ix4 b (0 : Fin 1) h w := arg_of_flat b h w

/-- The start-index position `(b, p, 0)` is the flat position `(b, p)`. -/
theorem flat_of_start (b : Fin 32) (p : Fin 1048576) :
    idx_main_call0_v5 (ix3 b p (0 : Fin 1)) = ix2 b p := by
  funext a
  refine Fin.ext ?_
  have hb := b.isLt; have hp := p.isLt
  match a with
  | ⟨0, _⟩ =>
    show ((b.val * 1048576 + p.val) * 1 + 0) / 1048576 = b.val
    omega
  | ⟨1, _⟩ =>
    show ((b.val * 1048576 + p.val) * 1 + 0) % 1048576 = p.val
    omega

/-- Row `b`, column `k` of the table of means is the flat entry `256 · b + k`. -/
theorem entry_of (b : Fin 32) (k : Fin 256) : idx_main_v18 (ix2 b k) = entry b k := by
  funext a
  refine Fin.ext ?_
  match a with
  | ⟨0, _⟩ =>
    show b.val * 256 + k.val = 256 * b.val + k.val
    omega

/-! ## The stages at a pixel -/

section Stages
variable (x0 : FVec Ideal Cert.Spec.SArg .f32) (x1 : IVec Cert.Spec.SArg 32) (hr : Cert.Spec.InRange x1)
  (b : Fin 32) (h w : Fin 1024)

/-- The flattened ids at `(b, 1024 · h + w)`. -/
theorem ids_at : val_main_v1 (F := Ideal) x1 (ix2 b (pix h w)) = x1 (ix4 b (0 : Fin 1) h w) := by
  rw [val_main_v1_apply, arg_of_flat]

/-- The flattened scores at `(b, 1024 · h + w)`. -/
theorem score_at : val_main_v0 (F := Ideal) x0 (ix2 b (pix h w)) = x0 (ix4 b (0 : Fin 1) h w) := by
  rw [val_main_v0_apply, arg_of_flat']

include hr

/-- The gather's start index at `(b, 1024 · h + w, 0)`: the pixel's id. -/
theorem start_at : val_main_call0_v5 (F := Ideal) x1 (ix3 b (pix h w) (0 : Fin 1)) = x1 (ix4 b (0 : Fin 1) h w) := by
  rw [val_main_call0_v5_apply, flat_of_start, ids_sel x1 hr, arg_of_flat]

/-- The gathered mean at a pixel: the quotient of its superpixel's sum and count. -/
theorem mean_at :
    val_main_v19 (F := Ideal) x0 x1 (ix2 b (pix h w))
      = FloatOps.hostDivf (F := Ideal) (φ := .f32)
          (Cert.Spec.segSum (Cert.Spec.img x0) (Cert.Spec.img x1) b (Cert.Spec.slot (x1 (ix4 b (0 : Fin 1) h w))))
          (Cert.Spec.segCnt (Cert.Spec.img x1) b (Cert.Spec.slot (x1 (ix4 b (0 : Fin 1) h w)))) := by
  rw [val_main_v19_apply, all_inb x1 hr, select_one]
  unfold val_main_call0_v13
  rw [gather_row_apply]
  have hcol : (ix2 (⟨((ix2 b (pix h w) : S32x1048576.Idx) 0).val, idx2_lt0 _⟩ : Fin 32)
        (⟨min (val_main_call0_v5 (F := Ideal) x1 (ix3 (⟨((ix2 b (pix h w) : S32x1048576.Idx) 0).val, idx2_lt0 _⟩ : Fin 32)
            (⟨((ix2 b (pix h w) : S32x1048576.Idx) 1).val, idx2_lt1 _⟩ : Fin 1048576) (0 : Fin 1))).toInt.toNat 255,
          by omega⟩ : Fin 256) : S32x256.Idx)
      = ix2 b (Cert.Spec.slot (x1 (ix4 b (0 : Fin 1) h w))) := by
    funext a
    refine Fin.ext ?_
    match a with
    | ⟨0, _⟩ => rfl
    | ⟨1, _⟩ =>
      show min (val_main_call0_v5 (F := Ideal) x1 (ix3 b (pix h w) (0 : Fin 1))).toInt.toNat 255
        = (x1 (ix4 b (0 : Fin 1) h w)).toNat % 256
      rw [start_at x1 hr, clamp_id (hr _)]
      have := hr (ix4 b (0 : Fin 1) h w)
      omega
  rw [hcol, val_main_v18_apply, entry_of, val_main_v17_apply, ref_sums x0 x1 hr, ref_cnts x1 hr]

end Stages

/-- The specification at `(b, 0, h, w)`: the fused pixel of the quotient of its superpixel's sum and count. -/
theorem spec_at (x0 : FVec Ideal Cert.Spec.SArg .f32) (x1 : IVec Cert.Spec.SArg 32) (b : Fin 32) (h w : Fin 1024) :
    Cert.Spec.G x0 x1 (ix4 b (0 : Fin 1) h w)
      = Cert.Spec.fuse (FloatOps.hostDivf (F := Ideal) (φ := .f32)
          (Cert.Spec.segSum (Cert.Spec.img x0) (Cert.Spec.img x1) b (Cert.Spec.slot (x1 (ix4 b (0 : Fin 1) h w))))
          (Cert.Spec.segCnt (Cert.Spec.img x1) b (Cert.Spec.slot (x1 (ix4 b (0 : Fin 1) h w)))))
        (x1 (ix4 b (0 : Fin 1) h w)) (x0 (ix4 b (0 : Fin 1) h w)) := rfl

/-- The reference's last stage at `(b, 0, h, w)`. -/
theorem ref_value_at (x0 : FVec Ideal Cert.Spec.SArg .f32) (x1 : IVec Cert.Spec.SArg 32) (hr : Cert.Spec.InRange x1)
    (b : Fin 32) (h w : Fin 1024) :
    val_main_v26 (F := Ideal) x0 x1 (ix4 b (0 : Fin 1) h w) = Cert.Spec.G x0 x1 (ix4 b (0 : Fin 1) h w) := by
  rw [spec_at, val_main_v26_apply, flat_of_arg, val_main_v25_apply, val_main_v24_apply, val_main_v22_apply,
    val_main_v21_apply, mean_at x0 x1 hr, ids_at, score_at, val_main_v23_apply, val_main_c_5_apply,
    val_main_v20_apply, val_main_cst_2_apply, val_main_call1_v0_apply, val_main_cst_3_apply,
    val_main_call1_v1_apply, val_main_cst_4_apply]
  rfl

end Pixel

/-- The reference's last stage is the specification's result. -/
theorem ref_value (x0 : FVec Ideal Cert.Spec.SArg .f32) (x1 : IVec Cert.Spec.SArg 32) (hr : Cert.Spec.InRange x1) :
    Cert.ReferenceIdeal.ReadP.val_main_v26 (F := Ideal) x0 x1 = Cert.Spec.G x0 x1 := by
  funext i
  have hi : i = ix4 (⟨(i 0).val, (i 0).isLt⟩ : Fin 32) (0 : Fin 1) (⟨(i 2).val, (i 2).isLt⟩ : Fin 1024)
      (⟨(i 3).val, (i 3).isLt⟩ : Fin 1024) := by
    funext a
    match a with
    | ⟨0, _⟩ => rfl
    | ⟨1, _⟩ => exact Fin.ext (by have h1 : (i 1).val < 1 := (i 1).isLt; show (i 1).val = 0; omega)
    | ⟨2, _⟩ => rfl
    | ⟨3, _⟩ => rfl
  rw [hi]
  exact Pixel.ref_value_at x0 x1 hr _ _ _

end Cert.ReferenceIdeal.RefValue

end
-- ==== Proof.PreRange.lean ====
/-
  The precondition read: every id word is one of 0 … 255.

  The printed precondition is the conjunction of three whole-array tests; its second and third say that every
  id, read as a signed 32-bit number, is at least 0 and less than 256, which for the word means its unsigned
  value is below 256.
-/
import proofs.«411308_j8117488189733_1_alg».proof.Pre_finite_inputs
import proofs.«411308_j8117488189733_1_alg».proof.Proof.Gen.Pre_finite_inputs
import proofs.«411308_j8117488189733_1_alg».proof.Proof.Spec
import Idealize.ShloMosaic.Lib.ReduceAll
import Idealize.ShloMosaic.Lib.StableHlo.Predicate

noncomputable section

open Idealize.ShloMosaic

namespace Cert.PreRange

/-- A 32-bit word that reads, as a signed number, at least 0 and less than 256 has unsigned value below 256:
    a word whose unsigned value is 2³¹ or more reads negative, so the word is below 2³¹ and the two readings agree. -/
private theorem toNat_lt_of_toInt {a : BitVec 32} (h0 : (0#32 : BitVec 32).toInt ≤ a.toInt)
    (h1 : a.toInt < (256#32 : BitVec 32).toInt) : a.toNat < 256 := by
  have e0 : (0#32 : BitVec 32).toInt = 0 := by decide
  have e1 : (256#32 : BitVec 32).toInt = 256 := by decide
  rw [e0] at h0
  rw [e1] at h1
  have hc := BitVec.toInt_eq_toNat_cond a
  have hlt := a.isLt
  split at hc <;> omega

/-- Under the precondition every id word's unsigned value is below 256. -/
theorem inRange_of_pre [Cert.Pre_finite_inputs.Facts] (x0 : FVec Ideal Cert.Spec.SArg .f32) (x1 : IVec Cert.Spec.SArg 32)
    (h : Cert.Pre_finite_inputs.fn (F := Ideal) x0 x1 = fun _ => 1#1) : Cert.Spec.InRange x1 := by
  intro i
  -- the precondition's value has one index
  haveI : Subsingleton Cert.Pre_finite_inputs.S_.Idx := ⟨fun a b => funext fun d => d.elim0⟩
  have hz := congrFun h ValueIdx.ix0
  dsimp only [Cert.Pre_finite_inputs.fn] at hz
  -- a conjunction of bits is 1 exactly when each is: keep the second and third whole-array tests
  obtain ⟨h7, h10⟩ := IntOp.andi_eq_one.1 hz
  obtain ⟨-, h6⟩ := IntOp.andi_eq_one.1 h7
  -- a whole-array conjunction that is 1 is 1 at every element
  have hge := Host.reduce_andi_all _ _ _ _ _ h6 i
  have hlt := Host.reduce_andi_all _ _ _ _ _ h10 i
  -- at element i the two signed compares are against the constants 0 and 256
  have hge' : (0#32 : BitVec 32).toInt ≤ (x1 i).toInt := IntOp.cmpi_sge.1 hge
  have hlt' : (x1 i).toInt < (256#32 : BitVec 32).toInt := IntOp.cmpi_slt.1 hlt
  exact toNat_lt_of_toInt hge' hlt'

end Cert.PreRange

end
-- ==== Proof.lean ====
/-
  The certificate: a two-pass superpixel fusion kernel against its one-pass reference.

  Both programs take a batch of 32 score images f32[32,1,1024,1024] and, pixel for pixel, superpixel ids
  i32[32,1,1024,1024]. For every image and every id they form the mean of the scores of the image's pixels
  of that id; a pixel whose id is below 255 becomes 1 when its superpixel's mean exceeds 1/2 and 0 otherwise,
  and a pixel of id 255 keeps its score. The reference does it with two scatter-adds into a table of
  32 · 256 entries and a gather back; the kernel with a first region that, tile by tile, sums the scores
  (and counts the pixels) of each id by comparing against every id in turn, a host quotient, and a second
  region that picks every pixel's mean by the same comparison walk. The precondition keeps every id in
  0 … 255, the range the reference's gather indexes; inside it the reference's shifted ids of different
  images never meet, and both programs compute the specification's function `Cert.Spec.G` of the arguments:
  the kernel by `KValue.result_eq` (over the two regions' tables and image), the reference by
  `RefValue.ref_value`. All sums are finite sums of extended reals, so the scores' finiteness is not used.
  The ideal pass rewrote nothing, so the kernel's idealization is its own text read over the extended reals.
-/
import proofs.«411308_j8117488189733_1_alg».proof.Defs
import proofs.«411308_j8117488189733_1_alg».proof.Proof.Gen.Kernel
import proofs.«411308_j8117488189733_1_alg».proof.Proof.Gen.Kernel.Skeleton
import proofs.«411308_j8117488189733_1_alg».proof.Proof.Gen.Kernel.Launch
import proofs.«411308_j8117488189733_1_alg».proof.Proof.Gen.Kernel.Points
import proofs.«411308_j8117488189733_1_alg».proof.Proof.Gen.Kernel.Frame
import proofs.«411308_j8117488189733_1_alg».proof.Proof.Gen.KernelIdeal
import proofs.«411308_j8117488189733_1_alg».proof.Proof.Gen.KernelIdeal.Skeleton
import proofs.«411308_j8117488189733_1_alg».proof.Proof.Gen.KernelIdeal.Launch
import proofs.«411308_j8117488189733_1_alg».proof.Proof.Gen.KernelIdeal.Points
import proofs.«411308_j8117488189733_1_alg».proof.Proof.Gen.KernelIdeal.Frame
import proofs.«411308_j8117488189733_1_alg».proof.Proof.Gen.ReferenceIdeal
import proofs.«411308_j8117488189733_1_alg».proof.Proof.RefRun
import proofs.«411308_j8117488189733_1_alg».proof.Proof.RefRead
import proofs.«411308_j8117488189733_1_alg».proof.Proof.Gen.Pre_finite_inputs
import proofs.«411308_j8117488189733_1_alg».proof.Proof.KValue
import proofs.«411308_j8117488189733_1_alg».proof.Proof.RefRunHand
import proofs.«411308_j8117488189733_1_alg».proof.Proof.RefValue
import proofs.«411308_j8117488189733_1_alg».proof.Proof.PreRange
import Idealize.ShloMosaic.Adequacy
import Idealize.ShloMosaic.Init

noncomputable section

namespace Cert.Proof

open Idealize.ShloMosaic Idealize.SL.Sem

/-- The word-level kernel runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.RunHand.run (F := Ideal) m ρ)

/-- Over the extended reals both programs end with the specification's function of the arguments, which the
    precondition keeps inside the range of ids. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hr : ∀ c : Dev Cert.KernelIdeal.nD, Cert.Spec.InRange (m ((c.tc : Thread Cert.KernelIdeal.nD Cert.KernelIdeal.τ).loc Cert.KernelIdeal.main_arg1)) :=
    fun c => Cert.PreRange.inRange_of_pre _ _ (hpre c)
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.KernelIdeal.KValue.result_eq m ρ c (hr c)), (h c).2.1, (h c).2.2⟩)
      (Cert.KernelIdeal.RunV.run_main (F := Ideal) m ρ)
  · refine (θ_run Cert.ReferenceIdeal.defs _ _).mono (fun r h c => ⟨(h c).1.trans ?_, (h c).2.1, (h c).2.2⟩)
      (Cert.ReferenceIdeal.RunHand.run (F := Ideal) m' ρ')
    rw [(hagree c).1, (hagree c).2]
    exact Cert.ReferenceIdeal.RefValue.ref_value _ _ (hr c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
